-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S64x7x7x2 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1470 : Shape := ⟨2, ![16384, 1470]⟩
abbrev S16384x7x7x30 : Shape := ⟨4, ![16384, 7, 7, 30]⟩
abbrev S_ : Shape := ⟨0, ![]⟩

class Facts : Prop where
  bcast_S_S16384x1470 : S_.BroadcastsInDim S16384x1470 (![] : Fin 0 → Fin S16384x1470.rank)
  reducesTo_S16384x1470_S_d0_1 : S16384x1470.ReducesTo [0, 1] S_
  h_S_ : 0 < S_.numel
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_

variable [Facts]

def fn {F : FTy → Type} [FloatOps F] (main_arg0 : FVec F S16384x1470 .f32) (main_arg1 : FVec F S16384x7x7x30 .f32) : IVec S_ 1 :=
  let main_v0 : FVec F S16384x1470 .f32 := Host.absf main_arg0
  let main_cst : FVec F S_ .f32 := constant S_ .f32 0x7F800000#32
  let main_v1 : FVec F S16384x1470 .f32 := broadcastInDim S16384x1470 ![] bcast_S_S16384x1470 main_cst
  let main_v2 : IVec S16384x1470 1 := cmpf .olt main_v0 main_v1
  let main_c : IVec S_ 1 := constantI S_ 1 1#1
  let main_v3 : IVec S_ 1 := (fun x v => Host.reduce IntOp.andi x v reducesTo_S16384x1470_S_d0_1 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x1470 : Shape := ⟨2, ![16384, 1470]⟩
abbrev S16384x7x7x30 : Shape := ⟨4, ![16384, 7, 7, 30]⟩
abbrev S1x1 : Shape := ⟨2, ![1, 1]⟩
abbrev S64x7x7x30 : Shape := ⟨4, ![64, 7, 7, 30]⟩
abbrev S64x7x7x4 : Shape := ⟨4, ![64, 7, 7, 4]⟩
abbrev S64x7x7x1 : Shape := ⟨4, ![64, 7, 7, 1]⟩
abbrev S64x7x7x2 : Shape := ⟨4, ![64, 7, 7, 2]⟩
abbrev S64x7x7 : Shape := ⟨3, ![64, 7, 7]⟩
abbrev S64x7 : Shape := ⟨2, ![64, 7]⟩
abbrev S64 : Shape := ⟨1, ![64]⟩
abbrev S64x1 : Shape := ⟨2, ![64, 1]⟩
abbrev S1 : Shape := ⟨1, ![1]⟩
abbrev S64x7x7x20 : Shape := ⟨4, ![64, 7, 7, 20]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S16384x1470, .f32⟩
  | .hbm, ⟨1, _⟩ => ⟨S16384x7x7x30, .f32⟩
  | .hbm, ⟨2, _⟩ => ⟨S16384x7x7x30, .f32⟩
  | .hbm, ⟨3, _⟩ => ⟨S1x1, .f32⟩
  | .hbm, ⟨4, _⟩ => ⟨S_, .f32⟩
  | .local _ .vmem, ⟨0, _⟩ => ⟨S64x7x7x30, .f32⟩
  | .local _ .vmem, ⟨1, _⟩ => ⟨S64x7x7x30, .f32⟩
  | .local _ .vmem, ⟨2, _⟩ => ⟨S64x7x7x30, .f32⟩
  | .local _ .vmem, ⟨3, _⟩ => ⟨S64x7x7x30, .f32⟩
  | .local _ .vmem, ⟨4, _⟩ => ⟨S1x1, .f32⟩
  | _, _ => ⟨S16384x1470, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [BitOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7x7x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16384x1470_S16384x7x7x30 : S16384x1470.ShapeCasts S16384x7x7x30
  inb_S1x1_S1x1_0_0 : ∀ a, (![0, 0] : Fin 2 → Nat) a + S1x1.size a ≤ S1x1.size a
  h_S1x1 : 0 < S1x1.numel
  inb_S64x7x7x30_S64x7x7x30_0_0_0_0 : ∀ a, (![0, 0, 0, 0] : Fin 4 → Nat) a + S64x7x7x30.size a ≤ S64x7x7x30.size a
  h_S64x7x7x30 : 0 < S64x7x7x30.numel
  shapeCasts_S64x7x7x30_S64x7x7x30 : S64x7x7x30.ShapeCasts S64x7x7x30
  slices_S64x7x7x30_o0_0_0_21_S64x7x7x4 : S64x7x7x30.Slices ![0, 0, 0, 21] S64x7x7x4
  slices_S64x7x7x30_o0_0_0_26_S64x7x7x4 : S64x7x7x30.Slices ![0, 0, 0, 26] S64x7x7x4
  slices_S64x7x7x4_o0_0_0_0_S64x7x7x1 : S64x7x7x4.Slices ![0, 0, 0, 0] S64x7x7x1
  slices_S64x7x7x4_o0_0_0_2_S64x7x7x1 : S64x7x7x4.Slices ![0, 0, 0, 2] S64x7x7x1
  slices_S64x7x7x4_o0_0_0_1_S64x7x7x1 : S64x7x7x4.Slices ![0, 0, 0, 1] S64x7x7x1
  slices_S64x7x7x4_o0_0_0_3_S64x7x7x1 : S64x7x7x4.Slices ![0, 0, 0, 3] S64x7x7x1
  natLt_1_32 : 1 < 32
  slices_S64x7x7x30_o0_0_0_20_S64x7x7x1 : S64x7x7x30.Slices ![0, 0, 0, 20] S64x7x7x1
  broadcasts_S64x7x7x1_S64x7x7x4 : S64x7x7x1.Broadcasts S64x7x7x4
  slices_S64x7x7x4_o0_0_0_2_S64x7x7x2 : S64x7x7x4.Slices ![0, 0, 0, 2] S64x7x7x2
  slices_S64x7x7x4_o0_0_0_0_S64x7x7x2 : S64x7x7x4.Slices ![0, 0, 0, 0] S64x7x7x2
  concatenates_S64x7x7x2_S64x7x7x2_S64x7x7x4_d3 : Shape.Concatenates [S64x7x7x2, S64x7x7x2] S64x7x7x4 3
  reduces_S64x7x7x4_S64x7x7 : S64x7x7x4.Reduces [3] S64x7x7
  reduces_S64x7x7_S64x7 : S64x7x7.Reduces [2] S64x7
  reduces_S64x7_S64 : S64x7.Reduces [1] S64
  shapeCasts_S64_S64x1 : S64.ShapeCasts S64x1
  reduces_S64x1_S1 : S64x1.Reduces [0] S1
  shapeCasts_S1_S1x1 : S1.ShapeCasts S1x1
  slices_S64x7x7x30_o0_0_0_25_S64x7x7x1 : S64x7x7x30.Slices ![0, 0, 0, 25] S64x7x7x1
  reduces_S64x7x7x1_S64x7x7 : S64x7x7x1.Reduces [3] S64x7x7
  slices_S64x7x7x30_o0_0_0_0_S64x7x7x20 : S64x7x7x30.Slices ![0, 0, 0, 0] S64x7x7x20
  broadcasts_S64x7x7x1_S64x7x7x20 : S64x7x7x1.Broadcasts S64x7x7x20
  reduces_S64x7x7x20_S64x7x7 : S64x7x7x20.Reduces [3] S64x7x7
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x7x7x30.size a ≤ S16384x7x7x30.size a
  hwx0_0 : ∀ i : grid0.Coords, EltTy.bits .f32 = 32 ∨ (Rect.block (s := S16384x7x7x30) S64x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x7x7x30.size a ≤ S16384x7x7x30.size a
  hwx0_1 : ∀ i : grid0.Coords, EltTy.bits .f32 = 32 ∨ (Rect.block (s := S16384x7x7x30) S64x7x7x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S64x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x7x7x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1470 : Shape := ⟨2, ![16384, 1470]⟩
abbrev S16384x7x7x30 : Shape := ⟨4, ![16384, 7, 7, 30]⟩
abbrev S16384x7x7x4 : Shape := ⟨4, ![16384, 7, 7, 4]⟩
abbrev S16384x7x7x1 : Shape := ⟨4, ![16384, 7, 7, 1]⟩
abbrev S_ : Shape := ⟨0, ![]⟩
abbrev S16384x7x7x2 : Shape := ⟨4, ![16384, 7, 7, 2]⟩
abbrev S16384x7x7x20 : Shape := ⟨4, ![16384, 7, 7, 20]⟩

abbrev nBuf : Space → Nat
  | .hbm => 259
  | .vmem => 0
  | .smem => 0
  | _ => 0

abbrev hbmTy0_0 (i : Nat) : BufTy := match i % 128 with
  | 0 => ⟨S16384x1470, .f32⟩
  | 1 => ⟨S16384x7x7x30, .f32⟩
  | 2 => ⟨S16384x7x7x30, .f32⟩
  | 3 => ⟨S16384x7x7x4, .f32⟩
  | 4 => ⟨S16384x7x7x4, .f32⟩
  | 5 => ⟨S16384x7x7x1, .f32⟩
  | 6 => ⟨S16384x7x7x1, .f32⟩
  | 7 => ⟨S_, .f32⟩
  | 8 => ⟨S16384x7x7x1, .f32⟩
  | 9 => ⟨S16384x7x7x1, .f32⟩
  | 10 => ⟨S16384x7x7x1, .f32⟩
  | 11 => ⟨S16384x7x7x1, .f32⟩
  | 12 => ⟨S16384x7x7x1, .f32⟩
  | 13 => ⟨S_, .f32⟩
  | 14 => ⟨S16384x7x7x1, .f32⟩
  | 15 => ⟨S16384x7x7x1, .f32⟩
  | 16 => ⟨S16384x7x7x1, .f32⟩
  | 17 => ⟨S16384x7x7x1, .f32⟩
  | 18 => ⟨S16384x7x7x1, .f32⟩
  | 19 => ⟨S_, .f32⟩
  | 20 => ⟨S16384x7x7x1, .f32⟩
  | 21 => ⟨S16384x7x7x1, .f32⟩
  | 22 => ⟨S16384x7x7x1, .f32⟩
  | 23 => ⟨S16384x7x7x1, .f32⟩
  | 24 => ⟨S16384x7x7x1, .f32⟩
  | 25 => ⟨S_, .f32⟩
  | 26 => ⟨S16384x7x7x1, .f32⟩
  | 27 => ⟨S16384x7x7x1, .f32⟩
  | 28 => ⟨S16384x7x7x1, .f32⟩
  | 29 => ⟨S16384x7x7x1, .f32⟩
  | 30 => ⟨S16384x7x7x1, .f32⟩
  | 31 => ⟨S_, .f32⟩
  | 32 => ⟨S16384x7x7x1, .f32⟩
  | 33 => ⟨S16384x7x7x1, .f32⟩
  | 34 => ⟨S16384x7x7x1, .f32⟩
  | 35 => ⟨S16384x7x7x1, .f32⟩
  | 36 => ⟨S16384x7x7x1, .f32⟩
  | 37 => ⟨S_, .f32⟩
  | 38 => ⟨S16384x7x7x1, .f32⟩
  | 39 => ⟨S16384x7x7x1, .f32⟩
  | 40 => ⟨S16384x7x7x1, .f32⟩
  | 41 => ⟨S16384x7x7x1, .f32⟩
  | 42 => ⟨S16384x7x7x1, .f32⟩
  | 43 => ⟨S_, .f32⟩
  | 44 => ⟨S16384x7x7x1, .f32⟩
  | 45 => ⟨S16384x7x7x1, .f32⟩
  | 46 => ⟨S16384x7x7x1, .f32⟩
  | 47 => ⟨S16384x7x7x1, .f32⟩
  | 48 => ⟨S16384x7x7x1, .f32⟩
  | 49 => ⟨S_, .f32⟩
  | 50 => ⟨S16384x7x7x1, .f32⟩
  | 51 => ⟨S16384x7x7x1, .f32⟩
  | 52 => ⟨S16384x7x7x1, .f32⟩
  | 53 => ⟨S16384x7x7x1, .f32⟩
  | 54 => ⟨S16384x7x7x1, .f32⟩
  | 55 => ⟨S16384x7x7x1, .f32⟩
  | 56 => ⟨S16384x7x7x1, .f32⟩
  | 57 => ⟨S16384x7x7x1, .f32⟩
  | 58 => ⟨S_, .f32⟩
  | 59 => ⟨S_, .f32⟩
  | 60 => ⟨S16384x7x7x1, .f32⟩
  | 61 => ⟨S16384x7x7x1, .f32⟩
  | 62 => ⟨S16384x7x7x1, .f32⟩
  | 63 => ⟨S_, .f32⟩
  | 64 => ⟨S_, .f32⟩
  | 65 => ⟨S16384x7x7x1, .f32⟩
  | 66 => ⟨S16384x7x7x1, .f32⟩
  | 67 => ⟨S16384x7x7x1, .f32⟩
  | 68 => ⟨S16384x7x7x1, .f32⟩
  | 69 => ⟨S16384x7x7x1, .f32⟩
  | 70 => ⟨S16384x7x7x1, .f32⟩
  | 71 => ⟨S16384x7x7x1, .f32⟩
  | 72 => ⟨S16384x7x7x1, .f32⟩
  | 73 => ⟨S16384x7x7x1, .f32⟩
  | 74 => ⟨S16384x7x7x1, .f32⟩
  | 75 => ⟨S16384x7x7x1, .f32⟩
  | 76 => ⟨S16384x7x7x1, .f32⟩
  | 77 => ⟨S16384x7x7x1, .f32⟩
  | 78 => ⟨S_, .f32⟩
  | 79 => ⟨S16384x7x7x1, .f32⟩
  | 80 => ⟨S16384x7x7x1, .f32⟩
  | 81 => ⟨S16384x7x7x1, .f32⟩
  | 82 => ⟨S16384x7x7x4, .f32⟩
  | 83 => ⟨S16384x7x7x4, .f32⟩
  | 84 => ⟨S16384x7x7x1, .f32⟩
  | 85 => ⟨S16384x7x7x1, .f32⟩
  | 86 => ⟨S_, .f32⟩
  | 87 => ⟨S16384x7x7x1, .f32⟩
  | 88 => ⟨S16384x7x7x1, .f32⟩
  | 89 => ⟨S16384x7x7x1, .f32⟩
  | 90 => ⟨S16384x7x7x1, .f32⟩
  | 91 => ⟨S16384x7x7x1, .f32⟩
  | 92 => ⟨S_, .f32⟩
  | 93 => ⟨S16384x7x7x1, .f32⟩
  | 94 => ⟨S16384x7x7x1, .f32⟩
  | 95 => ⟨S16384x7x7x1, .f32⟩
  | 96 => ⟨S16384x7x7x1, .f32⟩
  | 97 => ⟨S16384x7x7x1, .f32⟩
  | 98 => ⟨S_, .f32⟩
  | 99 => ⟨S16384x7x7x1, .f32⟩
  | 100 => ⟨S16384x7x7x1, .f32⟩
  | 101 => ⟨S16384x7x7x1, .f32⟩
  | 102 => ⟨S16384x7x7x1, .f32⟩
  | 103 => ⟨S16384x7x7x1, .f32⟩
  | 104 => ⟨S_, .f32⟩
  | 105 => ⟨S16384x7x7x1, .f32⟩
  | 106 => ⟨S16384x7x7x1, .f32⟩
  | 107 => ⟨S16384x7x7x1, .f32⟩
  | 108 => ⟨S16384x7x7x1, .f32⟩
  | 109 => ⟨S16384x7x7x1, .f32⟩
  | 110 => ⟨S_, .f32⟩
  | 111 => ⟨S16384x7x7x1, .f32⟩
  | 112 => ⟨S16384x7x7x1, .f32⟩
  | 113 => ⟨S16384x7x7x1, .f32⟩
  | 114 => ⟨S16384x7x7x1, .f32⟩
  | 115 => ⟨S16384x7x7x1, .f32⟩
  | 116 => ⟨S_, .f32⟩
  | 117 => ⟨S16384x7x7x1, .f32⟩
  | 118 => ⟨S16384x7x7x1, .f32⟩
  | 119 => ⟨S16384x7x7x1, .f32⟩
  | 120 => ⟨S16384x7x7x1, .f32⟩
  | 121 => ⟨S16384x7x7x1, .f32⟩
  | 122 => ⟨S_, .f32⟩
  | 123 => ⟨S16384x7x7x1, .f32⟩
  | 124 => ⟨S16384x7x7x1, .f32⟩
  | 125 => ⟨S16384x7x7x1, .f32⟩
  | 126 => ⟨S16384x7x7x1, .f32⟩
  | 127 => ⟨S16384x7x7x1, .f32⟩
  | _ => ⟨S16384x1470, .f32⟩

abbrev hbmTy0_1 (i : Nat) : BufTy := match i % 128 with
  | 0 => ⟨S_, .f32⟩
  | 1 => ⟨S16384x7x7x1, .f32⟩
  | 2 => ⟨S16384x7x7x1, .f32⟩
  | 3 => ⟨S16384x7x7x1, .f32⟩
  | 4 => ⟨S16384x7x7x1, .f32⟩
  | 5 => ⟨S16384x7x7x1, .f32⟩
  | 6 => ⟨S16384x7x7x1, .f32⟩
  | 7 => ⟨S16384x7x7x1, .f32⟩
  | 8 => ⟨S16384x7x7x1, .f32⟩
  | 9 => ⟨S_, .f32⟩
  | 10 => ⟨S_, .f32⟩
  | 11 => ⟨S16384x7x7x1, .f32⟩
  | 12 => ⟨S16384x7x7x1, .f32⟩
  | 13 => ⟨S16384x7x7x1, .f32⟩
  | 14 => ⟨S_, .f32⟩
  | 15 => ⟨S_, .f32⟩
  | 16 => ⟨S16384x7x7x1, .f32⟩
  | 17 => ⟨S16384x7x7x1, .f32⟩
  | 18 => ⟨S16384x7x7x1, .f32⟩
  | 19 => ⟨S16384x7x7x1, .f32⟩
  | 20 => ⟨S16384x7x7x1, .f32⟩
  | 21 => ⟨S16384x7x7x1, .f32⟩
  | 22 => ⟨S16384x7x7x1, .f32⟩
  | 23 => ⟨S16384x7x7x1, .f32⟩
  | 24 => ⟨S16384x7x7x1, .f32⟩
  | 25 => ⟨S16384x7x7x1, .f32⟩
  | 26 => ⟨S16384x7x7x1, .f32⟩
  | 27 => ⟨S16384x7x7x1, .f32⟩
  | 28 => ⟨S16384x7x7x1, .f32⟩
  | 29 => ⟨S_, .f32⟩
  | 30 => ⟨S16384x7x7x1, .f32⟩
  | 31 => ⟨S16384x7x7x1, .f32⟩
  | 32 => ⟨S16384x7x7x1, .f32⟩
  | 33 => ⟨S16384x7x7x1, .i1⟩
  | 34 => ⟨S16384x7x7x1, .f32⟩
  | 35 => ⟨S16384x7x7x1, .f32⟩
  | 36 => ⟨S16384x7x7x4, .f32⟩
  | 37 => ⟨S16384x7x7x4, .f32⟩
  | 38 => ⟨S16384x7x7x4, .f32⟩
  | 39 => ⟨S_, .f32⟩
  | 40 => ⟨S16384x7x7x1, .f32⟩
  | 41 => ⟨S16384x7x7x1, .f32⟩
  | 42 => ⟨S16384x7x7x4, .f32⟩
  | 43 => ⟨S16384x7x7x4, .f32⟩
  | 44 => ⟨S16384x7x7x4, .f32⟩
  | 45 => ⟨S16384x7x7x4, .f32⟩
  | 46 => ⟨S16384x7x7x4, .f32⟩
  | 47 => ⟨S16384x7x7x4, .f32⟩
  | 48 => ⟨S16384x7x7x4, .f32⟩
  | 49 => ⟨S16384x7x7x4, .f32⟩
  | 50 => ⟨S16384x7x7x4, .f32⟩
  | 51 => ⟨S16384x7x7x2, .f32⟩
  | 52 => ⟨S16384x7x7x2, .f32⟩
  | 53 => ⟨S16384x7x7x2, .f32⟩
  | 54 => ⟨S_, .f32⟩
  | 55 => ⟨S16384x7x7x2, .f32⟩
  | 56 => ⟨S16384x7x7x2, .f32⟩
  | 57 => ⟨S16384x7x7x2, .f32⟩
  | 58 => ⟨S16384x7x7x2, .f32⟩
  | 59 => ⟨S16384x7x7x2, .f32⟩
  | 60 => ⟨S16384x7x7x2, .f32⟩
  | 61 => ⟨S16384x7x7x4, .f32⟩
  | 62 => ⟨S16384x7x7x2, .f32⟩
  | 63 => ⟨S16384x7x7x2, .f32⟩
  | 64 => ⟨S16384x7x7x2, .f32⟩
  | 65 => ⟨S16384x7x7x4, .f32⟩
  | 66 => ⟨S16384x7x7x4, .f32⟩
  | 67 => ⟨S16384x7x7x4, .f32⟩
  | 68 => ⟨S_, .f32⟩
  | 69 => ⟨S_, .f32⟩
  | 70 => ⟨S16384x7x7x1, .f32⟩
  | 71 => ⟨S16384x7x7x1, .f32⟩
  | 72 => ⟨S_, .f32⟩
  | 73 => ⟨S16384x7x7x1, .f32⟩
  | 74 => ⟨S16384x7x7x1, .f32⟩
  | 75 => ⟨S16384x7x7x1, .f32⟩
  | 76 => ⟨S16384x7x7x1, .f32⟩
  | 77 => ⟨S16384x7x7x1, .f32⟩
  | 78 => ⟨S16384x7x7x1, .f32⟩
  | 79 => ⟨S16384x7x7x1, .f32⟩
  | 80 => ⟨S16384x7x7x1, .f32⟩
  | 81 => ⟨S16384x7x7x1, .f32⟩
  | 82 => ⟨S16384x7x7x1, .f32⟩
  | 83 => ⟨S_, .f32⟩
  | 84 => ⟨S_, .f32⟩
  | 85 => ⟨S_, .f32⟩
  | 86 => ⟨S16384x7x7x1, .f32⟩
  | 87 => ⟨S16384x7x7x1, .f32⟩
  | 88 => ⟨S16384x7x7x1, .f32⟩
  | 89 => ⟨S16384x7x7x1, .f32⟩
  | 90 => ⟨S_, .f32⟩
  | 91 => ⟨S16384x7x7x1, .f32⟩
  | 92 => ⟨S16384x7x7x1, .f32⟩
  | 93 => ⟨S16384x7x7x1, .f32⟩
  | 94 => ⟨S16384x7x7x1, .f32⟩
  | 95 => ⟨S16384x7x7x1, .f32⟩
  | 96 => ⟨S16384x7x7x1, .f32⟩
  | 97 => ⟨S_, .f32⟩
  | 98 => ⟨S_, .f32⟩
  | 99 => ⟨S_, .f32⟩
  | 100 => ⟨S16384x7x7x1, .f32⟩
  | 101 => ⟨S16384x7x7x1, .f32⟩
  | 102 => ⟨S16384x7x7x1, .f32⟩
  | 103 => ⟨S16384x7x7x1, .f32⟩
  | 104 => ⟨S_, .f32⟩
  | 105 => ⟨S16384x7x7x1, .f32⟩
  | 106 => ⟨S16384x7x7x1, .f32⟩
  | 107 => ⟨S16384x7x7x1, .f32⟩
  | 108 => ⟨S16384x7x7x1, .f32⟩
  | 109 => ⟨S16384x7x7x1, .f32⟩
  | 110 => ⟨S16384x7x7x1, .f32⟩
  | 111 => ⟨S_, .f32⟩
  | 112 => ⟨S_, .f32⟩
  | 113 => ⟨S_, .f32⟩
  | 114 => ⟨S16384x7x7x20, .f32⟩
  | 115 => ⟨S16384x7x7x20, .f32⟩
  | 116 => ⟨S16384x7x7x20, .f32⟩
  | 117 => ⟨S16384x7x7x20, .f32⟩
  | 118 => ⟨S16384x7x7x20, .f32⟩
  | 119 => ⟨S16384x7x7x20, .f32⟩
  | 120 => ⟨S16384x7x7x20, .f32⟩
  | 121 => ⟨S16384x7x7x20, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x1470, .f32⟩

abbrev hbmTy0_2 (i : Nat) : BufTy := match i % 128 with
  | 0 => ⟨S_, .f32⟩
  | 1 => ⟨S_, .f32⟩
  | 2 => ⟨S_, .f32⟩
  | _ => ⟨S16384x1470, .f32⟩

abbrev hbmTy (i : Nat) : BufTy := match i / 128 with
  | 0 => hbmTy0_0 i
  | 1 => hbmTy0_1 i
  | 2 => hbmTy0_2 i
  | _ => ⟨S16384x1470, .f32⟩

abbrev bufTy : (tb : Table) → Fin (tcTables nBuf tb) → BufTy
  | .hbm, ⟨i, _⟩ => hbmTy i
  | _, _ => ⟨S16384x1470, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_call1_v0 : Ref sig .tc := ⟨.hbm, 64, rfl⟩
abbrev main_call1_v1 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_13 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_14 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_15 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_16 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_17 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_18 : Ref sig .tc := ⟨.hbm, 137, rfl⟩
abbrev main_call2_v0 : Ref sig .tc := ⟨.hbm, 138, rfl⟩
abbrev main_call2_v1 : Ref sig .tc := ⟨.hbm, 139, rfl⟩
abbrev main_v112 : Ref sig .tc := ⟨.hbm, 140, rfl⟩
abbrev main_v113 : Ref sig .tc := ⟨.hbm, 141, rfl⟩
abbrev main_cst_19 : Ref sig .tc := ⟨.hbm, 142, rfl⟩
abbrev main_call3_v0 : Ref sig .tc := ⟨.hbm, 143, rfl⟩
abbrev main_call3_v1 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_20 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_21 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_22 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_23 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_24 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_25 : Ref sig .tc := ⟨.hbm, 211, rfl⟩
abbrev main_v175 : Ref sig .tc := ⟨.hbm, 212, rfl⟩
abbrev main_cst_26 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_cst_27 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_cst_28 : Ref sig .tc := ⟨.hbm, 225, rfl⟩
abbrev main_v186 : Ref sig .tc := ⟨.hbm, 226, rfl⟩
abbrev main_cst_29 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_cst_30 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_cst_31 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_cst_32 : Ref sig .tc := ⟨.hbm, 250, rfl⟩
abbrev main_v207 : Ref sig .tc := ⟨.hbm, 251, rfl⟩
abbrev main_cst_33 : Ref sig .tc := ⟨.hbm, 252, rfl⟩
abbrev main_v208 : Ref sig .tc := ⟨.hbm, 253, rfl⟩
abbrev main_v209 : Ref sig .tc := ⟨.hbm, 254, rfl⟩
abbrev main_cst_34 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩

abbrev nD : Nat := 1
abbrev τ : Topo := Topo.v7x

variable {F : FTy → Type} [FloatOps F]

class Facts₀ : Prop where
  shapeCasts_S16384x1470_S16384x7x7x30 : S16384x1470.ShapeCasts S16384x7x7x30
  slices_S16384x7x7x30_S16384x7x7x4_0_0_0_21 : S16384x7x7x30.Slices ![0, 0, 0, 21] S16384x7x7x4
  slices_S16384x7x7x4_S16384x7x7x1_0_0_0_0 : S16384x7x7x4.Slices ![0, 0, 0, 0] S16384x7x7x1
  slices_S16384x7x7x4_S16384x7x7x1_0_0_0_2 : S16384x7x7x4.Slices ![0, 0, 0, 2] S16384x7x7x1
  bcast_S_S16384x7x7x1 : S_.BroadcastsInDim S16384x7x7x1 (![] : Fin 0 → Fin S16384x7x7x1.rank)
  slices_S16384x7x7x4_S16384x7x7x1_0_0_0_1 : S16384x7x7x4.Slices ![0, 0, 0, 1] S16384x7x7x1
  slices_S16384x7x7x4_S16384x7x7x1_0_0_0_3 : S16384x7x7x4.Slices ![0, 0, 0, 3] S16384x7x7x1
  slices_S16384x7x7x30_S16384x7x7x4_0_0_0_26 : S16384x7x7x30.Slices ![0, 0, 0, 26] S16384x7x7x4
  slices_S16384x7x7x30_S16384x7x7x1_0_0_0_20 : S16384x7x7x30.Slices ![0, 0, 0, 20] S16384x7x7x1
  bcast_S16384x7x7x1_S16384x7x7x4_0_1_2_3 : S16384x7x7x1.BroadcastsInDim S16384x7x7x4 (![0, 1, 2, 3] : Fin 4 → Fin S16384x7x7x4.rank)
  slices_S16384x7x7x4_S16384x7x7x2_0_0_0_2 : S16384x7x7x4.Slices ![0, 0, 0, 2] S16384x7x7x2
  bcast_S_S16384x7x7x2 : S_.BroadcastsInDim S16384x7x7x2 (![] : Fin 0 → Fin S16384x7x7x2.rank)
  slices_S16384x7x7x4_S16384x7x7x2_0_0_0_0 : S16384x7x7x4.Slices ![0, 0, 0, 0] S16384x7x7x2
  concatenates_S16384x7x7x2_S16384x7x7x2_S16384x7x7x4_d3 : Shape.Concatenates [S16384x7x7x2, S16384x7x7x2] S16384x7x7x4 3
  reducesTo_S16384x7x7x4_S_d0_1_2_3 : S16384x7x7x4.ReducesTo [0, 1, 2, 3] S_
  h_S_ : 0 < S_.numel
  slices_S16384x7x7x30_S16384x7x7x1_0_0_0_25 : S16384x7x7x30.Slices ![0, 0, 0, 25] S16384x7x7x1
  reducesTo_S16384x7x7x1_S_d0_1_2_3 : S16384x7x7x1.ReducesTo [0, 1, 2, 3] S_
  slices_S16384x7x7x30_S16384x7x7x20_0_0_0_0 : S16384x7x7x30.Slices ![0, 0, 0, 0] S16384x7x7x20
  bcast_S16384x7x7x1_S16384x7x7x20_0_1_2_3 : S16384x7x7x1.BroadcastsInDim S16384x7x7x20 (![0, 1, 2, 3] : Fin 4 → Fin S16384x7x7x20.rank)
  reducesTo_S16384x7x7x20_S_d0_1_2_3 : S16384x7x7x20.ReducesTo [0, 1, 2, 3] S_

variable [Facts₀]

class Facts : Prop extends Facts₀ where

variable [Facts]
-- ==== Proof.KernelStep.lean ====
/-
  The kernel's values at one grid point as functions of its two input blocks (64 rows of predictions, 64 of targets),
  composed from the body's payloads in the order the body computes them: the first box's overlap ratio, the better-box
  indicator, the block's five sums of squared differences, and what the point leaves in the accumulator.
-/
import proofs.«428076_j53652731461925_3_alg».proof.Proof.Gen.KernelIdeal.Skeleton

noncomputable section

namespace Cert.KernelIdeal.Cells

open Idealize.ShloMosaic Cert.KernelIdeal Cert.KernelIdeal.Gen

variable {F : FTy → Type} [FloatOps F]

/-- The overlap ratio of the first predicted box, over the whole block. -/
def iou1V (x0 x1 : Vec F S64x7x7x30 .f32) : FVec F S64x7x7x1 .f32 :=
  k0_pay15 (k0_pay6 x1) (k0_pay7 x0) (k0_pay8 x0) (k0_pay9 x0) (k0_pay10 x0) (k0_pay11 x1) (k0_pay12 x1) (k0_pay13 x1)
    (k0_pay14 x1) (Scalar.ofBits .f32 0x3F000000#32)

/-- The indicator of the second box being the better one, over the whole block. -/
def bestV (x0 x1 : Vec F S64x7x7x30 .f32) : FVec F S64x7x7x1 .f32 :=
  k0_pay20 (k0_pay6 x1) (iou1V x0 x1) (k0_pay16 (k0_pay5 x0)) (k0_pay17 (k0_pay5 x0)) (k0_pay18 (k0_pay5 x0)) (k0_pay19 (k0_pay5 x0))

/-- The block's sum of squared box differences, as a one-by-one matrix. -/
def boxSumV (x0 x1 : Vec F S64x7x7x30 .f32) : FVec F S1x1 .f32 :=
  k0_pay24 (k0_pay4 x0) (k0_pay6 x1) (k0_pay21 x1)
    (k0_pay22 (k0_pay5 x0) (k0_pay6 x1) (iou1V x0 x1) (k0_pay16 (k0_pay5 x0)) (k0_pay17 (k0_pay5 x0)) (k0_pay18 (k0_pay5 x0)) (k0_pay19 (k0_pay5 x0)))
    (k0_pay23 (k0_pay6 x1) (iou1V x0 x1) (k0_pay16 (k0_pay5 x0)) (k0_pay17 (k0_pay5 x0)) (k0_pay18 (k0_pay5 x0)) (k0_pay19 (k0_pay5 x0)))

/-- The block's sum of squared object-confidence differences. -/
def objSumV (x0 x1 : Vec F S64x7x7x30 .f32) : FVec F S1x1 .f32 :=
  k0_pay26 (k0_pay25 (k0_pay3 x0) x1 (bestV x0 x1) (k0_pay21 x1))

/-- The block's two sums of squared no-object differences, added. -/
def noObjSumV (x0 x1 : Vec F S64x7x7x30 .f32) : FVec F S1x1 .f32 := k0_pay27 (k0_pay3 x0) x1 (k0_pay21 x1)

/-- The block's sum of squared class differences. -/
def clsSumV (x0 x1 : Vec F S64x7x7x30 .f32) : FVec F S1x1 .f32 := k0_pay28 (k0_pay3 x0) x1 (k0_pay21 x1)

/-- What one grid point leaves in the accumulator that held `acc`. -/
def stepV (acc : Vec F S1x1 .f32) (x0 x1 : Vec F S64x7x7x30 .f32) : FVec F S1x1 .f32 :=
  k0_pay1 (boxSumV x0 x1) (objSumV x0 x1) (noObjSumV x0 x1) (clsSumV x0 x1) acc

end Cert.KernelIdeal.Cells

end
-- ==== Proof.CellLoss.lean ====
/-
  The loss of one grid cell of the detection grid, as a function of the cell's thirty predicted channels `p` and thirty
  target channels `t`, over the extended reals: the overlap ratio (intersection over union) of each of the two predicted
  boxes with the target box, the indicator of the better box, and from them the five squared differences the loss sums —
  box coordinates (midpoints plain, sizes under a signed square root), object confidence, the two no-object
  confidences, and the twenty classes. Written with the operations the kernel applies, in its order; the reference's
  forms (a quotient by two for a product with one half, its own sign and indicator) are related to these elsewhere.
-/
import Idealize.ShloMosaic.PureOps.Ideal.Laws

noncomputable section

namespace Cert.CellLoss

open Idealize.ShloMosaic

/-- The values: extended reals. -/
abbrev E := Ideal .f32

def half : E := Scalar.ofBits (F := Ideal) .f32 0x3F000000#32
def eps : E := Scalar.ofBits (F := Ideal) .f32 0x358637BD#32
def one : E := Scalar.ofBits (F := Ideal) .f32 0x3F800000#32
def negOne : E := Scalar.ofBits (F := Ideal) .f32 0xBF800000#32
def zero : E := Scalar.ofBits (F := Ideal) .f32 0x00000000#32
def five : E := Scalar.ofBits (F := Ideal) .f32 0x40A00000#32

/-- Intersection over union of two boxes given by midpoint, width and height: the overlap of the two corner
    rectangles (clipped below at zero on each axis) over the two areas' sum less the overlap, plus a small constant. -/
def iou (bx bY bw bh tx tY tw th : E) : E :=
  Ideal.div
    (max zero (min (bx + bw * half) (tx + tw * half) - max (bx - bw * half) (tx - tw * half))
      * max zero (min (bY + bh * half) (tY + th * half) - max (bY - bh * half) (tY - th * half)))
    (FloatOps.absf (((bx + bw * half) - (bx - bw * half)) * ((bY + bh * half) - (bY - bh * half)))
        + FloatOps.absf (((tx + tw * half) - (tx - tw * half)) * ((tY + th * half) - (tY - th * half)))
      - max zero (min (bx + bw * half) (tx + tw * half) - max (bx - bw * half) (tx - tw * half))
          * max zero (min (bY + bh * half) (tY + th * half) - max (bY - bh * half) (tY - th * half))
      + eps)

variable (p t : Fin 30 → E)

/-- The first predicted box (channels 21 to 24) against the target box (channels 21 to 24). -/
def iou1 : E := iou (p 21) (p 22) (p 23) (p 24) (t 21) (t 22) (t 23) (t 24)
/-- The second predicted box (channels 26 to 29) against the target box. -/
def iou2 : E := iou (p 26) (p 27) (p 28) (p 29) (t 21) (t 22) (t 23) (t 24)

/-- One where the second box overlaps the target strictly more than the first, else zero. -/
def best : E := FloatOps.sitofp .f32 ((FloatOps.cmpf .ogt (iou2 p t) (iou1 p t)).setWidth 32)

/-- Coordinate `k` of the responsible predicted box, masked by the cell's object indicator (target channel 20). -/
def boxPred (k : Fin 4) : E :=
  t 20 * (best p t * p ⟨26 + k.val, by omega⟩ + (one - best p t) * p ⟨21 + k.val, by omega⟩)
/-- Coordinate `k` of the target box, masked the same way. -/
def boxTgt (k : Fin 4) : E := t 20 * t ⟨21 + k.val, by omega⟩

/-- The sign of `x` as the kernel computes it: `x` itself at zero, else minus one or one. -/
def sgn (x : E) : E :=
  Scalar.select (FloatOps.cmpf .ogt (FloatOps.absf x) zero) (Scalar.select (FloatOps.cmpf .olt x zero) negOne one) x

/-- A midpoint coordinate's difference. -/
def dMid (k : Fin 4) : E := boxPred p t k - boxTgt t k
/-- A width's or height's difference, each side under a square root (the prediction's with its sign kept). -/
def dSize (k : Fin 4) : E :=
  sgn (boxPred p t k) * FloatOps.sqrt (FloatOps.absf (boxPred p t k + eps)) - FloatOps.sqrt (boxTgt t k)

/-- The four squared box differences of one cell, the sum over the joined last axis written out. -/
def boxCell : E :=
  dMid p t 0 * dMid p t 0 + dMid p t 1 * dMid p t 1 + dSize p t 2 * dSize p t 2 + dSize p t 3 * dSize p t 3

/-- The squared object-confidence difference of one cell. -/
def objCell : E :=
  (t 20 * (best p t * p 25 + (one - best p t) * p 20) - t 20 * t 20)
    * (t 20 * (best p t * p 25 + (one - best p t) * p 20) - t 20 * t 20)

/-- The squared no-object differences of the two boxes' confidences. -/
def noObjCellA : E := ((one - t 20) * p 20 - (one - t 20) * t 20) * ((one - t 20) * p 20 - (one - t 20) * t 20)
def noObjCellB : E := ((one - t 20) * p 25 - (one - t 20) * t 20) * ((one - t 20) * p 25 - (one - t 20) * t 20)

/-- The squared difference of class channel `k`. -/
def clsCell (k : Fin 20) : E :=
  (t 20 * p ⟨k.val, by omega⟩ - t 20 * t ⟨k.val, by omega⟩) * (t 20 * p ⟨k.val, by omega⟩ - t 20 * t ⟨k.val, by omega⟩)

end Cert.CellLoss

end
-- ==== Proof.LibLastAxis.lean ====
/-
  Rank-four tensors read at an index given by its four coordinates, for the operations that act on the LAST axis
  only: a unit-stride slice whose offsets are zero on the three leading axes, a broadcast of a last axis of
  extent one, a two-piece concatenation along the last axis, a scalar broadcast. Each lemma says which entry of
  the operand the result's entry is, with the three leading coordinates unchanged. Then the sum of a whole
  rank-four tensor taken one axis at a time, last axis first (a keepdims column and a final row sum at the end),
  read at the ideal instance as the iterated sum over the four coordinates.
-/
import Idealize.ShloMosaic.Lib.ValueIdx
import Idealize.ShloMosaic.Lib.Pipeline.Value
import Idealize.ShloMosaic.PureOps.Ideal.Laws

namespace LastAxis

open Idealize.ShloMosaic Idealize.ShloMosaic.ValueIdx

variable {α : Type} {N A B C C' : ℕ}

/-- A slice of the last axis starting at `o` stays inside the operand's last axis. -/
theorem slice_lt {o : ℕ} (h : Shape.Slices (s := ⟨4, ![N, A, B, C]⟩) ![0, 0, 0, o] ⟨4, ![N, A, B, C']⟩) (k : Fin C') :
    o + k.val < C := by
  have h3 := h.2 3
  have hk := k.isLt
  exact lt_of_lt_of_le (Nat.add_lt_add_left hk o) h3

/-- Entry `(n, a, b, k)` of a slice of the last axis at offset `o` is entry `(n, a, b, o + k)` of the operand. -/
theorem slice_apply {o : ℕ} (x : (⟨4, ![N, A, B, C]⟩ : Shape).Idx → α)
    (h : Shape.Slices (s := ⟨4, ![N, A, B, C]⟩) ![0, 0, 0, o] ⟨4, ![N, A, B, C']⟩)
    (n : Fin N) (a : Fin A) (b : Fin B) (k : Fin C') :
    extractStridedSlice ⟨4, ![N, A, B, C']⟩ ![0, 0, 0, o] x h (ix4 n a b k) = x (ix4 n a b ⟨o + k.val, slice_lt h k⟩) :=
  extractStridedSlice_apply _ x h _ _ fun d => match d with
    | ⟨0, _⟩ => (Nat.zero_add _).symm
    | ⟨1, _⟩ => (Nat.zero_add _).symm
    | ⟨2, _⟩ => (Nat.zero_add _).symm
    | ⟨3, _⟩ => rfl

/-- A last axis of extent one broadcast to extent `C`: every entry `(n, a, b, k)` is the operand's `(n, a, b, 0)`. -/
theorem broadcastTo_apply (x : (⟨4, ![N, A, B, 1]⟩ : Shape).Idx → α)
    (h : Shape.Broadcasts (⟨4, ![N, A, B, 1]⟩ : Shape) ⟨4, ![N, A, B, C]⟩)
    (n : Fin N) (a : Fin A) (b : Fin B) (k : Fin C) :
    broadcastTo ⟨4, ![N, A, B, C]⟩ x h (ix4 n a b k) = x (ix4 n a b 0) :=
  Idealize.ShloMosaic.broadcastTo_apply x h _ _ fun d => match d with
    | ⟨0, _⟩ => by
      show n.val = if N = 1 then 0 else n.val
      split
      · next h1 => have := n.isLt; omega
      · rfl
    | ⟨1, _⟩ => by
      show a.val = if A = 1 then 0 else a.val
      split
      · next h1 => have := a.isLt; omega
      · rfl
    | ⟨2, _⟩ => by
      show b.val = if B = 1 then 0 else b.val
      split
      · next h1 => have := b.isLt; omega
      · rfl
    | ⟨3, _⟩ => rfl

/-- The host's form of the same broadcast (`broadcast_in_dim` along all four axes in order). -/
theorem broadcastInDim_apply (x : (⟨4, ![N, A, B, 1]⟩ : Shape).Idx → α)
    (h : Shape.BroadcastsInDim (⟨4, ![N, A, B, 1]⟩ : Shape) ⟨4, ![N, A, B, C]⟩ ![0, 1, 2, 3])
    (n : Fin N) (a : Fin A) (b : Fin B) (k : Fin C) :
    broadcastInDim ⟨4, ![N, A, B, C]⟩ ![0, 1, 2, 3] h x (ix4 n a b k) = x (ix4 n a b 0) :=
  Idealize.ShloMosaic.broadcastInDim_apply _ h x _ _ fun d => match d with
    | ⟨0, _⟩ => by
      show n.val = if N = 1 then 0 else n.val
      split
      · next h1 => have := n.isLt; omega
      · rfl
    | ⟨1, _⟩ => by
      show a.val = if A = 1 then 0 else a.val
      split
      · next h1 => have := a.isLt; omega
      · rfl
    | ⟨2, _⟩ => by
      show b.val = if B = 1 then 0 else b.val
      split
      · next h1 => have := b.isLt; omega
      · rfl
    | ⟨3, _⟩ => rfl

/-- A rank-zero operand broadcast to any shape: every entry is the operand's one entry. -/
theorem broadcastInDim_scalar {t : Shape} (x : (⟨0, ![]⟩ : Shape).Idx → α)
    (h : Shape.BroadcastsInDim (⟨0, ![]⟩ : Shape) t ![]) (j : t.Idx) :
    broadcastInDim t ![] h x j = x ix0 :=
  Idealize.ShloMosaic.broadcastInDim_apply _ h x _ _ fun d => d.elim0

/-! ## The whole sum, one axis at a time -/

section Sums

/-- The sum over the last axis. -/
theorem sum3_apply (X : FVec Ideal ⟨4, ![N, A, B, C]⟩ .f32)
    (h : Shape.Reduces (s := ⟨4, ![N, A, B, C]⟩) [3] ⟨3, ![N, A, B]⟩)
    (hφ : FKind.Formats .f32) (hacc : (0x00000000#32 : BitVec 32) = 0x00000000#32)
    (n : Fin N) (a : Fin A) (b : Fin B) :
    multiReduction .add [3] ⟨3, ![N, A, B]⟩ X 0x00000000#32 h hφ hacc (ix3 n a b) = ∑ k : Fin C, X (ix4 n a b k) := by
  refine (Ideal.multiReduction_add_single X _ h hφ hacc (ix3 n a b)).trans ?_
  refine Finset.sum_congr rfl fun k _ => congrArg X (funext fun d => ?_)
  match d with
  | ⟨0, _⟩ => exact Fin.ext rfl
  | ⟨1, _⟩ => exact Fin.ext rfl
  | ⟨2, _⟩ => exact Fin.ext rfl
  | ⟨3, _⟩ => exact Fin.ext rfl

/-- The sum over the third axis of a rank-three tensor. -/
theorem sum2_apply (X : FVec Ideal ⟨3, ![N, A, B]⟩ .f32)
    (h : Shape.Reduces (s := ⟨3, ![N, A, B]⟩) [2] ⟨2, ![N, A]⟩)
    (hφ : FKind.Formats .f32) (hacc : (0x00000000#32 : BitVec 32) = 0x00000000#32)
    (n : Fin N) (a : Fin A) :
    multiReduction .add [2] ⟨2, ![N, A]⟩ X 0x00000000#32 h hφ hacc (ix2 n a) = ∑ b : Fin B, X (ix3 n a b) := by
  refine (Ideal.multiReduction_add_single X _ h hφ hacc (ix2 n a)).trans ?_
  refine Finset.sum_congr rfl fun k _ => congrArg X (funext fun d => ?_)
  match d with
  | ⟨0, _⟩ => exact Fin.ext rfl
  | ⟨1, _⟩ => exact Fin.ext rfl
  | ⟨2, _⟩ => exact Fin.ext rfl

/-- The sum over the second axis of a matrix. -/
theorem sum1_apply (X : FVec Ideal ⟨2, ![N, A]⟩ .f32)
    (h : Shape.Reduces (s := ⟨2, ![N, A]⟩) [1] ⟨1, ![N]⟩)
    (hφ : FKind.Formats .f32) (hacc : (0x00000000#32 : BitVec 32) = 0x00000000#32)
    (n : Fin N) :
    multiReduction .add [1] ⟨1, ![N]⟩ X 0x00000000#32 h hφ hacc (ix1 n) = ∑ a : Fin A, X (ix2 n a) := by
  refine (Ideal.multiReduction_add_single X _ h hφ hacc (ix1 n)).trans ?_
  refine Finset.sum_congr rfl fun k _ => congrArg X (funext fun d => ?_)
  match d with
  | ⟨0, _⟩ => exact Fin.ext rfl
  | ⟨1, _⟩ => exact Fin.ext rfl

/-- The sum over the rows of a one-column matrix. -/
theorem sum0_apply (X : FVec Ideal ⟨2, ![N, 1]⟩ .f32)
    (h : Shape.Reduces (s := ⟨2, ![N, 1]⟩) [0] ⟨1, ![1]⟩)
    (hφ : FKind.Formats .f32) (hacc : (0x00000000#32 : BitVec 32) = 0x00000000#32) :
    multiReduction .add [0] ⟨1, ![1]⟩ X 0x00000000#32 h hφ hacc (ix1 0) = ∑ n : Fin N, X (ix2 n 0) := by
  refine (Ideal.multiReduction_add_single X _ h hφ hacc (ix1 0)).trans ?_
  refine Finset.sum_congr rfl fun k _ => congrArg X (funext fun d => ?_)
  match d with
  | ⟨0, _⟩ => exact Fin.ext rfl
  | ⟨1, _⟩ => exact Fin.ext rfl

/-- A vector recast as a one-column matrix (a keepdims sum's result): row `n` is entry `n`. -/
theorem column_apply (x : (⟨1, ![N]⟩ : Shape).Idx → α) (h : Shape.ShapeCasts (⟨1, ![N]⟩ : Shape) ⟨2, ![N, 1]⟩) (n : Fin N) :
    shapeCast ⟨2, ![N, 1]⟩ x h (ix2 n 0) = x (ix1 n) :=
  shapeCast_apply x h _ _ (by rw [Shape.rowMajor_val_one, Shape.rowMajor_val_two]; show n.val = n.val * 1 + 0; omega)

/-- A one-entry vector recast as a one-by-one matrix. -/
theorem unit_apply (x : (⟨1, ![1]⟩ : Shape).Idx → α) (h : Shape.ShapeCasts (⟨1, ![1]⟩ : Shape) ⟨2, ![1, 1]⟩) :
    shapeCast ⟨2, ![1, 1]⟩ x h (ix2 0 0) = x (ix1 0) :=
  shapeCast_apply x h _ _ (by rw [Shape.rowMajor_val_one, Shape.rowMajor_val_two]; rfl)

/-- The whole sum of a rank-four tensor taken last axis first, then the third, then the second axis, recast as a
    column, summed over its rows and recast as a one-by-one matrix: its one entry is the iterated sum. -/
theorem sumAll_apply (X : FVec Ideal ⟨4, ![N, A, B, C]⟩ .f32)
    (h3 : Shape.Reduces (s := ⟨4, ![N, A, B, C]⟩) [3] ⟨3, ![N, A, B]⟩)
    (h2 : Shape.Reduces (s := ⟨3, ![N, A, B]⟩) [2] ⟨2, ![N, A]⟩)
    (h1 : Shape.Reduces (s := ⟨2, ![N, A]⟩) [1] ⟨1, ![N]⟩)
    (hc : Shape.ShapeCasts (⟨1, ![N]⟩ : Shape) ⟨2, ![N, 1]⟩)
    (h0 : Shape.Reduces (s := ⟨2, ![N, 1]⟩) [0] ⟨1, ![1]⟩)
    (hu : Shape.ShapeCasts (⟨1, ![1]⟩ : Shape) ⟨2, ![1, 1]⟩)
    (hφ : FKind.Formats .f32) (hacc : (0x00000000#32 : BitVec 32) = 0x00000000#32) :
    shapeCast ⟨2, ![1, 1]⟩
        (multiReduction .add [0] ⟨1, ![1]⟩
          (shapeCast ⟨2, ![N, 1]⟩
            (multiReduction .add [1] ⟨1, ![N]⟩
              (multiReduction .add [2] ⟨2, ![N, A]⟩
                (multiReduction .add [3] ⟨3, ![N, A, B]⟩ X 0x00000000#32 h3 hφ hacc)
                0x00000000#32 h2 hφ hacc)
              0x00000000#32 h1 hφ hacc) hc)
          0x00000000#32 h0 hφ hacc) hu (ix2 0 0)
      = ∑ n : Fin N, ∑ a : Fin A, ∑ b : Fin B, ∑ k : Fin C, X (ix4 n a b k) := by
  rw [unit_apply, sum0_apply]
  refine Finset.sum_congr rfl fun n _ => ?_
  rw [column_apply, sum1_apply]
  refine Finset.sum_congr rfl fun a _ => ?_
  rw [sum2_apply]
  refine Finset.sum_congr rfl fun b _ => ?_
  rw [sum3_apply]

end Sums

/-! ## The host's sum over all four axes, and a two-piece concatenation along the last axis -/

section Host

/-- A rank-four index set is the product of its four coordinate ranges … -/
def idxEquiv4 : (⟨4, ![N, A, B, C]⟩ : Shape).Idx ≃ Fin N × Fin A × Fin B × Fin C where
  toFun i := (i 0, i 1, i 2, i 3)
  invFun p := ix4 p.1 p.2.1 p.2.2.1 p.2.2.2
  left_inv i := (eq_ix4 i).symm
  right_inv _ := rfl

/-- … so a sum over it is the iterated sum over the coordinates. -/
theorem sum_idx4 {M : Type*} [AddCommMonoid M] (f : (⟨4, ![N, A, B, C]⟩ : Shape).Idx → M) :
    ∑ i, f i = ∑ n : Fin N, ∑ a : Fin A, ∑ b : Fin B, ∑ k : Fin C, f (ix4 n a b k) := by
  rw [← Equiv.sum_comp (idxEquiv4 (N := N) (A := A) (B := B) (C := C)).symm f, Fintype.sum_prod_type]
  refine Finset.sum_congr rfl fun n _ => ?_
  rw [Fintype.sum_prod_type]
  refine Finset.sum_congr rfl fun a _ => ?_
  rw [Fintype.sum_prod_type]
  rfl

/-- The host's sum of a rank-four tensor over all its axes, read at the ideal instance: the initial value plus the
    iterated sum over the four coordinates. -/
theorem hostSumAll_apply (X : FVec Ideal ⟨4, ![N, A, B, C]⟩ .f32) (init : (⟨0, ![]⟩ : Shape).Idx → Ideal .f32)
    (h : Shape.ReducesTo (s := ⟨4, ![N, A, B, C]⟩) [0, 1, 2, 3] ⟨0, ![]⟩) (hu : 0 < (⟨0, ![]⟩ : Shape).numel)
    (j : (⟨0, ![]⟩ : Shape).Idx) :
    Host.reduceAdd X init h hu j = init ix0 + ∑ n : Fin N, ∑ a : Fin A, ∑ b : Fin B, ∑ k : Fin C, X (ix4 n a b k) := by
  show Ideal.hostReduceAdd h X (init (Shape.Idx.first hu)) j = _
  rw [Ideal.hostReduceAdd_total h (fun b => b.elim0) X _ j, sum_idx4, eq_ix0 (Shape.Idx.first hu)]

/-- Entry `(n, a, b, k)` of two tensors joined along the last axis, for `k` inside the first piece. -/
theorem concat_left {C₁ C₂ : ℕ} (x₁ : (⟨4, ![N, A, B, C₁]⟩ : Shape).Idx → α) (x₂ : (⟨4, ![N, A, B, C₂]⟩ : Shape).Idx → α)
    (h : Shape.Concatenates [(⟨4, ![N, A, B, C₁]⟩ : Shape), ⟨4, ![N, A, B, C₂]⟩] ⟨4, ![N, A, B, C]⟩ 3)
    (n : Fin N) (a : Fin A) (b : Fin B) (k : Fin C) (hk : k.val < C₁) :
    concatenate ⟨4, ![N, A, B, C]⟩ 3 [⟨⟨4, ![N, A, B, C₁]⟩, x₁⟩, ⟨⟨4, ![N, A, B, C₂]⟩, x₂⟩] h (ix4 n a b k)
      = x₁ (ix4 n a b ⟨k.val, hk⟩) :=
  concatenate_pair_apply_left 3 x₁ x₂ h _ rfl _ fun d => match d with
    | ⟨0, _⟩ => rfl
    | ⟨1, _⟩ => rfl
    | ⟨2, _⟩ => rfl
    | ⟨3, _⟩ => rfl

/-- The same for `k` inside the second piece: the first piece's extent is taken off the last coordinate. -/
theorem concat_right {C₁ C₂ : ℕ} (x₁ : (⟨4, ![N, A, B, C₁]⟩ : Shape).Idx → α) (x₂ : (⟨4, ![N, A, B, C₂]⟩ : Shape).Idx → α)
    (h : Shape.Concatenates [(⟨4, ![N, A, B, C₁]⟩ : Shape), ⟨4, ![N, A, B, C₂]⟩] ⟨4, ![N, A, B, C]⟩ 3)
    (n : Fin N) (a : Fin A) (b : Fin B) (k : Fin C) (hk : C₁ ≤ k.val) (hk' : k.val - C₁ < C₂) :
    concatenate ⟨4, ![N, A, B, C]⟩ 3 [⟨⟨4, ![N, A, B, C₁]⟩, x₁⟩, ⟨⟨4, ![N, A, B, C₂]⟩, x₂⟩] h (ix4 n a b k)
      = x₂ (ix4 n a b ⟨k.val - C₁, hk'⟩) :=
  concatenate_pair_apply_right 3 x₁ x₂ h _ rfl rfl _ (fun d hd => match d with
    | ⟨0, _⟩ => rfl
    | ⟨1, _⟩ => rfl
    | ⟨2, _⟩ => rfl
    | ⟨3, _⟩ => absurd rfl hd) (by show k.val - C₁ + C₁ = k.val; omega)

end Host

/-! ## Two pieces of extent two joined into a last axis of extent four, entry by entry -/

section Pairs

variable (x₁ x₂ : (⟨4, ![N, A, B, 2]⟩ : Shape).Idx → α)
  (h : Shape.Concatenates [(⟨4, ![N, A, B, 2]⟩ : Shape), ⟨4, ![N, A, B, 2]⟩] ⟨4, ![N, A, B, 4]⟩ 3)
  (n : Fin N) (a : Fin A) (b : Fin B)

theorem concat22_0 : concatenate ⟨4, ![N, A, B, 4]⟩ 3 [⟨⟨4, ![N, A, B, 2]⟩, x₁⟩, ⟨⟨4, ![N, A, B, 2]⟩, x₂⟩] h (ix4 n a b 0)
    = x₁ (ix4 n a b 0) := concat_left x₁ x₂ h n a b 0 (by decide)
theorem concat22_1 : concatenate ⟨4, ![N, A, B, 4]⟩ 3 [⟨⟨4, ![N, A, B, 2]⟩, x₁⟩, ⟨⟨4, ![N, A, B, 2]⟩, x₂⟩] h (ix4 n a b 1)
    = x₁ (ix4 n a b 1) := concat_left x₁ x₂ h n a b 1 (by decide)
theorem concat22_2 : concatenate ⟨4, ![N, A, B, 4]⟩ 3 [⟨⟨4, ![N, A, B, 2]⟩, x₁⟩, ⟨⟨4, ![N, A, B, 2]⟩, x₂⟩] h (ix4 n a b 2)
    = x₂ (ix4 n a b 0) := concat_right x₁ x₂ h n a b 2 (by decide) (by decide)
theorem concat22_3 : concatenate ⟨4, ![N, A, B, 4]⟩ 3 [⟨⟨4, ![N, A, B, 2]⟩, x₁⟩, ⟨⟨4, ![N, A, B, 2]⟩, x₂⟩] h (ix4 n a b 3)
    = x₂ (ix4 n a b 1) := concat_right x₁ x₂ h n a b 3 (by decide) (by decide)

end Pairs

end LastAxis
-- ==== Proof.KernelCells.lean ====
/-
  The kernel's values at one grid point, read cell by cell: from the two input blocks (64 rows of predictions and of
  targets) the body computes the two overlap ratios, the better-box indicator, and the five sums of squared
  differences over the block's 64 × 7 × 7 cells; at the ideal instance each is the sum of the cell losses
  (Proof/CellLoss.lean) over the block's cells, and the point adds their weighted total to the accumulator.
-/
import proofs.«428076_j53652731461925_3_alg».proof.Proof.KernelStep
import proofs.«428076_j53652731461925_3_alg».proof.Proof.CellLoss
import proofs.«428076_j53652731461925_3_alg».proof.Proof.LibLastAxis

noncomputable section

namespace Cert.KernelIdeal.Cells

open Idealize.ShloMosaic Idealize.ShloMosaic.ValueIdx Cert.KernelIdeal Cert.KernelIdeal.Gen Cert.CellLoss

/-- A cell's thirty channels of a block. -/
abbrev chan (x : Vec Ideal S64x7x7x30 .f32) (n : Fin 64) (a b : Fin 7) : Fin 30 → E := fun c => x (ix4 n a b c)

variable (x0 x1 : Vec Ideal S64x7x7x30 .f32)

theorem iou1V_apply (n : Fin 64) (a b : Fin 7) : iou1V x0 x1 (ix4 n a b 0) = iou1 (chan x0 n a b) (chan x1 n a b) := by
  simp only [iou1V, k0_pay15, k0_pay14, k0_pay13, k0_pay12, k0_pay11, k0_pay10, k0_pay9, k0_pay8, k0_pay7, k0_pay6, k0_pay4, k0_pay3,
    shapeCast_self, LastAxis.slice_apply, subf_apply, mulf_apply, addf_apply, divf_apply, maximumf_apply, minimumf_apply,
    broadcast_apply, absf]
  rfl

theorem bestV_apply (n : Fin 64) (a b : Fin 7) : bestV x0 x1 (ix4 n a b 0) = best (chan x0 n a b) (chan x1 n a b) := by
  simp only [bestV, k0_pay20, k0_pay19, k0_pay18, k0_pay17, k0_pay16, k0_pay6, k0_pay5, k0_pay3,
    shapeCast_self, LastAxis.slice_apply, subf_apply, mulf_apply, addf_apply, divf_apply, maximumf_apply, minimumf_apply,
    broadcast_apply, absf, cmpf_apply, extui_apply, sitofp_apply, iou1V_apply]
  rfl

/-- The indicator as the later payloads spell it. -/
theorem pay20_apply (n : Fin 64) (a b : Fin 7) :
    k0_pay20 (k0_pay6 x1) (iou1V x0 x1) (k0_pay16 (k0_pay5 x0)) (k0_pay17 (k0_pay5 x0)) (k0_pay18 (k0_pay5 x0)) (k0_pay19 (k0_pay5 x0))
      (ix4 n a b 0) = best (chan x0 n a b) (chan x1 n a b) := bestV_apply x0 x1 n a b

theorem boxSumV_apply :
    boxSumV x0 x1 (ix2 0 0) = ∑ n : Fin 64, ∑ a : Fin 7, ∑ b : Fin 7, boxCell (chan x0 n a b) (chan x1 n a b) := by
  unfold boxSumV k0_pay24
  simp only []
  rw [LastAxis.sumAll_apply]
  refine Finset.sum_congr rfl fun n _ => Finset.sum_congr rfl fun a _ => Finset.sum_congr rfl fun b _ => ?_
  rw [Fin.sum_univ_four]
  simp only [mulf_apply, subf_apply, addf_apply, LastAxis.concat22_0, LastAxis.concat22_1, LastAxis.concat22_2, LastAxis.concat22_3]
  simp only [LastAxis.slice_apply, LastAxis.broadcastTo_apply, mulf_apply, subf_apply, addf_apply, select_apply, cmpf_apply, absf, sqrt,
    broadcast_apply, constant_apply, k0_pay23, k0_pay22, pay20_apply]
  simp only [k0_pay21, k0_pay6, k0_pay5, k0_pay4, k0_pay3, shapeCast_self, LastAxis.slice_apply]
  rfl

theorem objSumV_apply :
    objSumV x0 x1 (ix2 0 0) = ∑ n : Fin 64, ∑ a : Fin 7, ∑ b : Fin 7, objCell (chan x0 n a b) (chan x1 n a b) := by
  unfold objSumV k0_pay26 k0_pay25
  simp only []
  rw [LastAxis.sumAll_apply]
  refine Finset.sum_congr rfl fun n _ => Finset.sum_congr rfl fun a _ => Finset.sum_congr rfl fun b _ => ?_
  rw [Fin.sum_univ_one]
  simp only [mulf_apply, subf_apply, addf_apply, LastAxis.slice_apply, k0_pay21, k0_pay3, shapeCast_self, broadcast_apply, bestV_apply]
  rfl

theorem noObjSumV_apply :
    noObjSumV x0 x1 (ix2 0 0)
      = (∑ n : Fin 64, ∑ a : Fin 7, ∑ b : Fin 7, noObjCellA (chan x0 n a b) (chan x1 n a b))
        + ∑ n : Fin 64, ∑ a : Fin 7, ∑ b : Fin 7, noObjCellB (chan x0 n a b) (chan x1 n a b) := by
  unfold noObjSumV k0_pay27
  simp only []
  rw [addf_apply, LastAxis.sumAll_apply, LastAxis.sumAll_apply]
  congr 1
  · refine Finset.sum_congr rfl fun n _ => Finset.sum_congr rfl fun a _ => Finset.sum_congr rfl fun b _ => ?_
    rw [Fin.sum_univ_one]
    simp only [mulf_apply, subf_apply, LastAxis.slice_apply, k0_pay21, k0_pay3, shapeCast_self, broadcast_apply]
    rfl
  · refine Finset.sum_congr rfl fun n _ => Finset.sum_congr rfl fun a _ => Finset.sum_congr rfl fun b _ => ?_
    rw [Fin.sum_univ_one]
    simp only [mulf_apply, subf_apply, LastAxis.slice_apply, k0_pay21, k0_pay3, shapeCast_self, broadcast_apply]
    rfl

theorem clsSumV_apply :
    clsSumV x0 x1 (ix2 0 0)
      = ∑ n : Fin 64, ∑ a : Fin 7, ∑ b : Fin 7, ∑ k : Fin 20, clsCell (chan x0 n a b) (chan x1 n a b) k := by
  unfold clsSumV k0_pay28
  simp only []
  rw [LastAxis.sumAll_apply]
  refine Finset.sum_congr rfl fun n _ => Finset.sum_congr rfl fun a _ => Finset.sum_congr rfl fun b _ =>
    Finset.sum_congr rfl fun k _ => ?_
  simp only [mulf_apply, subf_apply, LastAxis.slice_apply, LastAxis.broadcastTo_apply, k0_pay21, k0_pay3, shapeCast_self, Nat.zero_add]
  rfl

/-- The weighted total of one block's five sums. -/
def blockTotal : E :=
  five * (∑ n : Fin 64, ∑ a : Fin 7, ∑ b : Fin 7, boxCell (chan x0 n a b) (chan x1 n a b))
    + (∑ n : Fin 64, ∑ a : Fin 7, ∑ b : Fin 7, objCell (chan x0 n a b) (chan x1 n a b))
    + half * ((∑ n : Fin 64, ∑ a : Fin 7, ∑ b : Fin 7, noObjCellA (chan x0 n a b) (chan x1 n a b))
        + ∑ n : Fin 64, ∑ a : Fin 7, ∑ b : Fin 7, noObjCellB (chan x0 n a b) (chan x1 n a b))
    + ∑ n : Fin 64, ∑ a : Fin 7, ∑ b : Fin 7, ∑ k : Fin 20, clsCell (chan x0 n a b) (chan x1 n a b) k

/-- One grid point adds the block's weighted total to the accumulator's one entry. -/
theorem stepV_apply (acc : Vec Ideal S1x1 .f32) :
    stepV acc x0 x1 (ix2 0 0) = acc (ix2 0 0) + blockTotal x0 x1 := by
  unfold stepV k0_pay1
  simp only [addf_apply, mulf_apply, broadcast_apply, shapeCast_self, boxSumV_apply, objSumV_apply, noObjSumV_apply, clsSumV_apply]
  rfl

end Cert.KernelIdeal.Cells

end
-- ==== Proof.KernelRun.lean ====
/-
  The kernel's run read as values. The output block's index never moves over the 256 grid points: point 0 stores the
  zero block and adds the first block's weighted total, every later point adds its own, and only the last point writes
  the block back. So the accumulator after point n is the n-fold running sum, the result array is the accumulator
  after point 255, and @main's result is that one entry reshaped to a scalar.
-/
import proofs.«428076_j53652731461925_3_alg».proof.Proof.Gen.KernelIdeal.Frame
import proofs.«428076_j53652731461925_3_alg».proof.Proof.KernelCells
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Cells

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later point: the body leaves, in the accumulator holding `xo`, `xo` plus the point's weighted total. -/
theorem out_B (c : Dev nD) (i : grid0.Coords) (a1 : Memref sig .tc .vmem S64x7x7x30 .f32) (h1 : a1.IsWhole)
    (a2 : Memref sig .tc .vmem S64x7x7x30 .f32) (h2 : a2.IsWhole) (a3 : Memref sig .tc .vmem S1x1 .f32) (h3 : a3.IsWhole)
    (hc : ¬cond0_0 i) (x0 x1 : Vec F S64x7x7x30 .f32) (xo : Vec F S1x1 .f32) :
    out0_B_2 c i a1 h1 a2 h2 a3 h3 hc x0 x1 xo = stepV xo x0 x1 := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  simp only [View.readAt_eq_ld, h1.read_unread, h2.read_unread, h3.read_unread, View.ld_unit_zero (S := S64x7x7x30) hz4,
    View.ld_unit_zero (S := S1x1) hz2]
  rfl

/-- The first point: the body stores the zero block, reads it back, and adds the point's weighted total. -/
theorem out_A (c : Dev nD) (i : grid0.Coords) (a1 : Memref sig .tc .vmem S64x7x7x30 .f32) (h1 : a1.IsWhole)
    (a2 : Memref sig .tc .vmem S64x7x7x30 .f32) (h2 : a2.IsWhole) (a3 : Memref sig .tc .vmem S1x1 .f32) (h3 : a3.IsWhole)
    (hc : cond0_0 i) (x0 x1 : Vec F S64x7x7x30 .f32) :
    out0_A_2 c i a1 h1 a2 h2 a3 h3 hc x0 x1 = stepV (k0_pay2 (F := F)) x0 x1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S64x7x7x30) hz4,
    View.ld_unit_zero (S := S1x1) hz2]
  rfl

/-- The accumulator after point `n`: the running sum's closed form. -/
def accAt (c : Dev nD) : (n : ℕ) → n < cfg0.N → Vec F S1x1 .f32
  | 0, h => stepV (k0_pay2 (F := F)) (iblk m c 0 ⟨0, h⟩) (iblk m c 1 ⟨0, h⟩)
  | n + 1, h => stepV (accAt c n (Nat.lt_of_succ_lt h)) (iblk m c 0 ⟨n + 1, h⟩) (iblk m c 1 ⟨n + 1, h⟩)

/-- What the output's staging buffer holds after point `n` is the running sum, by induction on the point. -/
theorem outsAt_eq (c : Dev nD) : ∀ (n : ℕ) (h : n < cfg0.N), outsAt0 m c n h = accAt m c n h
  | 0, h => (outsAt0_A m c ⟨0, h⟩ rfl).trans (out_A ..)
  | n + 1, h => by
    have hN : cfg0.N = 256 := N_0
    have hB : ¬(⟨n + 1, h⟩ : Fin cfg0.N).val % 256 = 0 := by dsimp only; omega
    rw [outsAt0_B m c ⟨n + 1, h⟩ hB, out_B]
    show stepV (outsAt0 m c n _) _ _ = stepV (accAt m c n _) _ _
    rw [outsAt_eq c n]

/-- The last grid point. -/
abbrev tLast : Fin cfg0.N := ⟨255, by rw [show cfg0.N = 256 from N_0]; decide⟩

/-- The accumulator after the last point, as contents of the one-by-one result array. -/
abbrev resultArr (c : Dev nD) : Buf (Elt F) ((c : Thread nD τ).loc main_v1) := accAt m c 255 (tLast).isLt

/-- The one write-back, at the last point, writes the accumulator: the array's one block is the whole array. -/
theorem flushed_eq (c : Dev nD) (t : Fin cfg0.N) (hf : (cfg0.win 2).flush t = true) :
    (dats m 0 c).flushed 2 t = ((cfg0.win 2).blk t).view.read (Elt F) (resultArr m c) := by
  have hN : cfg0.N = 256 := N_0
  have h3 : t.val = 255 := by have := (flush0_2 t).mp hf; have := t.isLt; omega
  obtain rfl : t = tLast := Fin.ext h3
  show (cfg0.win 2).cut (grid0.coords tLast) ((dats m 0 c).after 2 tLast) = _
  rw [after0_2, outsAt_eq]
  have hz' : (fun a => win0_2.index tLast a * main_v1.ty.shape.size a) = fun _ => 0 := funext fun a => by fin_cases a <;> decide
  exact (Memref.read_access_unit_zero (Elt F) main_v1 hz' (fun a => by rw [congrFun hz' a]; simp) (resultArr m c)).symm

/-- So the result array ends holding the accumulator after the last point. -/
theorem final_arr (c : Dev nD) : (dats m 0 c).arrAt 2 cfg0.N = resultArr m c :=
  (dats m 0 c).arrAt_eq_of_cover 2 (resultArr m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- @main's result: the result array's one entry reshaped to a scalar. -/
def result (c : Dev nD) : Buf (Elt F) ((c : Thread nD τ).loc main_v2) := shapeCast S_ (resultArr m c) shapeCasts_S1x1_S_

/-- The host line after the region reshapes the result array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e := (Pipeline.withArrays_arr (cfgs 0).spec launch0.win.arr_inj c (V0 m c)
    (fun w => (dats m 0 c).arrAt w (cfgs 0).N) 2).trans (final_arr m c)
  funext i
  exact congrArg (fun v : Buf (Elt F) ((c : Thread nD τ).loc main_v1) => shapeCast S_ v shapeCasts_S1x1_S_ i) e

/-- The run, read: @main's result at the reshaped accumulator, the arguments unchanged. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.RunValue

end
-- ==== Proof.KernelValue.lean ====
/-
  The kernel's result read at the ideal instance: the accumulator's one entry after the last grid point is zero plus
  the sum, over the 256 grid points, of each block's weighted total; and a block's cells are cells of the whole
  arrays — row n of block t is row 64 t + n of the reshaped predictions and of the targets.
-/
import proofs.«428076_j53652731461925_3_alg».proof.Proof.KernelCells
import proofs.«428076_j53652731461925_3_alg».proof.Proof.KernelRun

noncomputable section

open Idealize.ShloMosaic Idealize.ShloMosaic.TcCoe Idealize.SL.Sem Idealize.ShloMosaic.ValueIdx

namespace Cert.KernelIdeal.RunValue

open Cert.KernelIdeal Cert.KernelIdeal.Gen Cert.KernelIdeal.Cells Cert.CellLoss

variable (m : (ℓ : Loc nD τ sig) → Buf (Elt Ideal) ℓ)

/-- Grid point `s` of a run that has reached point `n`. -/
theorem pt_lt {n : ℕ} (h : n < cfg0.N) (s : Fin (n + 1)) : s.val < cfg0.N := lt_of_le_of_lt (Nat.lt_succ_iff.mp s.isLt) h

/-- The weighted total of grid point `s`'s two blocks. -/
def pointTotal (c : Dev nD) (s : ℕ) (h : s < cfg0.N) : E := blockTotal (iblk m c 0 ⟨s, h⟩) (iblk m c 1 ⟨s, h⟩)

/-- The accumulator's entry after point `n`: zero plus the points' totals so far. -/
theorem accAt_apply (c : Dev nD) : ∀ (n : ℕ) (h : n < cfg0.N),
    accAt m c n h (ix2 0 0) = zero + ∑ s : Fin (n + 1), pointTotal m c s.val (pt_lt h s)
  | 0, h => by
    show stepV (F := Ideal) (k0_pay2 (F := Ideal)) _ _ (ix2 0 0) = _
    rw [stepV_apply, Fin.sum_univ_one]
    rfl
  | n + 1, h => by
    show stepV (F := Ideal) (accAt m c n _) _ _ (ix2 0 0) = _
    rw [stepV_apply, accAt_apply c n (Nat.lt_of_succ_lt h), add_assoc]
    congr 1
    exact (Fin.sum_univ_castSucc (fun s : Fin (n + 1 + 1) => pointTotal m c s.val (pt_lt h s))).symm

/-- @main's result, a scalar: zero plus the sum of all 256 points' totals. -/
theorem result_apply (c : Dev nD) (j : S_.Idx) :
    result m c j = zero + ∑ t : Fin 256, pointTotal m c t.val (lt_of_lt_of_eq t.isLt N_0.symm) := by
  have e : result m c j = resultArr m c (ix2 0 0) :=
    shapeCast_apply (resultArr m c) shapeCasts_S1x1_S_ j (ix2 0 0) (by
      show (Shape.rowMajor (⟨2, ![1, 1]⟩ : Shape) (ix2 0 0)).val = (Shape.rowMajorPi (![] : Fin 0 → Nat) j).val
      rw [Shape.rowMajor_val_two, Shape.rowMajorPi_zero]
      rfl)
  rw [e]
  exact accAt_apply m c 255 _

end Cert.KernelIdeal.RunValue

end
-- ==== Proof.RefStages.lean ====
/-
  The reference program's values, stage by stage, as functions of the predictions reshaped to [16384, 7, 7, 30] (`P`)
  and the targets (`T`): the corners of the three boxes, the two overlap ratios, the better-box indicator, the masked
  boxes, the five tensors of squared differences, their sums over all four axes, and the weighted total. Each
  definition applies the reference's own operations in the reference's own order, so that the program's run ends at
  `total` by unfolding.
-/
import proofs.«428076_j53652731461925_3_alg».proof.Proof.Gen.ReferenceIdeal

noncomputable section

namespace Cert.ReferenceIdeal.Stages

open Cert.ReferenceIdeal Cert.ReferenceIdeal.Gen Idealize.ShloMosaic

variable {F : FTy → Type} [FloatOps F]

/-- A whole-array column of one channel. -/
abbrev Col (F : FTy → Type) := FVec F S16384x7x7x1 .f32

/-- The scalar `b` broadcast to a column. -/
def splat (b : BitVec 32) : Col F := broadcastInDim S16384x7x7x1 ![] bcast_S_S16384x7x7x1 (constant S_ .f32 b)

/-- Channels 21 to 24 (the first box, or the target box). -/
def box21 (X : FVec F S16384x7x7x30 .f32) : FVec F S16384x7x7x4 .f32 :=
  extractStridedSlice S16384x7x7x4 ![0, 0, 0, 21] X slices_S16384x7x7x30_S16384x7x7x4_0_0_0_21
/-- Channels 26 to 29 (the second box). -/
def box26 (X : FVec F S16384x7x7x30 .f32) : FVec F S16384x7x7x4 .f32 :=
  extractStridedSlice S16384x7x7x4 ![0, 0, 0, 26] X slices_S16384x7x7x30_S16384x7x7x4_0_0_0_26

def c0 (b : FVec F S16384x7x7x4 .f32) : Col F := extractStridedSlice S16384x7x7x1 ![0, 0, 0, 0] b slices_S16384x7x7x4_S16384x7x7x1_0_0_0_0
def c1 (b : FVec F S16384x7x7x4 .f32) : Col F := extractStridedSlice S16384x7x7x1 ![0, 0, 0, 1] b slices_S16384x7x7x4_S16384x7x7x1_0_0_0_1
def c2 (b : FVec F S16384x7x7x4 .f32) : Col F := extractStridedSlice S16384x7x7x1 ![0, 0, 0, 2] b slices_S16384x7x7x4_S16384x7x7x1_0_0_0_2
def c3 (b : FVec F S16384x7x7x4 .f32) : Col F := extractStridedSlice S16384x7x7x1 ![0, 0, 0, 3] b slices_S16384x7x7x4_S16384x7x7x1_0_0_0_3

/-- A midpoint less, or plus, half an extent (the reference divides by two). -/
def lo (c w : Col F) : Col F := subf c (Host.divf w (splat 0x40000000#32))
def hi (c w : Col F) : Col F := addf c (Host.divf w (splat 0x40000000#32))

/-- `jnp.clip(x, 0, None)` as jax outlines it: the maximum with the zero column. -/
def clip0 (x : Col F) : Col F :=
  maximumf (broadcastInDim S16384x7x7x1 ![] bcast_S_S16384x7x7x1 (id (constant S_ .f32 0x00000000#32))) x

/-- The overlap ratio of a predicted box `b` with the target box `g`. -/
def iouV (b g : FVec F S16384x7x7x4 .f32) : Col F :=
  Host.divf
    (mulf (clip0 (subf (minimumf (hi (c0 b) (c2 b)) (hi (c0 g) (c2 g))) (maximumf (lo (c0 b) (c2 b)) (lo (c0 g) (c2 g)))))
      (clip0 (subf (minimumf (hi (c1 b) (c3 b)) (hi (c1 g) (c3 g))) (maximumf (lo (c1 b) (c3 b)) (lo (c1 g) (c3 g))))))
    (addf
      (subf
        (addf
          (Host.absf (mulf (subf (hi (c0 b) (c2 b)) (lo (c0 b) (c2 b))) (subf (hi (c1 b) (c3 b)) (lo (c1 b) (c3 b)))))
          (Host.absf (mulf (subf (hi (c0 g) (c2 g)) (lo (c0 g) (c2 g))) (subf (hi (c1 g) (c3 g)) (lo (c1 g) (c3 g))))))
        (mulf (clip0 (subf (minimumf (hi (c0 b) (c2 b)) (hi (c0 g) (c2 g))) (maximumf (lo (c0 b) (c2 b)) (lo (c0 g) (c2 g)))))
          (clip0 (subf (minimumf (hi (c1 b) (c3 b)) (hi (c1 g) (c3 g))) (maximumf (lo (c1 b) (c3 b)) (lo (c1 g) (c3 g)))))))
      (splat 0x358637BD#32))

variable (P T : FVec F S16384x7x7x30 .f32)

def iou1V : Col F := iouV (box21 P) (box21 T)
def iou2V : Col F := iouV (box26 P) (box21 T)

/-- One where the second box is strictly the better, else zero. -/
def bestV : Col F := uitofp .f32 (cmpf .ogt (iou2V P T) (iou1V P T))

/-- Target channel 20: whether the cell holds an object. -/
def existsV : Col F := extractStridedSlice S16384x7x7x1 ![0, 0, 0, 20] T slices_S16384x7x7x30_S16384x7x7x1_0_0_0_20
def pConf1 : Col F := extractStridedSlice S16384x7x7x1 ![0, 0, 0, 20] P slices_S16384x7x7x30_S16384x7x7x1_0_0_0_20
def pConf2 : Col F := extractStridedSlice S16384x7x7x1 ![0, 0, 0, 25] P slices_S16384x7x7x30_S16384x7x7x1_0_0_0_25

def wide4 (x : Col F) : FVec F S16384x7x7x4 .f32 :=
  broadcastInDim S16384x7x7x4 ![0, 1, 2, 3] bcast_S16384x7x7x1_S16384x7x7x4_0_1_2_3 x
def wide20 (x : Col F) : FVec F S16384x7x7x20 .f32 :=
  broadcastInDim S16384x7x7x20 ![0, 1, 2, 3] bcast_S16384x7x7x1_S16384x7x7x20_0_1_2_3 x

/-- The responsible predicted box, masked. -/
def boxPredV : FVec F S16384x7x7x4 .f32 :=
  mulf (wide4 (existsV T))
    (addf (mulf (wide4 (bestV P T)) (box26 P)) (mulf (wide4 (subf (splat 0x3F800000#32) (bestV P T))) (box21 P)))
/-- The target box, masked. -/
def boxTgtV : FVec F S16384x7x7x4 .f32 := mulf (wide4 (existsV T)) (box21 T)

def lo2 (b : FVec F S16384x7x7x4 .f32) : FVec F S16384x7x7x2 .f32 :=
  extractStridedSlice S16384x7x7x2 ![0, 0, 0, 0] b slices_S16384x7x7x4_S16384x7x7x2_0_0_0_0
def hi2 (b : FVec F S16384x7x7x4 .f32) : FVec F S16384x7x7x2 .f32 :=
  extractStridedSlice S16384x7x7x2 ![0, 0, 0, 2] b slices_S16384x7x7x4_S16384x7x7x2_0_0_0_2
def join2 (x y : FVec F S16384x7x7x2 .f32) : FVec F S16384x7x7x4 .f32 :=
  concatenate S16384x7x7x4 3 [⟨S16384x7x7x2, x⟩, ⟨S16384x7x7x2, y⟩] concatenates_S16384x7x7x2_S16384x7x7x2_S16384x7x7x4_d3

/-- The squared box differences. -/
def boxSqV : FVec F S16384x7x7x4 .f32 :=
  mulf
    (subf
      (join2 (lo2 (boxPredV P T))
        (mulf (Host.sign (hi2 (boxPredV P T)))
          (Host.sqrt (Host.absf (addf (hi2 (boxPredV P T))
            (broadcastInDim S16384x7x7x2 ![] bcast_S_S16384x7x7x2 (constant S_ .f32 0x358637BD#32)))))))
      (join2 (lo2 (boxTgtV T)) (Host.sqrt (hi2 (boxTgtV T)))))
    (subf
      (join2 (lo2 (boxPredV P T))
        (mulf (Host.sign (hi2 (boxPredV P T)))
          (Host.sqrt (Host.absf (addf (hi2 (boxPredV P T))
            (broadcastInDim S16384x7x7x2 ![] bcast_S_S16384x7x7x2 (constant S_ .f32 0x358637BD#32)))))))
      (join2 (lo2 (boxTgtV T)) (Host.sqrt (hi2 (boxTgtV T)))))

/-- The squared object-confidence differences. -/
def objSqV : Col F :=
  mulf
    (subf
      (mulf (existsV T)
        (addf (mulf (bestV P T) (pConf2 P)) (mulf (subf (splat 0x3F800000#32) (bestV P T)) (pConf1 P))))
      (mulf (existsV T) (existsV T)))
    (subf
      (mulf (existsV T)
        (addf (mulf (bestV P T) (pConf2 P)) (mulf (subf (splat 0x3F800000#32) (bestV P T)) (pConf1 P))))
      (mulf (existsV T) (existsV T)))

/-- The squared no-object differences of the first and of the second box's confidence. -/
def noObjSqA : Col F :=
  mulf
    (subf (mulf (subf (splat 0x3F800000#32) (existsV T)) (pConf1 P)) (mulf (subf (splat 0x3F800000#32) (existsV T)) (existsV T)))
    (subf (mulf (subf (splat 0x3F800000#32) (existsV T)) (pConf1 P)) (mulf (subf (splat 0x3F800000#32) (existsV T)) (existsV T)))
def noObjSqB : Col F :=
  mulf
    (subf (mulf (subf (splat 0x3F800000#32) (existsV T)) (pConf2 P)) (mulf (subf (splat 0x3F800000#32) (existsV T)) (existsV T)))
    (subf (mulf (subf (splat 0x3F800000#32) (existsV T)) (pConf2 P)) (mulf (subf (splat 0x3F800000#32) (existsV T)) (existsV T)))

/-- The squared class differences. -/
def clsSqV : FVec F S16384x7x7x20 .f32 :=
  mulf
    (subf
      (mulf (wide20 (existsV T)) (extractStridedSlice S16384x7x7x20 ![0, 0, 0, 0] P slices_S16384x7x7x30_S16384x7x7x20_0_0_0_0))
      (mulf (wide20 (existsV T)) (extractStridedSlice S16384x7x7x20 ![0, 0, 0, 0] T slices_S16384x7x7x30_S16384x7x7x20_0_0_0_0)))
    (subf
      (mulf (wide20 (existsV T)) (extractStridedSlice S16384x7x7x20 ![0, 0, 0, 0] P slices_S16384x7x7x30_S16384x7x7x20_0_0_0_0))
      (mulf (wide20 (existsV T)) (extractStridedSlice S16384x7x7x20 ![0, 0, 0, 0] T slices_S16384x7x7x30_S16384x7x7x20_0_0_0_0)))

/-- The weighted total: five times the box sum, the object sum, half the two no-object sums, the class sum. -/
def total : FVec F S_ .f32 :=
  addf
    (addf
      (addf
        (mulf (constant S_ .f32 0x40A00000#32)
          (Host.reduceAdd (boxSqV P T) (constant S_ .f32 0x00000000#32) reducesTo_S16384x7x7x4_S_d0_1_2_3 h_S_))
        (Host.reduceAdd (objSqV P T) (constant S_ .f32 0x00000000#32) reducesTo_S16384x7x7x1_S_d0_1_2_3 h_S_))
      (mulf (constant S_ .f32 0x3F000000#32)
        (addf (Host.reduceAdd (noObjSqA P T) (constant S_ .f32 0x00000000#32) reducesTo_S16384x7x7x1_S_d0_1_2_3 h_S_)
          (Host.reduceAdd (noObjSqB P T) (constant S_ .f32 0x00000000#32) reducesTo_S16384x7x7x1_S_d0_1_2_3 h_S_))))
    (Host.reduceAdd (clsSqV P T) (constant S_ .f32 0x00000000#32) reducesTo_S16384x7x7x20_S_d0_1_2_3 h_S_)

/-- The predictions as the program reshapes them. -/
def reshaped (x0 : FVec F S16384x1470 .f32) : FVec F S16384x7x7x30 .f32 :=
  shapeCast _ x0 shapeCasts_S16384x1470_S16384x7x7x30

end Cert.ReferenceIdeal.Stages

end
-- ==== Proof.Consts.lean ====
/-
  The float constants of the two programs whose values the proof needs, as the extended reals their bit patterns
  denote: one half (the kernel's factor on a box extent and on the no-object sums), two (the reference's divisor of a
  box extent) and five (the weight of the box sum). Stated once, here, for every module that needs one.
-/
import Idealize.ShloMosaic.PureOps.Ideal.Laws

noncomputable section

namespace Cert.Consts

open Idealize.ShloMosaic

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_five : Ideal.ofBits .f32 0x40A00000#32 = ((5 : ℝ) : EReal) := by
  simp [Ideal.ofBits, Ideal.ieee, -EReal.coe_mul]; norm_num

end Cert.Consts

end
-- ==== Proof.RefCells.lean ====
/-
  The reference's stage tensors read cell by cell: at the ideal instance each of the five tensors of squared
  differences is, entry by entry, the cell loss (Proof/CellLoss.lean) of the cell's thirty predicted and thirty target
  channels, and the weighted total is the weighted sum of the five sums over all cells.
-/
-- the kernel side's cell-by-cell reading comes first among the imports: this module is downstream of it
import proofs.«428076_j53652731461925_3_alg».proof.Proof.KernelCells
import proofs.«428076_j53652731461925_3_alg».proof.Proof.RefStages
import proofs.«428076_j53652731461925_3_alg».proof.Proof.CellLoss
import proofs.«428076_j53652731461925_3_alg».proof.Proof.LibLastAxis
import proofs.«428076_j53652731461925_3_alg».proof.Proof.Consts

noncomputable section

namespace Cert.ReferenceIdeal.Cells

open Cert.ReferenceIdeal Cert.ReferenceIdeal.Gen Idealize.ShloMosaic Idealize.ShloMosaic.ValueIdx Cert.CellLoss

/-- A cell's thirty channels of a whole array. -/
abbrev chan (X : FVec Ideal S16384x7x7x30 .f32) (r : Fin 16384) (a b : Fin 7) : Fin 30 → E := fun c => X (ix4 r a b c)

/-! ## Where the reference's scalar forms differ from the cell loss's -/

/-- A quotient by two is the product with one half, at the infinities too. -/
theorem div_two (x : E) : Ideal.div x (Ideal.ofBits .f32 0x40000000#32) = x * half := by
  have hh : half = ((1 / 2 : ℝ) : EReal) := Cert.Consts.ofBits_half
  rw [Cert.Consts.ofBits_two, hh, Ideal.div_coe (by norm_num)]

/-- A one-bit value read unsigned is the same value widened to 32 bits and read signed: zero or one. -/
theorem uitofp_bit (b : BitVec 1) :
    FloatOps.uitofp (F := Ideal) .f32 b = FloatOps.sitofp (F := Ideal) .f32 (b.setWidth 32) := by
  by_cases h : b = 1#1
  · subst h
    show (((1#1 : BitVec 1).toNat : ℝ) : EReal) = ((((1#1 : BitVec 1).setWidth 32).toInt : ℝ) : EReal)
    norm_num
  · have h0 := eq_zero_of_ne_one h
    subst h0
    show (((0#1 : BitVec 1).toNat : ℝ) : EReal) = ((((0#1 : BitVec 1).setWidth 32).toInt : ℝ) : EReal)
    norm_num

/-- The sign function is the select form of the cell loss. -/
theorem sign_eq_sgn (x : E) : Ideal.sign x = sgn x := (Ideal.jnp_sign_eq_sign_f32 x).symm

/-! ## The host's elementwise operations read at an entry -/

section Entry

variable {s : Shape}

theorem hostDivf_apply (x y : FVec Ideal s .f32) (i : s.Idx) : Host.divf x y i = Ideal.div (x i) (y i) := rfl

theorem hostAbsf_apply (x : FVec Ideal s .f32) (i : s.Idx) : Host.absf x i = FloatOps.absf (x i) := rfl

theorem hostSqrt_apply (x : FVec Ideal s .f32) (i : s.Idx) : Host.sqrt x i = FloatOps.sqrt (x i) := rfl

theorem hostSign_apply (x : FVec Ideal s .f32) (i : s.Idx) : Host.sign x i = sgn (x i) := sign_eq_sgn (x i)

theorem uitofp_apply (x : IVec s 1) (i : s.Idx) :
    (uitofp .f32 x : FVec Ideal s .f32) i = FloatOps.sitofp (F := Ideal) .f32 ((x i).setWidth 32) := uitofp_bit (x i)

end Entry

/-- A column filled with one constant, read at an entry. -/
theorem splat_apply (bv : BitVec 32) (j : S16384x7x7x1.Idx) : Stages.splat (F := Ideal) bv j = Ideal.ofBits .f32 bv :=
  LastAxis.broadcastInDim_scalar _ _ _

/-- Clipping below at zero, read at an entry: the maximum with zero. -/
theorem clip0_apply (x : Stages.Col Ideal) (j : S16384x7x7x1.Idx) : Stages.clip0 x j = max zero (x j) := by
  show max (broadcastInDim S16384x7x7x1 ![] bcast_S_S16384x7x7x1 (id (constant S_ .f32 0x00000000#32)) j) (x j) = _
  rw [LastAxis.broadcastInDim_scalar]
  rfl

/-- The small constant broadcast to the two size coordinates, read at an entry. -/
theorem epsW_apply (j : S16384x7x7x2.Idx) :
    broadcastInDim S16384x7x7x2 ![] bcast_S_S16384x7x7x2 (constant (F := Ideal) S_ .f32 0x358637BD#32) j = eps :=
  LastAxis.broadcastInDim_scalar _ _ _

/-- A column widened to four, or to twenty, channels: every entry of a cell is the column's entry. -/
theorem wide4_apply (x : Stages.Col Ideal) (r : Fin 16384) (a b : Fin 7) (k : Fin 4) :
    Stages.wide4 x (ix4 r a b k) = x (ix4 r a b 0) :=
  LastAxis.broadcastInDim_apply x _ r a b k

theorem wide20_apply (x : Stages.Col Ideal) (r : Fin 16384) (a b : Fin 7) (k : Fin 20) :
    Stages.wide20 x (ix4 r a b k) = x (ix4 r a b 0) :=
  LastAxis.broadcastInDim_apply x _ r a b k

/-! ## The overlap ratio at a cell -/

theorem iouV_apply (b g : FVec Ideal S16384x7x7x4 .f32) (r : Fin 16384) (a c : Fin 7) :
    Stages.iouV b g (ix4 r a c 0)
      = iou (b (ix4 r a c 0)) (b (ix4 r a c 1)) (b (ix4 r a c 2)) (b (ix4 r a c 3))
          (g (ix4 r a c 0)) (g (ix4 r a c 1)) (g (ix4 r a c 2)) (g (ix4 r a c 3)) := by
  simp only [Stages.iouV, Stages.lo, Stages.hi, Stages.c0, Stages.c1, Stages.c2, Stages.c3, clip0_apply, splat_apply,
    hostDivf_apply, hostAbsf_apply, LastAxis.slice_apply, subf_apply, mulf_apply, addf_apply, maximumf_apply,
    minimumf_apply, div_two]
  rfl

variable (P T : FVec Ideal S16384x7x7x30 .f32)

section Cell

variable (r : Fin 16384) (a b : Fin 7)

theorem iou1V_apply : Stages.iou1V P T (ix4 r a b 0) = iou1 (chan P r a b) (chan T r a b) := by
  rw [Stages.iou1V, iouV_apply]
  simp only [Stages.box21, LastAxis.slice_apply]
  rfl

theorem iou2V_apply : Stages.iou2V P T (ix4 r a b 0) = iou2 (chan P r a b) (chan T r a b) := by
  rw [Stages.iou2V, iouV_apply]
  simp only [Stages.box21, Stages.box26, LastAxis.slice_apply]
  rfl

/-! ## The better-box indicator and the masked boxes at a cell -/

theorem bestV_apply : Stages.bestV P T (ix4 r a b 0) = best (chan P r a b) (chan T r a b) := by
  simp only [Stages.bestV, uitofp_apply, cmpf_apply, iou1V_apply, iou2V_apply]
  rfl

theorem boxPredV_apply (k : Fin 4) :
    Stages.boxPredV P T (ix4 r a b k) = boxPred (chan P r a b) (chan T r a b) k := by
  simp only [Stages.boxPredV, wide4_apply, Stages.existsV, Stages.box26, Stages.box21, mulf_apply, addf_apply, subf_apply,
    LastAxis.slice_apply, splat_apply, bestV_apply]
  rfl

theorem boxTgtV_apply (k : Fin 4) : Stages.boxTgtV T (ix4 r a b k) = boxTgt (chan T r a b) k := by
  simp only [Stages.boxTgtV, wide4_apply, Stages.existsV, Stages.box21, mulf_apply, LastAxis.slice_apply]
  rfl

end Cell

/-! ## The five sums over all cells -/

theorem boxSum_apply (j : S_.Idx) :
    Host.reduceAdd (Stages.boxSqV P T) (constant (F := Ideal) S_ .f32 0x00000000#32) reducesTo_S16384x7x7x4_S_d0_1_2_3 h_S_ j
      = zero + ∑ r : Fin 16384, ∑ a : Fin 7, ∑ b : Fin 7, boxCell (chan P r a b) (chan T r a b) := by
  rw [LastAxis.hostSumAll_apply]
  refine congrArg₂ (· + ·) rfl ?_
  refine Finset.sum_congr rfl fun r _ => Finset.sum_congr rfl fun a _ => Finset.sum_congr rfl fun b _ => ?_
  rw [Fin.sum_univ_four]
  simp only [Stages.boxSqV, Stages.join2, Stages.lo2, Stages.hi2, hostSign_apply, hostSqrt_apply, hostAbsf_apply, mulf_apply,
    subf_apply, addf_apply, LastAxis.concat22_0, LastAxis.concat22_1, LastAxis.concat22_2, LastAxis.concat22_3,
    LastAxis.slice_apply, epsW_apply, boxPredV_apply, boxTgtV_apply]
  rfl

theorem objSum_apply (j : S_.Idx) :
    Host.reduceAdd (Stages.objSqV P T) (constant (F := Ideal) S_ .f32 0x00000000#32) reducesTo_S16384x7x7x1_S_d0_1_2_3 h_S_ j
      = zero + ∑ r : Fin 16384, ∑ a : Fin 7, ∑ b : Fin 7, objCell (chan P r a b) (chan T r a b) := by
  rw [LastAxis.hostSumAll_apply]
  refine congrArg₂ (· + ·) rfl ?_
  refine Finset.sum_congr rfl fun r _ => Finset.sum_congr rfl fun a _ => Finset.sum_congr rfl fun b _ => ?_
  rw [Fin.sum_univ_one]
  simp only [Stages.objSqV, Stages.existsV, Stages.pConf1, Stages.pConf2, mulf_apply, subf_apply, addf_apply,
    LastAxis.slice_apply, splat_apply, bestV_apply]
  rfl

theorem noObjASum_apply (j : S_.Idx) :
    Host.reduceAdd (Stages.noObjSqA P T) (constant (F := Ideal) S_ .f32 0x00000000#32) reducesTo_S16384x7x7x1_S_d0_1_2_3 h_S_ j
      = zero + ∑ r : Fin 16384, ∑ a : Fin 7, ∑ b : Fin 7, noObjCellA (chan P r a b) (chan T r a b) := by
  rw [LastAxis.hostSumAll_apply]
  refine congrArg₂ (· + ·) rfl ?_
  refine Finset.sum_congr rfl fun r _ => Finset.sum_congr rfl fun a _ => Finset.sum_congr rfl fun b _ => ?_
  rw [Fin.sum_univ_one]
  simp only [Stages.noObjSqA, Stages.existsV, Stages.pConf1, mulf_apply, subf_apply, LastAxis.slice_apply, splat_apply]
  rfl

theorem noObjBSum_apply (j : S_.Idx) :
    Host.reduceAdd (Stages.noObjSqB P T) (constant (F := Ideal) S_ .f32 0x00000000#32) reducesTo_S16384x7x7x1_S_d0_1_2_3 h_S_ j
      = zero + ∑ r : Fin 16384, ∑ a : Fin 7, ∑ b : Fin 7, noObjCellB (chan P r a b) (chan T r a b) := by
  rw [LastAxis.hostSumAll_apply]
  refine congrArg₂ (· + ·) rfl ?_
  refine Finset.sum_congr rfl fun r _ => Finset.sum_congr rfl fun a _ => Finset.sum_congr rfl fun b _ => ?_
  rw [Fin.sum_univ_one]
  simp only [Stages.noObjSqB, Stages.existsV, Stages.pConf2, mulf_apply, subf_apply, LastAxis.slice_apply, splat_apply]
  rfl

theorem clsSum_apply (j : S_.Idx) :
    Host.reduceAdd (Stages.clsSqV P T) (constant (F := Ideal) S_ .f32 0x00000000#32) reducesTo_S16384x7x7x20_S_d0_1_2_3 h_S_ j
      = zero + ∑ r : Fin 16384, ∑ a : Fin 7, ∑ b : Fin 7, ∑ k : Fin 20, clsCell (chan P r a b) (chan T r a b) k := by
  rw [LastAxis.hostSumAll_apply]
  refine congrArg₂ (· + ·) rfl ?_
  refine Finset.sum_congr rfl fun r _ => Finset.sum_congr rfl fun a _ => Finset.sum_congr rfl fun b _ =>
    Finset.sum_congr rfl fun k _ => ?_
  simp only [Stages.clsSqV, wide20_apply, Stages.existsV, mulf_apply, subf_apply, LastAxis.slice_apply, Nat.zero_add]
  rfl

/-- The reference's total, at the ideal instance, as the weighted sum of the cell losses over all cells. -/
theorem total_apply (P T : FVec Ideal S16384x7x7x30 .f32) (j : S_.Idx) :
    Stages.total P T j
      = five * (zero + ∑ r : Fin 16384, ∑ a : Fin 7, ∑ b : Fin 7, boxCell (chan P r a b) (chan T r a b))
        + (zero + ∑ r : Fin 16384, ∑ a : Fin 7, ∑ b : Fin 7, objCell (chan P r a b) (chan T r a b))
        + half * ((zero + ∑ r : Fin 16384, ∑ a : Fin 7, ∑ b : Fin 7, noObjCellA (chan P r a b) (chan T r a b))
            + (zero + ∑ r : Fin 16384, ∑ a : Fin 7, ∑ b : Fin 7, noObjCellB (chan P r a b) (chan T r a b)))
        + (zero + ∑ r : Fin 16384, ∑ a : Fin 7, ∑ b : Fin 7, ∑ k : Fin 20, clsCell (chan P r a b) (chan T r a b) k) := by
  simp only [Stages.total, addf_apply, mulf_apply, constant_apply, boxSum_apply, objSum_apply, noObjASum_apply,
    noObjBSum_apply, clsSum_apply]
  rfl

end Cert.ReferenceIdeal.Cells

end
-- ==== Proof.RefRun.lean ====
/-
  The reference program's run: every weakly fair execution of its @main terminates with the result buffer at the
  weighted total of the stage functions of the arguments (Proof/RefStages.lean), the arguments unchanged.

  @main's 257 operations are read in nine consecutive chunks. For each chunk one lemma per buffer that a later chunk
  reads says what the chunk leaves there, as a stage function of what the chunk finds in the buffers it reads; a buffer
  the chunk does not write keeps its contents. Joined in order, the lemmas read the result buffer as `Stages.total`
  of the reshaped predictions and the targets.
-/
import proofs.«428076_j53652731461925_3_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result as a function of the launch contents of the two arguments. -/
def result (m : (ℓ : Loc nD τ sig) → Buf (Elt F) ℓ) (c : Dev nD) : Buf (Elt F) ((c.tc : Thread nD τ).loc main_v212) :=
  Stages.total (Stages.reshaped (m ((c.tc : Thread nD τ).loc main_arg0))) (m ((c.tc : Thread nD τ).loc main_arg1))

open Stages

/-! ## Lists of operations -/

/-- Running two lists of operations in turn is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lists holds of every operation of their concatenation. -/
theorem forall_app {p : HloOp τ sig (Elt F) → Prop} {l₁ l₂ : List (HloOp τ sig (Elt F))}
    (h₁ : l₁.Forall p) (h₂ : l₂.Forall p) : (l₁ ++ l₂).Forall p := by
  rw [List.forall_iff_forall_mem] at *
  intro x hx
  rcases List.mem_append.mp hx with h | h
  · exact h₁ x h
  · exact h₂ x h

/-! ## The nine chunks of @main's operations -/

/-! ### Chunk 0: the reshape, the corners of the first box and of the target box, the first clipped overlap -/

set_option maxRecDepth 8192 in
set_option maxHeartbeats 4000000 in
/-- Operations 0 to 61 of @main, in order (a called function's operations stand in its call's place). -/
abbrev ops0 : List (HloOp τ sig (Elt F)) :=
  [
    reshape main_arg0 main_v0 rfl shapeCasts_S16384x1470_S16384x7x7x30,
    unary main_v0 main_v1 ((extractStridedSlice S16384x7x7x4 ![0, 0, 0, 21] · slices_S16384x7x7x30_S16384x7x7x4_0_0_0_21) : (⟨S16384x7x7x30, .f32⟩ : BufTy).Contents (Elt F) → (⟨S16384x7x7x4, .f32⟩ : BufTy).Contents (Elt F)),
    unary main_arg1 main_v2 ((extractStridedSlice S16384x7x7x4 ![0, 0, 0, 21] · slices_S16384x7x7x30_S16384x7x7x4_0_0_0_21) : (⟨S16384x7x7x30, .f32⟩ : BufTy).Contents (Elt F) → (⟨S16384x7x7x4, .f32⟩ : BufTy).Contents (Elt F)),
    unary main_v1 main_v3 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v1 main_v4 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst (constant S_ .f32 0x40000000#32),
    unary main_cst main_v5 (broadcastInDim S16384x7x7x1 ![] bcast_S_S16384x7x7x1 : (⟨S_, .f32⟩ : BufTy).Contents (Elt F) → (⟨S16384x7x7x1, .f32⟩ : BufTy).Contents (Elt F)),
    binary main_v4 main_v5 main_v6 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v3 main_v6 main_v7 (subf : (⟨S16384x7x7x1, .f32⟩ : BufTy).Contents (Elt F) → (⟨S16384x7x7x1, .f32⟩ : BufTy).Contents (Elt F) → (⟨S16384x7x7x1, .f32⟩ : BufTy).Contents (Elt F)),
    unary main_v1 main_v8 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v1 main_v9 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_0 (constant S_ .f32 0x40000000#32),
    unary main_cst_0 main_v10 (broadcastInDim S16384x7x7x1 ![] bcast_S_S16384x7x7x1 : (⟨S_, .f32⟩ : BufTy).Contents (Elt F) → (⟨S16384x7x7x1, .f32⟩ : BufTy).Contents (Elt F)),
    binary main_v9 main_v10 main_v11 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v8 main_v11 main_v12 (subf : (⟨S16384x7x7x1, .f32⟩ : BufTy).Contents (Elt F) → (⟨S16384x7x7x1, .f32⟩ : BufTy).Contents (Elt F) → (⟨S16384x7x7x1, .f32⟩ : BufTy).Contents (Elt F)),
    unary main_v1 main_v13 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v1 main_v14 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst_1 (constant S_ .f32 0x40000000#32),
    unary main_cst_1 main_v15 (broadcastInDim S16384x7x7x1 ![] bcast_S_S16384x7x7x1 : (⟨S_, .f32⟩ : BufTy).Contents (Elt F) → (⟨S16384x7x7x1, .f32⟩ : BufTy).Contents (Elt F)),
    binary main_v14 main_v15 main_v16 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v13 main_v16 main_v17 (addf : (⟨S16384x7x7x1, .f32⟩ : BufTy).Contents (Elt F) → (⟨S16384x7x7x1, .f32⟩ : BufTy).Contents (Elt F) → (⟨S16384x7x7x1, .f32⟩ : BufTy).Contents (Elt F)),
    unary main_v1 main_v18 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v1 main_v19 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_2 (constant S_ .f32 0x40000000#32),
    unary main_cst_2 main_v20 (broadcastInDim S16384x7x7x1 ![] bcast_S_S16384x7x7x1 : (⟨S_, .f32⟩ : BufTy).Contents (Elt F) → (⟨S16384x7x7x1, .f32⟩ : BufTy).Contents (Elt F)),
    binary main_v19 main_v20 main_v21 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v18 main_v21 main_v22 (addf : (⟨S16384x7x7x1, .f32⟩ : BufTy).Contents (Elt F) → (⟨S16384x7x7x1, .f32⟩ : BufTy).Contents (Elt F) → (⟨S16384x7x7x1, .f32⟩ : BufTy).Contents (Elt F)),
    unary main_v2 main_v23 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v2 main_v24 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst_3 (constant S_ .f32 0x40000000#32),
    unary main_cst_3 main_v25 (broadcastInDim S16384x7x7x1 ![] bcast_S_S16384x7x7x1 : (⟨S_, .f32⟩ : BufTy).Contents (Elt F) → (⟨S16384x7x7x1, .f32⟩ : BufTy).Contents (Elt F)),
    binary main_v24 main_v25 main_v26 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v23 main_v26 main_v27 (subf : (⟨S16384x7x7x1, .f32⟩ : BufTy).Contents (Elt F) → (⟨S16384x7x7x1, .f32⟩ : BufTy).Contents (Elt F) → (⟨S16384x7x7x1, .f32⟩ : BufTy).Contents (Elt F)),
    unary main_v2 main_v28 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v2 main_v29 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_4 (constant S_ .f32 0x40000000#32),
    unary main_cst_4 main_v30 (broadcastInDim S16384x7x7x1 ![] bcast_S_S16384x7x7x1 : (⟨S_, .f32⟩ : BufTy).Contents (Elt F) → (⟨S16384x7x7x1, .f32⟩ : BufTy).Contents (Elt F)),
    binary main_v29 main_v30 main_v31 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v28 main_v31 main_v32 (subf : (⟨S16384x7x7x1, .f32⟩ : BufTy).Contents (Elt F) → (⟨S16384x7x7x1, .f32⟩ : BufTy).Contents (Elt F) → (⟨S16384x7x7x1, .f32⟩ : BufTy).Contents (Elt F)),
    unary main_v2 main_v33 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v2 main_v34 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst_5 (constant S_ .f32 0x40000000#32),
    unary main_cst_5 main_v35 (broadcastInDim S16384x7x7x1 ![] bcast_S_S16384x7x7x1 : (⟨S_, .f32⟩ : BufTy).Contents (Elt F) → (⟨S16384x7x7x1, .f32⟩ : BufTy).Contents (Elt F)),
    binary main_v34 main_v35 main_v36 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v33 main_v36 main_v37 (addf : (⟨S16384x7x7x1, .f32⟩ : BufTy).Contents (Elt F) → (⟨S16384x7x7x1, .f32⟩ : BufTy).Contents (Elt F) → (⟨S16384x7x7x1, .f32⟩ : BufTy).Contents (Elt F)),
    unary main_v2 main_v38 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v2 main_v39 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_6 (constant S_ .f32 0x40000000#32),
    unary main_cst_6 main_v40 (broadcastInDim S16384x7x7x1 ![] bcast_S_S16384x7x7x1 : (⟨S_, .f32⟩ : BufTy).Contents (Elt F) → (⟨S16384x7x7x1, .f32⟩ : BufTy).Contents (Elt F)),
    binary main_v39 main_v40 main_v41 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v38 main_v41 main_v42 (addf : (⟨S16384x7x7x1, .f32⟩ : BufTy).Contents (Elt F) → (⟨S16384x7x7x1, .f32⟩ : BufTy).Contents (Elt F) → (⟨S16384x7x7x1, .f32⟩ : BufTy).Contents (Elt F)),
    binary main_v7 main_v27 main_v43 (maximumf : (⟨S16384x7x7x1, .f32⟩ : BufTy).Contents (Elt F) → (⟨S16384x7x7x1, .f32⟩ : BufTy).Contents (Elt F) → (⟨S16384x7x7x1, .f32⟩ : BufTy).Contents (Elt F)),
    binary main_v12 main_v32 main_v44 (maximumf : (⟨S16384x7x7x1, .f32⟩ : BufTy).Contents (Elt F) → (⟨S16384x7x7x1, .f32⟩ : BufTy).Contents (Elt F) → (⟨S16384x7x7x1, .f32⟩ : BufTy).Contents (Elt F)),
    binary main_v17 main_v37 main_v45 (minimumf : (⟨S16384x7x7x1, .f32⟩ : BufTy).Contents (Elt F) → (⟨S16384x7x7x1, .f32⟩ : BufTy).Contents (Elt F) → (⟨S16384x7x7x1, .f32⟩ : BufTy).Contents (Elt F)),
    binary main_v22 main_v42 main_v46 (minimumf : (⟨S16384x7x7x1, .f32⟩ : BufTy).Contents (Elt F) → (⟨S16384x7x7x1, .f32⟩ : BufTy).Contents (Elt F) → (⟨S16384x7x7x1, .f32⟩ : BufTy).Contents (Elt F)),
    binary main_v45 main_v43 main_v47 (subf : (⟨S16384x7x7x1, .f32⟩ : BufTy).Contents (Elt F) → (⟨S16384x7x7x1, .f32⟩ : BufTy).Contents (Elt F) → (⟨S16384x7x7x1, .f32⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S16384x7x7x1, .f32⟩) main_call0_v1) (broadcastInDim S16384x7x7x1 ![] bcast_S_S16384x7x7x1),
    TRef.binary (TRef.of (T := ⟨S16384x7x7x1, .f32⟩) main_call0_v1) (TRef.of (T := ⟨S16384x7x7x1, .f32⟩) main_v47) (TRef.of (T := ⟨S16384x7x7x1, .f32⟩) main_v48) maximumf,
    binary main_v46 main_v44 main_v49 (subf : (⟨S16384x7x7x1, .f32⟩ : BufTy).Contents (Elt F) → (⟨S16384x7x7x1, .f32⟩ : BufTy).Contents (Elt F) → (⟨S16384x7x7x1, .f32⟩ : BufTy).Contents (Elt F)),
    nullary main_cst_8 (constant S_ .f32 0x00000000#32) ]

set_option maxRecDepth 8192 in
theorem ops0_sub : (ops0 : List (HloOp τ sig (Elt F))).Forall fun op => op.bufs ⊆ tcRefs τ sig :=
  ⟨reshape_bufs_sub .., unary_bufs_sub .., unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., binary_bufs_sub .., binary_bufs_sub .., binary_bufs_sub .., binary_bufs_sub .., nullary_bufs_sub .., unary_bufs_sub .., unary_bufs_sub .., binary_bufs_sub .., binary_bufs_sub .., nullary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem keep0_arg0 (V : Valuation τ sig (Elt F)) : after ops0 V (Proc.devRef .tc main_arg0) = V (Proc.devRef .tc main_arg0) := by
  simp only [ops0]
  after_results_simp

theorem keep0_arg1 (V : Valuation τ sig (Elt F)) : after ops0 V (Proc.devRef .tc main_arg1) = V (Proc.devRef .tc main_arg1) := by
  simp only [ops0]
  after_results_simp

set_option maxHeartbeats 2000000 in
theorem k0_v0 (V : Valuation τ sig (Elt F)) (P T : FVec F S16384x7x7x30 .f32)
    (hP : P = reshaped (V (Proc.devRef .tc main_arg0))) (hT : T = V (Proc.devRef .tc main_arg1)) :
    after ops0 V (Proc.devRef .tc main_v0) = P := by
  subst hP hT
  simp only [ops0]
  after_results_simp
  rfl

set_option maxHeartbeats 2000000 in
theorem k0_v7 (V : Valuation τ sig (Elt F)) (P T : FVec F S16384x7x7x30 .f32)
    (hP : P = reshaped (V (Proc.devRef .tc main_arg0))) (hT : T = V (Proc.devRef .tc main_arg1)) :
    after ops0 V (Proc.devRef .tc main_v7) = lo (c0 (box21 P)) (c2 (box21 P)) := by
  subst hP hT
  simp only [ops0]
  after_results_simp
  rfl

set_option maxHeartbeats 2000000 in
theorem k0_v12 (V : Valuation τ sig (Elt F)) (P T : FVec F S16384x7x7x30 .f32)
    (hP : P = reshaped (V (Proc.devRef .tc main_arg0))) (hT : T = V (Proc.devRef .tc main_arg1)) :
    after ops0 V (Proc.devRef .tc main_v12) = lo (c1 (box21 P)) (c3 (box21 P)) := by
  subst hP hT
  simp only [ops0]
  after_results_simp
  rfl

set_option maxHeartbeats 2000000 in
theorem k0_v17 (V : Valuation τ sig (Elt F)) (P T : FVec F S16384x7x7x30 .f32)
    (hP : P = reshaped (V (Proc.devRef .tc main_arg0))) (hT : T = V (Proc.devRef .tc main_arg1)) :
    after ops0 V (Proc.devRef .tc main_v17) = hi (c0 (box21 P)) (c2 (box21 P)) := by
  subst hP hT
  simp only [ops0]
  after_results_simp
  rfl

set_option maxHeartbeats 2000000 in
theorem k0_v22 (V : Valuation τ sig (Elt F)) (P T : FVec F S16384x7x7x30 .f32)
    (hP : P = reshaped (V (Proc.devRef .tc main_arg0))) (hT : T = V (Proc.devRef .tc main_arg1)) :
    after ops0 V (Proc.devRef .tc main_v22) = hi (c1 (box21 P)) (c3 (box21 P)) := by
  subst hP hT
  simp only [ops0]
  after_results_simp
  rfl

set_option maxHeartbeats 2000000 in
theorem k0_v27 (V : Valuation τ sig (Elt F)) (P T : FVec F S16384x7x7x30 .f32)
    (hP : P = reshaped (V (Proc.devRef .tc main_arg0))) (hT : T = V (Proc.devRef .tc main_arg1)) :
    after ops0 V (Proc.devRef .tc main_v27) = lo (c0 (box21 T)) (c2 (box21 T)) := by
  subst hP hT
  simp only [ops0]
  after_results_simp
  rfl

set_option maxHeartbeats 2000000 in
theorem k0_v32 (V : Valuation τ sig (Elt F)) (P T : FVec F S16384x7x7x30 .f32)
    (hP : P = reshaped (V (Proc.devRef .tc main_arg0))) (hT : T = V (Proc.devRef .tc main_arg1)) :
    after ops0 V (Proc.devRef .tc main_v32) = lo (c1 (box21 T)) (c3 (box21 T)) := by
  subst hP hT
  simp only [ops0]
  after_results_simp
  rfl

set_option maxHeartbeats 2000000 in
theorem k0_v37 (V : Valuation τ sig (Elt F)) (P T : FVec F S16384x7x7x30 .f32)
    (hP : P = reshaped (V (Proc.devRef .tc main_arg0))) (hT : T = V (Proc.devRef .tc main_arg1)) :
    after ops0 V (Proc.devRef .tc main_v37) = hi (c0 (box21 T)) (c2 (box21 T)) := by
  subst hP hT
  simp only [ops0]
  after_results_simp
  rfl

set_option maxHeartbeats 2000000 in
theorem k0_v42 (V : Valuation τ sig (Elt F)) (P T : FVec F S16384x7x7x30 .f32)
    (hP : P = reshaped (V (Proc.devRef .tc main_arg0))) (hT : T = V (Proc.devRef .tc main_arg1)) :
    after ops0 V (Proc.devRef .tc main_v42) = hi (c1 (box21 T)) (c3 (box21 T)) := by
  subst hP hT
  simp only [ops0]
  after_results_simp
  rfl

set_option maxHeartbeats 2000000 in
theorem k0_v48 (V : Valuation τ sig (Elt F)) (P T : FVec F S16384x7x7x30 .f32)
    (hP : P = reshaped (V (Proc.devRef .tc main_arg0))) (hT : T = V (Proc.devRef .tc main_arg1)) :
    after ops0 V (Proc.devRef .tc main_v48) = clip0 (subf (minimumf (hi (c0 (box21 P)) (c2 (box21 P))) (hi (c0 (box21 T)) (c2 (box21 T)))) (maximumf (lo (c0 (box21 P)) (c2 (box21 P))) (lo (c0 (box21 T)) (c2 (box21 T))))) := by
  subst hP hT
  simp only [ops0]
  after_results_simp
  rfl

set_option maxHeartbeats 2000000 in
theorem k0_v49 (V : Valuation τ sig (Elt F)) (P T : FVec F S16384x7x7x30 .f32)
    (hP : P = reshaped (V (Proc.devRef .tc main_arg0))) (hT : T = V (Proc.devRef .tc main_arg1)) :
    after ops0 V (Proc.devRef .tc main_v49) = subf (minimumf (hi (c1 (box21 P)) (c3 (box21 P))) (hi (c1 (box21 T)) (c3 (box21 T)))) (maximumf (lo (c1 (box21 P)) (c3 (box21 P))) (lo (c1 (box21 T)) (c3 (box21 T)))) := by
  subst hP hT
  simp only [ops0]
  after_results_simp
  rfl

theorem k0_cst_8 (V : Valuation τ sig (Elt F)) :
    after ops0 V (Proc.devRef .tc main_cst_8) = constant S_ .f32 0x00000000#32 := by
  simp only [ops0]
  after_results_simp

/-! ### Chunk 1: the first overlap ratio -/

set_option maxRecDepth 8192 in
set_option maxHeartbeats 4000000 in
/-- Operations 62 to 79 of @main, in order (a called function's operations stand in its call's place). -/
abbrev ops1 : List (HloOp τ sig (Elt F)) :=
  [
    TRef.unary (TRef.of (T := ⟨S_, .f32⟩) main_cst_8) (TRef.of (T := ⟨S_, .f32⟩) main_call1_v0) id,
    TRef.unary (TRef.of (T := ⟨S_, .f32⟩) main_call1_v0) (TRef.of (T := ⟨S16384x7x7x1, .f32⟩) main_call1_v1) (broadcastInDim S16384x7x7x1 ![] bcast_S_S16384x7x7x1),
    TRef.binary (TRef.of (T := ⟨S16384x7x7x1, .f32⟩) main_call1_v1) (TRef.of (T := ⟨S16384x7x7x1, .f32⟩) main_v49) (TRef.of (T := ⟨S16384x7x7x1, .f32⟩) main_v50) maximumf,
    binary main_v48 main_v50 main_v51 (mulf : (⟨S16384x7x7x1, .f32⟩ : BufTy).Contents (Elt F) → (⟨S16384x7x7x1, .f32⟩ : BufTy).Contents (Elt F) → (⟨S16384x7x7x1, .f32⟩ : BufTy).Contents (Elt F)),
    binary main_v17 main_v7 main_v52 (subf : (⟨S16384x7x7x1, .f32⟩ : BufTy).Contents (Elt F) → (⟨S16384x7x7x1, .f32⟩ : BufTy).Contents (Elt F) → (⟨S16384x7x7x1, .f32⟩ : BufTy).Contents (Elt F)),
    binary main_v22 main_v12 main_v53 (subf : (⟨S16384x7x7x1, .f32⟩ : BufTy).Contents (Elt F) → (⟨S16384x7x7x1, .f32⟩ : BufTy).Contents (Elt F) → (⟨S16384x7x7x1, .f32⟩ : BufTy).Contents (Elt F)),
    binary main_v52 main_v53 main_v54 (mulf : (⟨S16384x7x7x1, .f32⟩ : BufTy).Contents (Elt F) → (⟨S16384x7x7x1, .f32⟩ : BufTy).Contents (Elt F) → (⟨S16384x7x7x1, .f32⟩ : BufTy).Contents (Elt F)),
    unary main_v54 main_v55 (Host.absf : (⟨S16384x7x7x1, .f32⟩ : BufTy).Contents (Elt F) → (⟨S16384x7x7x1, .f32⟩ : BufTy).Contents (Elt F)),
    binary main_v37 main_v27 main_v56 (subf : (⟨S16384x7x7x1, .f32⟩ : BufTy).Contents (Elt F) → (⟨S16384x7x7x1, .f32⟩ : BufTy).Contents (Elt F) → (⟨S16384x7x7x1, .f32⟩ : BufTy).Contents (Elt F)),
    binary main_v42 main_v32 main_v57 (subf : (⟨S16384x7x7x1, .f32⟩ : BufTy).Contents (Elt F) → (⟨S16384x7x7x1, .f32⟩ : BufTy).Contents (Elt F) → (⟨S16384x7x7x1, .f32⟩ : BufTy).Contents (Elt F)),
    binary main_v56 main_v57 main_v58 (mulf : (⟨S16384x7x7x1, .f32⟩ : BufTy).Contents (Elt F) → (⟨S16384x7x7x1, .f32⟩ : BufTy).Contents (Elt F) → (⟨S16384x7x7x1, .f32⟩ : BufTy).Contents (Elt F)),
    unary main_v58 main_v59 (Host.absf : (⟨S16384x7x7x1, .f32⟩ : BufTy).Contents (Elt F) → (⟨S16384x7x7x1, .f32⟩ : BufTy).Contents (Elt F)),
    binary main_v55 main_v59 main_v60 (addf : (⟨S16384x7x7x1, .f32⟩ : BufTy).Contents (Elt F) → (⟨S16384x7x7x1, .f32⟩ : BufTy).Contents (Elt F) → (⟨S16384x7x7x1, .f32⟩ : BufTy).Contents (Elt F)),
    binary main_v60 main_v51 main_v61 (subf : (⟨S16384x7x7x1, .f32⟩ : BufTy).Contents (Elt F) → (⟨S16384x7x7x1, .f32⟩ : BufTy).Contents (Elt F) → (⟨S16384x7x7x1, .f32⟩ : BufTy).Contents (Elt F)),
    nullary main_cst_9 (constant S_ .f32 0x358637BD#32),
    unary main_cst_9 main_v62 (broadcastInDim S16384x7x7x1 ![] bcast_S_S16384x7x7x1 : (⟨S_, .f32⟩ : BufTy).Contents (Elt F) → (⟨S16384x7x7x1, .f32⟩ : BufTy).Contents (Elt F)),
    binary main_v61 main_v62 main_v63 (addf : (⟨S16384x7x7x1, .f32⟩ : BufTy).Contents (Elt F) → (⟨S16384x7x7x1, .f32⟩ : BufTy).Contents (Elt F) → (⟨S16384x7x7x1, .f32⟩ : BufTy).Contents (Elt F)),
    binary main_v51 main_v63 main_v64 (Host.divf : (⟨S16384x7x7x1, .f32⟩ : BufTy).Contents (Elt F) → (⟨S16384x7x7x1, .f32⟩ : BufTy).Contents (Elt F) → (⟨S16384x7x7x1, .f32⟩ : BufTy).Contents (Elt F)) ]

set_option maxRecDepth 8192 in
theorem ops1_sub : (ops1 : List (HloOp τ sig (Elt F))).Forall fun op => op.bufs ⊆ tcRefs τ sig :=
  ⟨unary_bufs_sub .., unary_bufs_sub .., binary_bufs_sub .., binary_bufs_sub .., binary_bufs_sub .., binary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl⟩

theorem keep1_v0 (V : Valuation τ sig (Elt F)) : after ops1 V (Proc.devRef .tc main_v0) = V (Proc.devRef .tc main_v0) := by
  simp only [ops1]
  after_results_simp

theorem keep1_arg0 (V : Valuation τ sig (Elt F)) : after ops1 V (Proc.devRef .tc main_arg0) = V (Proc.devRef .tc main_arg0) := by
  simp only [ops1]
  after_results_simp

theorem keep1_arg1 (V : Valuation τ sig (Elt F)) : after ops1 V (Proc.devRef .tc main_arg1) = V (Proc.devRef .tc main_arg1) := by
  simp only [ops1]
  after_results_simp

set_option maxHeartbeats 2000000 in
/-- The first overlap ratio from the corners, the first clipped overlap and the second overlap. -/
theorem k1_v64 (V : Valuation τ sig (Elt F)) (b g : FVec F S16384x7x7x4 .f32)
    (h7 : V (Proc.devRef .tc main_v7) = lo (c0 b) (c2 b))
    (h12 : V (Proc.devRef .tc main_v12) = lo (c1 b) (c3 b))
    (h17 : V (Proc.devRef .tc main_v17) = hi (c0 b) (c2 b))
    (h22 : V (Proc.devRef .tc main_v22) = hi (c1 b) (c3 b))
    (h27 : V (Proc.devRef .tc main_v27) = lo (c0 g) (c2 g))
    (h32 : V (Proc.devRef .tc main_v32) = lo (c1 g) (c3 g))
    (h37 : V (Proc.devRef .tc main_v37) = hi (c0 g) (c2 g))
    (h42 : V (Proc.devRef .tc main_v42) = hi (c1 g) (c3 g))
    (h48 : V (Proc.devRef .tc main_v48) = clip0 (subf (minimumf (hi (c0 b) (c2 b)) (hi (c0 g) (c2 g))) (maximumf (lo (c0 b) (c2 b)) (lo (c0 g) (c2 g)))))
    (h49 : V (Proc.devRef .tc main_v49) = subf (minimumf (hi (c1 b) (c3 b)) (hi (c1 g) (c3 g))) (maximumf (lo (c1 b) (c3 b)) (lo (c1 g) (c3 g))))
    (hc8 : V (Proc.devRef .tc main_cst_8) = constant S_ .f32 0x00000000#32) :
    after ops1 V (Proc.devRef .tc main_v64) = iouV b g := by
  simp only [ops1]
  after_results_simp
  simp only [h7, h12, h17, h22, h27, h32, h37, h42, h48, h49, hc8]
  rfl

/-! ### Chunk 2: the second box, the target box again, their corners but one -/

set_option maxRecDepth 8192 in
set_option maxHeartbeats 4000000 in
/-- Operations 80 to 123 of @main, in order (a called function's operations stand in its call's place). -/
abbrev ops2 : List (HloOp τ sig (Elt F)) :=
  [
    unary main_v0 main_v65 ((extractStridedSlice S16384x7x7x4 ![0, 0, 0, 26] · slices_S16384x7x7x30_S16384x7x7x4_0_0_0_26) : (⟨S16384x7x7x30, .f32⟩ : BufTy).Contents (Elt F) → (⟨S16384x7x7x4, .f32⟩ : BufTy).Contents (Elt F)),
    unary main_arg1 main_v66 ((extractStridedSlice S16384x7x7x4 ![0, 0, 0, 21] · slices_S16384x7x7x30_S16384x7x7x4_0_0_0_21) : (⟨S16384x7x7x30, .f32⟩ : BufTy).Contents (Elt F) → (⟨S16384x7x7x4, .f32⟩ : BufTy).Contents (Elt F)),
    unary main_v65 main_v67 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v65 main_v68 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst_10 (constant S_ .f32 0x40000000#32),
    unary main_cst_10 main_v69 (broadcastInDim S16384x7x7x1 ![] bcast_S_S16384x7x7x1 : (⟨S_, .f32⟩ : BufTy).Contents (Elt F) → (⟨S16384x7x7x1, .f32⟩ : BufTy).Contents (Elt F)),
    binary main_v68 main_v69 main_v70 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v67 main_v70 main_v71 (subf : (⟨S16384x7x7x1, .f32⟩ : BufTy).Contents (Elt F) → (⟨S16384x7x7x1, .f32⟩ : BufTy).Contents (Elt F) → (⟨S16384x7x7x1, .f32⟩ : BufTy).Contents (Elt F)),
    unary main_v65 main_v72 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v65 main_v73 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_11 (constant S_ .f32 0x40000000#32),
    unary main_cst_11 main_v74 (broadcastInDim S16384x7x7x1 ![] bcast_S_S16384x7x7x1 : (⟨S_, .f32⟩ : BufTy).Contents (Elt F) → (⟨S16384x7x7x1, .f32⟩ : BufTy).Contents (Elt F)),
    binary main_v73 main_v74 main_v75 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v72 main_v75 main_v76 (subf : (⟨S16384x7x7x1, .f32⟩ : BufTy).Contents (Elt F) → (⟨S16384x7x7x1, .f32⟩ : BufTy).Contents (Elt F) → (⟨S16384x7x7x1, .f32⟩ : BufTy).Contents (Elt F)),
    unary main_v65 main_v77 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v65 main_v78 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst_12 (constant S_ .f32 0x40000000#32),
    unary main_cst_12 main_v79 (broadcastInDim S16384x7x7x1 ![] bcast_S_S16384x7x7x1 : (⟨S_, .f32⟩ : BufTy).Contents (Elt F) → (⟨S16384x7x7x1, .f32⟩ : BufTy).Contents (Elt F)),
    binary main_v78 main_v79 main_v80 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v77 main_v80 main_v81 (addf : (⟨S16384x7x7x1, .f32⟩ : BufTy).Contents (Elt F) → (⟨S16384x7x7x1, .f32⟩ : BufTy).Contents (Elt F) → (⟨S16384x7x7x1, .f32⟩ : BufTy).Contents (Elt F)),
    unary main_v65 main_v82 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v65 main_v83 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_13 (constant S_ .f32 0x40000000#32),
    unary main_cst_13 main_v84 (broadcastInDim S16384x7x7x1 ![] bcast_S_S16384x7x7x1 : (⟨S_, .f32⟩ : BufTy).Contents (Elt F) → (⟨S16384x7x7x1, .f32⟩ : BufTy).Contents (Elt F)),
    binary main_v83 main_v84 main_v85 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v82 main_v85 main_v86 (addf : (⟨S16384x7x7x1, .f32⟩ : BufTy).Contents (Elt F) → (⟨S16384x7x7x1, .f32⟩ : BufTy).Contents (Elt F) → (⟨S16384x7x7x1, .f32⟩ : BufTy).Contents (Elt F)),
    unary main_v66 main_v87 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v66 main_v88 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst_14 (constant S_ .f32 0x40000000#32),
    unary main_cst_14 main_v89 (broadcastInDim S16384x7x7x1 ![] bcast_S_S16384x7x7x1 : (⟨S_, .f32⟩ : BufTy).Contents (Elt F) → (⟨S16384x7x7x1, .f32⟩ : BufTy).Contents (Elt F)),
    binary main_v88 main_v89 main_v90 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v87 main_v90 main_v91 (subf : (⟨S16384x7x7x1, .f32⟩ : BufTy).Contents (Elt F) → (⟨S16384x7x7x1, .f32⟩ : BufTy).Contents (Elt F) → (⟨S16384x7x7x1, .f32⟩ : BufTy).Contents (Elt F)),
    unary main_v66 main_v92 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v66 main_v93 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_15 (constant S_ .f32 0x40000000#32),
    unary main_cst_15 main_v94 (broadcastInDim S16384x7x7x1 ![] bcast_S_S16384x7x7x1 : (⟨S_, .f32⟩ : BufTy).Contents (Elt F) → (⟨S16384x7x7x1, .f32⟩ : BufTy).Contents (Elt F)),
    binary main_v93 main_v94 main_v95 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v92 main_v95 main_v96 (subf : (⟨S16384x7x7x1, .f32⟩ : BufTy).Contents (Elt F) → (⟨S16384x7x7x1, .f32⟩ : BufTy).Contents (Elt F) → (⟨S16384x7x7x1, .f32⟩ : BufTy).Contents (Elt F)),
    unary main_v66 main_v97 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    unary main_v66 main_v98 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    nullary main_cst_16 (constant S_ .f32 0x40000000#32),
    unary main_cst_16 main_v99 (broadcastInDim S16384x7x7x1 ![] bcast_S_S16384x7x7x1 : (⟨S_, .f32⟩ : BufTy).Contents (Elt F) → (⟨S16384x7x7x1, .f32⟩ : BufTy).Contents (Elt F)),
    binary main_v98 main_v99 main_v100 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v97 main_v100 main_v101 (addf : (⟨S16384x7x7x1, .f32⟩ : BufTy).Contents (Elt F) → (⟨S16384x7x7x1, .f32⟩ : BufTy).Contents (Elt F) → (⟨S16384x7x7x1, .f32⟩ : BufTy).Contents (Elt F)) ]

set_option maxRecDepth 8192 in
theorem ops2_sub : (ops2 : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem keep2_v0 (V : Valuation τ sig (Elt F)) : after ops2 V (Proc.devRef .tc main_v0) = V (Proc.devRef .tc main_v0) := by
  simp only [ops2]
  after_results_simp

theorem keep2_v64 (V : Valuation τ sig (Elt F)) : after ops2 V (Proc.devRef .tc main_v64) = V (Proc.devRef .tc main_v64) := by
  simp only [ops2]
  after_results_simp

theorem keep2_arg0 (V : Valuation τ sig (Elt F)) : after ops2 V (Proc.devRef .tc main_arg0) = V (Proc.devRef .tc main_arg0) := by
  simp only [ops2]
  after_results_simp

theorem keep2_arg1 (V : Valuation τ sig (Elt F)) : after ops2 V (Proc.devRef .tc main_arg1) = V (Proc.devRef .tc main_arg1) := by
  simp only [ops2]
  after_results_simp

set_option maxHeartbeats 2000000 in
theorem k2_v66 (V : Valuation τ sig (Elt F)) (P T : FVec F S16384x7x7x30 .f32)
    (hP : V (Proc.devRef .tc main_v0) = P) (hT : V (Proc.devRef .tc main_arg1) = T) :
    after ops2 V (Proc.devRef .tc main_v66) = box21 T := by
  subst hP hT
  simp only [ops2]
  after_results_simp
  rfl

set_option maxHeartbeats 2000000 in
theorem k2_v71 (V : Valuation τ sig (Elt F)) (P T : FVec F S16384x7x7x30 .f32)
    (hP : V (Proc.devRef .tc main_v0) = P) (hT : V (Proc.devRef .tc main_arg1) = T) :
    after ops2 V (Proc.devRef .tc main_v71) = lo (c0 (box26 P)) (c2 (box26 P)) := by
  subst hP hT
  simp only [ops2]
  after_results_simp
  rfl

set_option maxHeartbeats 2000000 in
theorem k2_v76 (V : Valuation τ sig (Elt F)) (P T : FVec F S16384x7x7x30 .f32)
    (hP : V (Proc.devRef .tc main_v0) = P) (hT : V (Proc.devRef .tc main_arg1) = T) :
    after ops2 V (Proc.devRef .tc main_v76) = lo (c1 (box26 P)) (c3 (box26 P)) := by
  subst hP hT
  simp only [ops2]
  after_results_simp
  rfl

set_option maxHeartbeats 2000000 in
theorem k2_v81 (V : Valuation τ sig (Elt F)) (P T : FVec F S16384x7x7x30 .f32)
    (hP : V (Proc.devRef .tc main_v0) = P) (hT : V (Proc.devRef .tc main_arg1) = T) :
    after ops2 V (Proc.devRef .tc main_v81) = hi (c0 (box26 P)) (c2 (box26 P)) := by
  subst hP hT
  simp only [ops2]
  after_results_simp
  rfl

set_option maxHeartbeats 2000000 in
theorem k2_v86 (V : Valuation τ sig (Elt F)) (P T : FVec F S16384x7x7x30 .f32)
    (hP : V (Proc.devRef .tc main_v0) = P) (hT : V (Proc.devRef .tc main_arg1) = T) :
    after ops2 V (Proc.devRef .tc main_v86) = hi (c1 (box26 P)) (c3 (box26 P)) := by
  subst hP hT
  simp only [ops2]
  after_results_simp
  rfl

set_option maxHeartbeats 2000000 in
theorem k2_v91 (V : Valuation τ sig (Elt F)) (P T : FVec F S16384x7x7x30 .f32)
    (hP : V (Proc.devRef .tc main_v0) = P) (hT : V (Proc.devRef .tc main_arg1) = T) :
    after ops2 V (Proc.devRef .tc main_v91) = lo (c0 (box21 T)) (c2 (box21 T)) := by
  subst hP hT
  simp only [ops2]
  after_results_simp
  rfl

set_option maxHeartbeats 2000000 in
theorem k2_v96 (V : Valuation τ sig (Elt F)) (P T : FVec F S16384x7x7x30 .f32)
    (hP : V (Proc.devRef .tc main_v0) = P) (hT : V (Proc.devRef .tc main_arg1) = T) :
    after ops2 V (Proc.devRef .tc main_v96) = lo (c1 (box21 T)) (c3 (box21 T)) := by
  subst hP hT
  simp only [ops2]
  after_results_simp
  rfl

set_option maxHeartbeats 2000000 in
theorem k2_v101 (V : Valuation τ sig (Elt F)) (P T : FVec F S16384x7x7x30 .f32)
    (hP : V (Proc.devRef .tc main_v0) = P) (hT : V (Proc.devRef .tc main_arg1) = T) :
    after ops2 V (Proc.devRef .tc main_v101) = hi (c0 (box21 T)) (c2 (box21 T)) := by
  subst hP hT
  simp only [ops2]
  after_results_simp
  rfl

/-! ### Chunk 3: the second overlap ratio -/

set_option maxRecDepth 8192 in
set_option maxHeartbeats 4000000 in
/-- Operations 124 to 158 of @main, in order (a called function's operations stand in its call's place). -/
abbrev ops3 : List (HloOp τ sig (Elt F)) :=
  [
    unary main_v66 main_v102 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    unary main_v66 main_v103 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    nullary main_cst_17 (constant S_ .f32 0x40000000#32),
    unary main_cst_17 main_v104 (broadcastInDim S16384x7x7x1 ![] bcast_S_S16384x7x7x1 : (⟨S_, .f32⟩ : BufTy).Contents (Elt F) → (⟨S16384x7x7x1, .f32⟩ : BufTy).Contents (Elt F)),
    binary main_v103 main_v104 main_v105 (Host.divf : (⟨S16384x7x7x1, .f32⟩ : BufTy).Contents (Elt F) → (⟨S16384x7x7x1, .f32⟩ : BufTy).Contents (Elt F) → (⟨S16384x7x7x1, .f32⟩ : BufTy).Contents (Elt F)),
    binary main_v102 main_v105 main_v106 (addf : (⟨S16384x7x7x1, .f32⟩ : BufTy).Contents (Elt F) → (⟨S16384x7x7x1, .f32⟩ : BufTy).Contents (Elt F) → (⟨S16384x7x7x1, .f32⟩ : BufTy).Contents (Elt F)),
    binary main_v71 main_v91 main_v107 (maximumf : (⟨S16384x7x7x1, .f32⟩ : BufTy).Contents (Elt F) → (⟨S16384x7x7x1, .f32⟩ : BufTy).Contents (Elt F) → (⟨S16384x7x7x1, .f32⟩ : BufTy).Contents (Elt F)),
    binary main_v76 main_v96 main_v108 (maximumf : (⟨S16384x7x7x1, .f32⟩ : BufTy).Contents (Elt F) → (⟨S16384x7x7x1, .f32⟩ : BufTy).Contents (Elt F) → (⟨S16384x7x7x1, .f32⟩ : BufTy).Contents (Elt F)),
    binary main_v81 main_v101 main_v109 (minimumf : (⟨S16384x7x7x1, .f32⟩ : BufTy).Contents (Elt F) → (⟨S16384x7x7x1, .f32⟩ : BufTy).Contents (Elt F) → (⟨S16384x7x7x1, .f32⟩ : BufTy).Contents (Elt F)),
    binary main_v86 main_v106 main_v110 (minimumf : (⟨S16384x7x7x1, .f32⟩ : BufTy).Contents (Elt F) → (⟨S16384x7x7x1, .f32⟩ : BufTy).Contents (Elt F) → (⟨S16384x7x7x1, .f32⟩ : BufTy).Contents (Elt F)),
    binary main_v109 main_v107 main_v111 (subf : (⟨S16384x7x7x1, .f32⟩ : BufTy).Contents (Elt F) → (⟨S16384x7x7x1, .f32⟩ : BufTy).Contents (Elt F) → (⟨S16384x7x7x1, .f32⟩ : BufTy).Contents (Elt F)),
    nullary main_cst_18 (constant S_ .f32 0x00000000#32),
    TRef.unary (TRef.of (T := ⟨S_, .f32⟩) main_cst_18) (TRef.of (T := ⟨S_, .f32⟩) main_call2_v0) id,
    TRef.unary (TRef.of (T := ⟨S_, .f32⟩) main_call2_v0) (TRef.of (T := ⟨S16384x7x7x1, .f32⟩) main_call2_v1) (broadcastInDim S16384x7x7x1 ![] bcast_S_S16384x7x7x1),
    TRef.binary (TRef.of (T := ⟨S16384x7x7x1, .f32⟩) main_call2_v1) (TRef.of (T := ⟨S16384x7x7x1, .f32⟩) main_v111) (TRef.of (T := ⟨S16384x7x7x1, .f32⟩) main_v112) maximumf,
    binary main_v110 main_v108 main_v113 (subf : (⟨S16384x7x7x1, .f32⟩ : BufTy).Contents (Elt F) → (⟨S16384x7x7x1, .f32⟩ : BufTy).Contents (Elt F) → (⟨S16384x7x7x1, .f32⟩ : BufTy).Contents (Elt F)),
    nullary main_cst_19 (constant S_ .f32 0x00000000#32),
    TRef.unary (TRef.of (T := ⟨S_, .f32⟩) main_cst_19) (TRef.of (T := ⟨S_, .f32⟩) main_call3_v0) id,
    TRef.unary (TRef.of (T := ⟨S_, .f32⟩) main_call3_v0) (TRef.of (T := ⟨S16384x7x7x1, .f32⟩) main_call3_v1) (broadcastInDim S16384x7x7x1 ![] bcast_S_S16384x7x7x1),
    TRef.binary (TRef.of (T := ⟨S16384x7x7x1, .f32⟩) main_call3_v1) (TRef.of (T := ⟨S16384x7x7x1, .f32⟩) main_v113) (TRef.of (T := ⟨S16384x7x7x1, .f32⟩) main_v114) maximumf,
    binary main_v112 main_v114 main_v115 (mulf : (⟨S16384x7x7x1, .f32⟩ : BufTy).Contents (Elt F) → (⟨S16384x7x7x1, .f32⟩ : BufTy).Contents (Elt F) → (⟨S16384x7x7x1, .f32⟩ : BufTy).Contents (Elt F)),
    binary main_v81 main_v71 main_v116 (subf : (⟨S16384x7x7x1, .f32⟩ : BufTy).Contents (Elt F) → (⟨S16384x7x7x1, .f32⟩ : BufTy).Contents (Elt F) → (⟨S16384x7x7x1, .f32⟩ : BufTy).Contents (Elt F)),
    binary main_v86 main_v76 main_v117 (subf : (⟨S16384x7x7x1, .f32⟩ : BufTy).Contents (Elt F) → (⟨S16384x7x7x1, .f32⟩ : BufTy).Contents (Elt F) → (⟨S16384x7x7x1, .f32⟩ : BufTy).Contents (Elt F)),
    binary main_v116 main_v117 main_v118 (mulf : (⟨S16384x7x7x1, .f32⟩ : BufTy).Contents (Elt F) → (⟨S16384x7x7x1, .f32⟩ : BufTy).Contents (Elt F) → (⟨S16384x7x7x1, .f32⟩ : BufTy).Contents (Elt F)),
    unary main_v118 main_v119 (Host.absf : (⟨S16384x7x7x1, .f32⟩ : BufTy).Contents (Elt F) → (⟨S16384x7x7x1, .f32⟩ : BufTy).Contents (Elt F)),
    binary main_v101 main_v91 main_v120 (subf : (⟨S16384x7x7x1, .f32⟩ : BufTy).Contents (Elt F) → (⟨S16384x7x7x1, .f32⟩ : BufTy).Contents (Elt F) → (⟨S16384x7x7x1, .f32⟩ : BufTy).Contents (Elt F)),
    binary main_v106 main_v96 main_v121 (subf : (⟨S16384x7x7x1, .f32⟩ : BufTy).Contents (Elt F) → (⟨S16384x7x7x1, .f32⟩ : BufTy).Contents (Elt F) → (⟨S16384x7x7x1, .f32⟩ : BufTy).Contents (Elt F)),
    binary main_v120 main_v121 main_v122 (mulf : (⟨S16384x7x7x1, .f32⟩ : BufTy).Contents (Elt F) → (⟨S16384x7x7x1, .f32⟩ : BufTy).Contents (Elt F) → (⟨S16384x7x7x1, .f32⟩ : BufTy).Contents (Elt F)),
    unary main_v122 main_v123 (Host.absf : (⟨S16384x7x7x1, .f32⟩ : BufTy).Contents (Elt F) → (⟨S16384x7x7x1, .f32⟩ : BufTy).Contents (Elt F)),
    binary main_v119 main_v123 main_v124 (addf : (⟨S16384x7x7x1, .f32⟩ : BufTy).Contents (Elt F) → (⟨S16384x7x7x1, .f32⟩ : BufTy).Contents (Elt F) → (⟨S16384x7x7x1, .f32⟩ : BufTy).Contents (Elt F)),
    binary main_v124 main_v115 main_v125 (subf : (⟨S16384x7x7x1, .f32⟩ : BufTy).Contents (Elt F) → (⟨S16384x7x7x1, .f32⟩ : BufTy).Contents (Elt F) → (⟨S16384x7x7x1, .f32⟩ : BufTy).Contents (Elt F)),
    nullary main_cst_20 (constant S_ .f32 0x358637BD#32),
    unary main_cst_20 main_v126 (broadcastInDim S16384x7x7x1 ![] bcast_S_S16384x7x7x1 : (⟨S_, .f32⟩ : BufTy).Contents (Elt F) → (⟨S16384x7x7x1, .f32⟩ : BufTy).Contents (Elt F)),
    binary main_v125 main_v126 main_v127 (addf : (⟨S16384x7x7x1, .f32⟩ : BufTy).Contents (Elt F) → (⟨S16384x7x7x1, .f32⟩ : BufTy).Contents (Elt F) → (⟨S16384x7x7x1, .f32⟩ : BufTy).Contents (Elt F)),
    binary main_v115 main_v127 main_v128 (Host.divf : (⟨S16384x7x7x1, .f32⟩ : BufTy).Contents (Elt F) → (⟨S16384x7x7x1, .f32⟩ : BufTy).Contents (Elt F) → (⟨S16384x7x7x1, .f32⟩ : BufTy).Contents (Elt F)) ]

set_option maxRecDepth 8192 in
theorem ops3_sub : (ops3 : List (HloOp τ sig (Elt F))).Forall fun op => op.bufs ⊆ tcRefs τ sig :=
  ⟨unary_bufs_sub .., unary_bufs_sub .., nullary_bufs_sub .., unary_bufs_sub .., binary_bufs_sub .., binary_bufs_sub .., binary_bufs_sub .., binary_bufs_sub .., binary_bufs_sub .., binary_bufs_sub .., binary_bufs_sub .., nullary_bufs_sub .., unary_bufs_sub .., unary_bufs_sub .., binary_bufs_sub .., binary_bufs_sub .., nullary_bufs_sub .., unary_bufs_sub .., unary_bufs_sub .., binary_bufs_sub .., binary_bufs_sub .., binary_bufs_sub .., binary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem keep3_v0 (V : Valuation τ sig (Elt F)) : after ops3 V (Proc.devRef .tc main_v0) = V (Proc.devRef .tc main_v0) := by
  simp only [ops3]
  after_results_simp

theorem keep3_v64 (V : Valuation τ sig (Elt F)) : after ops3 V (Proc.devRef .tc main_v64) = V (Proc.devRef .tc main_v64) := by
  simp only [ops3]
  after_results_simp

theorem keep3_arg0 (V : Valuation τ sig (Elt F)) : after ops3 V (Proc.devRef .tc main_arg0) = V (Proc.devRef .tc main_arg0) := by
  simp only [ops3]
  after_results_simp

theorem keep3_arg1 (V : Valuation τ sig (Elt F)) : after ops3 V (Proc.devRef .tc main_arg1) = V (Proc.devRef .tc main_arg1) := by
  simp only [ops3]
  after_results_simp

set_option maxHeartbeats 2000000 in
/-- The second overlap ratio from the target box and seven of the corners. -/
theorem k3_v128 (V : Valuation τ sig (Elt F)) (b g : FVec F S16384x7x7x4 .f32)
    (h66 : V (Proc.devRef .tc main_v66) = g)
    (h71 : V (Proc.devRef .tc main_v71) = lo (c0 b) (c2 b))
    (h76 : V (Proc.devRef .tc main_v76) = lo (c1 b) (c3 b))
    (h81 : V (Proc.devRef .tc main_v81) = hi (c0 b) (c2 b))
    (h86 : V (Proc.devRef .tc main_v86) = hi (c1 b) (c3 b))
    (h91 : V (Proc.devRef .tc main_v91) = lo (c0 g) (c2 g))
    (h96 : V (Proc.devRef .tc main_v96) = lo (c1 g) (c3 g))
    (h101 : V (Proc.devRef .tc main_v101) = hi (c0 g) (c2 g)) :
    after ops3 V (Proc.devRef .tc main_v128) = iouV b g := by
  simp only [ops3]
  after_results_simp
  simp only [h66, h71, h76, h81, h86, h91, h96, h101]
  rfl

/-! ### Chunk 4: the better box, the object indicator, the masked boxes -/

set_option maxRecDepth 8192 in
set_option maxHeartbeats 4000000 in
/-- Operations 159 to 176 of @main, in order (a called function's operations stand in its call's place). -/
abbrev ops4 : List (HloOp τ sig (Elt F)) :=
  [
    binary main_v128 main_v64 main_v129 (cmpf .ogt : (⟨S16384x7x7x1, .f32⟩ : BufTy).Contents (Elt F) → (⟨S16384x7x7x1, .f32⟩ : BufTy).Contents (Elt F) → (⟨S16384x7x7x1, .i1⟩ : BufTy).Contents (Elt F)),
    unary main_v129 main_v130 (uitofp .f32 : (⟨S16384x7x7x1, .i1⟩ : BufTy).Contents (Elt F) → (⟨S16384x7x7x1, .f32⟩ : BufTy).Contents (Elt F)),
    unary main_arg1 main_v131 ((extractStridedSlice S16384x7x7x1 ![0, 0, 0, 20] · slices_S16384x7x7x30_S16384x7x7x1_0_0_0_20) : (⟨S16384x7x7x30, .f32⟩ : BufTy).Contents (Elt F) → (⟨S16384x7x7x1, .f32⟩ : BufTy).Contents (Elt F)),
    unary main_v0 main_v132 ((extractStridedSlice S16384x7x7x4 ![0, 0, 0, 26] · slices_S16384x7x7x30_S16384x7x7x4_0_0_0_26) : (⟨S16384x7x7x30, .f32⟩ : BufTy).Contents (Elt F) → (⟨S16384x7x7x4, .f32⟩ : BufTy).Contents (Elt F)),
    unary main_v130 main_v133 (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)),
    binary main_v133 main_v132 main_v134 (mulf : (⟨S16384x7x7x4, .f32⟩ : BufTy).Contents (Elt F) → (⟨S16384x7x7x4, .f32⟩ : BufTy).Contents (Elt F) → (⟨S16384x7x7x4, .f32⟩ : BufTy).Contents (Elt F)),
    nullary main_cst_21 (constant S_ .f32 0x3F800000#32),
    unary main_cst_21 main_v135 (broadcastInDim S16384x7x7x1 ![] bcast_S_S16384x7x7x1 : (⟨S_, .f32⟩ : BufTy).Contents (Elt F) → (⟨S16384x7x7x1, .f32⟩ : BufTy).Contents (Elt F)),
    binary main_v135 main_v130 main_v136 (subf : (⟨S16384x7x7x1, .f32⟩ : BufTy).Contents (Elt F) → (⟨S16384x7x7x1, .f32⟩ : BufTy).Contents (Elt F) → (⟨S16384x7x7x1, .f32⟩ : BufTy).Contents (Elt F)),
    unary main_v0 main_v137 ((extractStridedSlice S16384x7x7x4 ![0, 0, 0, 21] · slices_S16384x7x7x30_S16384x7x7x4_0_0_0_21) : (⟨S16384x7x7x30, .f32⟩ : BufTy).Contents (Elt F) → (⟨S16384x7x7x4, .f32⟩ : BufTy).Contents (Elt F)),
    unary main_v136 main_v138 (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)),
    binary main_v138 main_v137 main_v139 (mulf : (⟨S16384x7x7x4, .f32⟩ : BufTy).Contents (Elt F) → (⟨S16384x7x7x4, .f32⟩ : BufTy).Contents (Elt F) → (⟨S16384x7x7x4, .f32⟩ : BufTy).Contents (Elt F)),
    binary main_v134 main_v139 main_v140 (addf : (⟨S16384x7x7x4, .f32⟩ : BufTy).Contents (Elt F) → (⟨S16384x7x7x4, .f32⟩ : BufTy).Contents (Elt F) → (⟨S16384x7x7x4, .f32⟩ : BufTy).Contents (Elt F)),
    unary main_v131 main_v141 (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)),
    binary main_v141 main_v140 main_v142 (mulf : (⟨S16384x7x7x4, .f32⟩ : BufTy).Contents (Elt F) → (⟨S16384x7x7x4, .f32⟩ : BufTy).Contents (Elt F) → (⟨S16384x7x7x4, .f32⟩ : BufTy).Contents (Elt F)),
    unary main_arg1 main_v143 ((extractStridedSlice S16384x7x7x4 ![0, 0, 0, 21] · slices_S16384x7x7x30_S16384x7x7x4_0_0_0_21) : (⟨S16384x7x7x30, .f32⟩ : BufTy).Contents (Elt F) → (⟨S16384x7x7x4, .f32⟩ : BufTy).Contents (Elt F)),
    unary main_v131 main_v144 (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)),
    binary main_v144 main_v143 main_v145 (mulf : (⟨S16384x7x7x4, .f32⟩ : BufTy).Contents (Elt F) → (⟨S16384x7x7x4, .f32⟩ : BufTy).Contents (Elt F) → (⟨S16384x7x7x4, .f32⟩ : BufTy).Contents (Elt F)) ]

set_option maxRecDepth 8192 in
theorem ops4_sub : (ops4 : List (HloOp τ sig (Elt F))).Forall fun op => op.bufs ⊆ tcRefs τ sig :=
  ⟨binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl⟩

theorem keep4_v0 (V : Valuation τ sig (Elt F)) : after ops4 V (Proc.devRef .tc main_v0) = V (Proc.devRef .tc main_v0) := by
  simp only [ops4]
  after_results_simp

theorem keep4_arg0 (V : Valuation τ sig (Elt F)) : after ops4 V (Proc.devRef .tc main_arg0) = V (Proc.devRef .tc main_arg0) := by
  simp only [ops4]
  after_results_simp

theorem keep4_arg1 (V : Valuation τ sig (Elt F)) : after ops4 V (Proc.devRef .tc main_arg1) = V (Proc.devRef .tc main_arg1) := by
  simp only [ops4]
  after_results_simp

set_option maxHeartbeats 2000000 in
theorem k4_v130 (V : Valuation τ sig (Elt F)) (P T : FVec F S16384x7x7x30 .f32)
    (hP : V (Proc.devRef .tc main_v0) = P) (hT : V (Proc.devRef .tc main_arg1) = T)
    (h64 : V (Proc.devRef .tc main_v64) = iou1V P T) (h128 : V (Proc.devRef .tc main_v128) = iou2V P T) :
    after ops4 V (Proc.devRef .tc main_v130) = bestV P T := by
  simp only [ops4]
  after_results_simp
  simp only [hP, hT, h64, h128]
  rfl

set_option maxHeartbeats 2000000 in
theorem k4_v131 (V : Valuation τ sig (Elt F)) (P T : FVec F S16384x7x7x30 .f32)
    (hP : V (Proc.devRef .tc main_v0) = P) (hT : V (Proc.devRef .tc main_arg1) = T)
    (h64 : V (Proc.devRef .tc main_v64) = iou1V P T) (h128 : V (Proc.devRef .tc main_v128) = iou2V P T) :
    after ops4 V (Proc.devRef .tc main_v131) = existsV T := by
  simp only [ops4]
  after_results_simp
  simp only [hP, hT, h64, h128]
  rfl

set_option maxHeartbeats 2000000 in
theorem k4_v142 (V : Valuation τ sig (Elt F)) (P T : FVec F S16384x7x7x30 .f32)
    (hP : V (Proc.devRef .tc main_v0) = P) (hT : V (Proc.devRef .tc main_arg1) = T)
    (h64 : V (Proc.devRef .tc main_v64) = iou1V P T) (h128 : V (Proc.devRef .tc main_v128) = iou2V P T) :
    after ops4 V (Proc.devRef .tc main_v142) = boxPredV P T := by
  simp only [ops4]
  after_results_simp
  simp only [hP, hT, h64, h128]
  rfl

set_option maxHeartbeats 2000000 in
theorem k4_v145 (V : Valuation τ sig (Elt F)) (P T : FVec F S16384x7x7x30 .f32)
    (hP : V (Proc.devRef .tc main_v0) = P) (hT : V (Proc.devRef .tc main_arg1) = T)
    (h64 : V (Proc.devRef .tc main_v64) = iou1V P T) (h128 : V (Proc.devRef .tc main_v128) = iou2V P T) :
    after ops4 V (Proc.devRef .tc main_v145) = boxTgtV T := by
  simp only [ops4]
  after_results_simp
  simp only [hP, hT, h64, h128]
  rfl

/-! ### Chunk 5: the predicted box's extents rooted, joined to its midpoints -/

set_option maxRecDepth 8192 in
set_option maxHeartbeats 4000000 in
/-- Operations 177 to 187 of @main, in order (a called function's operations stand in its call's place). -/
abbrev ops5 : List (HloOp τ sig (Elt F)) :=
  [
    unary main_v142 main_v146 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    unary main_v146 main_v147 (Host.sign : (⟨S16384x7x7x2, .f32⟩ : BufTy).Contents (Elt F) → (⟨S16384x7x7x2, .f32⟩ : BufTy).Contents (Elt F)),
    unary main_v142 main_v148 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_22 (constant S_ .f32 0x358637BD#32),
    unary main_cst_22 main_v149 (broadcastInDim S16384x7x7x2 ![] bcast_S_S16384x7x7x2 : (⟨S_, .f32⟩ : BufTy).Contents (Elt F) → (⟨S16384x7x7x2, .f32⟩ : BufTy).Contents (Elt F)),
    binary main_v148 main_v149 main_v150 (addf : (⟨S16384x7x7x2, .f32⟩ : BufTy).Contents (Elt F) → (⟨S16384x7x7x2, .f32⟩ : BufTy).Contents (Elt F) → (⟨S16384x7x7x2, .f32⟩ : BufTy).Contents (Elt F)),
    unary main_v150 main_v151 (Host.absf : (⟨S16384x7x7x2, .f32⟩ : BufTy).Contents (Elt F) → (⟨S16384x7x7x2, .f32⟩ : BufTy).Contents (Elt F)),
    unary main_v151 main_v152 (Host.sqrt : (⟨S16384x7x7x2, .f32⟩ : BufTy).Contents (Elt F) → (⟨S16384x7x7x2, .f32⟩ : BufTy).Contents (Elt F)),
    binary main_v147 main_v152 main_v153 (mulf : (⟨S16384x7x7x2, .f32⟩ : BufTy).Contents (Elt F) → (⟨S16384x7x7x2, .f32⟩ : BufTy).Contents (Elt F) → (⟨S16384x7x7x2, .f32⟩ : BufTy).Contents (Elt F)),
    unary main_v142 main_v154 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    binary main_v154 main_v153 main_v155 ((fun a b => concatenate S16384x7x7x4 3 [⟨S16384x7x7x2, a⟩, ⟨S16384x7x7x2, b⟩] concatenates_S16384x7x7x2_S16384x7x7x2_S16384x7x7x4_d3) : (⟨S16384x7x7x2, .f32⟩ : BufTy).Contents (Elt F) → (⟨S16384x7x7x2, .f32⟩ : BufTy).Contents (Elt F) → (⟨S16384x7x7x4, .f32⟩ : BufTy).Contents (Elt F)) ]

set_option maxRecDepth 8192 in
theorem ops5_sub : (ops5 : List (HloOp τ sig (Elt F))).Forall fun op => op.bufs ⊆ tcRefs τ sig :=
  ⟨unary_bufs_sub .., unary_bufs_sub .., unary_bufs_sub .., nullary_bufs_sub .., unary_bufs_sub .., binary_bufs_sub .., unary_bufs_sub .., unary_bufs_sub .., binary_bufs_sub .., unary_bufs_sub .., binary_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl⟩

theorem keep5_v0 (V : Valuation τ sig (Elt F)) : after ops5 V (Proc.devRef .tc main_v0) = V (Proc.devRef .tc main_v0) := by
  simp only [ops5]
  after_results_simp

theorem keep5_v130 (V : Valuation τ sig (Elt F)) : after ops5 V (Proc.devRef .tc main_v130) = V (Proc.devRef .tc main_v130) := by
  simp only [ops5]
  after_results_simp

theorem keep5_v131 (V : Valuation τ sig (Elt F)) : after ops5 V (Proc.devRef .tc main_v131) = V (Proc.devRef .tc main_v131) := by
  simp only [ops5]
  after_results_simp

theorem keep5_v145 (V : Valuation τ sig (Elt F)) : after ops5 V (Proc.devRef .tc main_v145) = V (Proc.devRef .tc main_v145) := by
  simp only [ops5]
  after_results_simp

theorem keep5_arg0 (V : Valuation τ sig (Elt F)) : after ops5 V (Proc.devRef .tc main_arg0) = V (Proc.devRef .tc main_arg0) := by
  simp only [ops5]
  after_results_simp

theorem keep5_arg1 (V : Valuation τ sig (Elt F)) : after ops5 V (Proc.devRef .tc main_arg1) = V (Proc.devRef .tc main_arg1) := by
  simp only [ops5]
  after_results_simp

set_option maxHeartbeats 2000000 in
/-- The predicted box with its extents replaced by signed square roots. -/
theorem k5_v155 (V : Valuation τ sig (Elt F)) (X : FVec F S16384x7x7x4 .f32) (h142 : V (Proc.devRef .tc main_v142) = X) :
    after ops5 V (Proc.devRef .tc main_v155) = join2 (lo2 X) (mulf (Host.sign (hi2 X)) (Host.sqrt (Host.absf (addf (hi2 X) (broadcastInDim S16384x7x7x2 ![] bcast_S_S16384x7x7x2 (constant S_ .f32 0x358637BD#32)))))) := by
  subst h142
  simp only [ops5]
  after_results_simp
  rfl

/-! ### Chunk 6: the target box's extents rooted, the squared box differences summed -/

set_option maxRecDepth 8192 in
set_option maxHeartbeats 4000000 in
/-- Operations 188 to 195 of @main, in order (a called function's operations stand in its call's place). -/
abbrev ops6 : List (HloOp τ sig (Elt F)) :=
  [
    unary main_v145 main_v156 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v145 main_v157 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    unary main_v157 main_v158 (Host.sqrt : (⟨S16384x7x7x2, .f32⟩ : BufTy).Contents (Elt F) → (⟨S16384x7x7x2, .f32⟩ : BufTy).Contents (Elt F)),
    binary main_v156 main_v158 main_v159 ((fun a b => concatenate S16384x7x7x4 3 [⟨S16384x7x7x2, a⟩, ⟨S16384x7x7x2, b⟩] concatenates_S16384x7x7x2_S16384x7x7x2_S16384x7x7x4_d3) : (⟨S16384x7x7x2, .f32⟩ : BufTy).Contents (Elt F) → (⟨S16384x7x7x2, .f32⟩ : BufTy).Contents (Elt F) → (⟨S16384x7x7x4, .f32⟩ : BufTy).Contents (Elt F)),
    binary main_v155 main_v159 main_v160 (subf : (⟨S16384x7x7x4, .f32⟩ : BufTy).Contents (Elt F) → (⟨S16384x7x7x4, .f32⟩ : BufTy).Contents (Elt F) → (⟨S16384x7x7x4, .f32⟩ : BufTy).Contents (Elt F)),
    binary main_v160 main_v160 main_v161 (mulf : (⟨S16384x7x7x4, .f32⟩ : BufTy).Contents (Elt F) → (⟨S16384x7x7x4, .f32⟩ : BufTy).Contents (Elt F) → (⟨S16384x7x7x4, .f32⟩ : BufTy).Contents (Elt F)),
    nullary main_cst_23 (constant S_ .f32 0x00000000#32),
    binary main_v161 main_cst_23 main_v162 ((fun x v => Host.reduceAdd x v reducesTo_S16384x7x7x4_S_d0_1_2_3 h_S_) : (⟨S16384x7x7x4, .f32⟩ : BufTy).Contents (Elt F) → (⟨S_, .f32⟩ : BufTy).Contents (Elt F) → (⟨S_, .f32⟩ : BufTy).Contents (Elt F)) ]

set_option maxRecDepth 8192 in
theorem ops6_sub : (ops6 : List (HloOp τ sig (Elt F))).Forall fun op => op.bufs ⊆ tcRefs τ sig :=
  ⟨unary_bufs_sub .., unary_bufs_sub .., unary_bufs_sub .., binary_bufs_sub .., binary_bufs_sub .., binary_bufs_sub .., nullary_bufs_sub .., binary_bufs_sub ..⟩

set_option maxRecDepth 8192 in
theorem ops6_fresh : (ops6 : List (HloOp τ sig (Elt F))).Forall fun op => op.fresh = ∅ :=
  ⟨rfl, rfl, rfl, rfl, rfl, rfl, rfl, rfl⟩

theorem keep6_v0 (V : Valuation τ sig (Elt F)) : after ops6 V (Proc.devRef .tc main_v0) = V (Proc.devRef .tc main_v0) := by
  simp only [ops6]
  after_results_simp

theorem keep6_v130 (V : Valuation τ sig (Elt F)) : after ops6 V (Proc.devRef .tc main_v130) = V (Proc.devRef .tc main_v130) := by
  simp only [ops6]
  after_results_simp

theorem keep6_v131 (V : Valuation τ sig (Elt F)) : after ops6 V (Proc.devRef .tc main_v131) = V (Proc.devRef .tc main_v131) := by
  simp only [ops6]
  after_results_simp

theorem keep6_arg0 (V : Valuation τ sig (Elt F)) : after ops6 V (Proc.devRef .tc main_arg0) = V (Proc.devRef .tc main_arg0) := by
  simp only [ops6]
  after_results_simp

theorem keep6_arg1 (V : Valuation τ sig (Elt F)) : after ops6 V (Proc.devRef .tc main_arg1) = V (Proc.devRef .tc main_arg1) := by
  simp only [ops6]
  after_results_simp

set_option maxHeartbeats 2000000 in
/-- The sum of the squared box differences. -/
theorem k6_v162 (V : Valuation τ sig (Elt F)) (Y Z : FVec F S16384x7x7x4 .f32) (h145 : V (Proc.devRef .tc main_v145) = Y) (h155 : V (Proc.devRef .tc main_v155) = Z) :
    after ops6 V (Proc.devRef .tc main_v162)
      = Host.reduceAdd (mulf (subf Z (join2 (lo2 Y) (Host.sqrt (hi2 Y)))) (subf Z (join2 (lo2 Y) (Host.sqrt (hi2 Y))))) (constant S_ .f32 0x00000000#32) reducesTo_S16384x7x7x4_S_d0_1_2_3 h_S_ := by
  subst h145 h155
  simp only [ops6]
  after_results_simp
  rfl

/-! ### Chunk 7: the object sum, the two no-object sums, the squared class differences -/

set_option maxRecDepth 8192 in
set_option maxHeartbeats 4000000 in
/-- Operations 196 to 247 of @main, in order (a called function's operations stand in its call's place). -/
abbrev ops7 : List (HloOp τ sig (Elt F)) :=
  [
    unary main_v0 main_v163 ((extractStridedSlice S16384x7x7x1 ![0, 0, 0, 25] · slices_S16384x7x7x30_S16384x7x7x1_0_0_0_25) : (⟨S16384x7x7x30, .f32⟩ : BufTy).Contents (Elt F) → (⟨S16384x7x7x1, .f32⟩ : BufTy).Contents (Elt F)),
    binary main_v130 main_v163 main_v164 (mulf : (⟨S16384x7x7x1, .f32⟩ : BufTy).Contents (Elt F) → (⟨S16384x7x7x1, .f32⟩ : BufTy).Contents (Elt F) → (⟨S16384x7x7x1, .f32⟩ : BufTy).Contents (Elt F)),
    nullary main_cst_24 (constant S_ .f32 0x3F800000#32),
    unary main_cst_24 main_v165 (broadcastInDim S16384x7x7x1 ![] bcast_S_S16384x7x7x1 : (⟨S_, .f32⟩ : BufTy).Contents (Elt F) → (⟨S16384x7x7x1, .f32⟩ : BufTy).Contents (Elt F)),
    binary main_v165 main_v130 main_v166 (subf : (⟨S16384x7x7x1, .f32⟩ : BufTy).Contents (Elt F) → (⟨S16384x7x7x1, .f32⟩ : BufTy).Contents (Elt F) → (⟨S16384x7x7x1, .f32⟩ : BufTy).Contents (Elt F)),
    unary main_v0 main_v167 ((extractStridedSlice S16384x7x7x1 ![0, 0, 0, 20] · slices_S16384x7x7x30_S16384x7x7x1_0_0_0_20) : (⟨S16384x7x7x30, .f32⟩ : BufTy).Contents (Elt F) → (⟨S16384x7x7x1, .f32⟩ : BufTy).Contents (Elt F)),
    binary main_v166 main_v167 main_v168 (mulf : (⟨S16384x7x7x1, .f32⟩ : BufTy).Contents (Elt F) → (⟨S16384x7x7x1, .f32⟩ : BufTy).Contents (Elt F) → (⟨S16384x7x7x1, .f32⟩ : BufTy).Contents (Elt F)),
    binary main_v164 main_v168 main_v169 (addf : (⟨S16384x7x7x1, .f32⟩ : BufTy).Contents (Elt F) → (⟨S16384x7x7x1, .f32⟩ : BufTy).Contents (Elt F) → (⟨S16384x7x7x1, .f32⟩ : BufTy).Contents (Elt F)),
    binary main_v131 main_v169 main_v170 (mulf : (⟨S16384x7x7x1, .f32⟩ : BufTy).Contents (Elt F) → (⟨S16384x7x7x1, .f32⟩ : BufTy).Contents (Elt F) → (⟨S16384x7x7x1, .f32⟩ : BufTy).Contents (Elt F)),
    unary main_arg1 main_v171 ((extractStridedSlice S16384x7x7x1 ![0, 0, 0, 20] · slices_S16384x7x7x30_S16384x7x7x1_0_0_0_20) : (⟨S16384x7x7x30, .f32⟩ : BufTy).Contents (Elt F) → (⟨S16384x7x7x1, .f32⟩ : BufTy).Contents (Elt F)),
    binary main_v131 main_v171 main_v172 (mulf : (⟨S16384x7x7x1, .f32⟩ : BufTy).Contents (Elt F) → (⟨S16384x7x7x1, .f32⟩ : BufTy).Contents (Elt F) → (⟨S16384x7x7x1, .f32⟩ : BufTy).Contents (Elt F)),
    binary main_v170 main_v172 main_v173 (subf : (⟨S16384x7x7x1, .f32⟩ : BufTy).Contents (Elt F) → (⟨S16384x7x7x1, .f32⟩ : BufTy).Contents (Elt F) → (⟨S16384x7x7x1, .f32⟩ : BufTy).Contents (Elt F)),
    binary main_v173 main_v173 main_v174 (mulf : (⟨S16384x7x7x1, .f32⟩ : BufTy).Contents (Elt F) → (⟨S16384x7x7x1, .f32⟩ : BufTy).Contents (Elt F) → (⟨S16384x7x7x1, .f32⟩ : BufTy).Contents (Elt F)),
    nullary main_cst_25 (constant S_ .f32 0x00000000#32),
    binary main_v174 main_cst_25 main_v175 ((fun x v => Host.reduceAdd x v reducesTo_S16384x7x7x1_S_d0_1_2_3 h_S_) : (⟨S16384x7x7x1, .f32⟩ : BufTy).Contents (Elt F) → (⟨S_, .f32⟩ : BufTy).Contents (Elt F) → (⟨S_, .f32⟩ : BufTy).Contents (Elt F)),
    nullary main_cst_26 (constant S_ .f32 0x3F800000#32),
    unary main_cst_26 main_v176 (broadcastInDim S16384x7x7x1 ![] bcast_S_S16384x7x7x1 : (⟨S_, .f32⟩ : BufTy).Contents (Elt F) → (⟨S16384x7x7x1, .f32⟩ : BufTy).Contents (Elt F)),
    binary main_v176 main_v131 main_v177 (subf : (⟨S16384x7x7x1, .f32⟩ : BufTy).Contents (Elt F) → (⟨S16384x7x7x1, .f32⟩ : BufTy).Contents (Elt F) → (⟨S16384x7x7x1, .f32⟩ : BufTy).Contents (Elt F)),
    unary main_v0 main_v178 ((extractStridedSlice S16384x7x7x1 ![0, 0, 0, 20] · slices_S16384x7x7x30_S16384x7x7x1_0_0_0_20) : (⟨S16384x7x7x30, .f32⟩ : BufTy).Contents (Elt F) → (⟨S16384x7x7x1, .f32⟩ : BufTy).Contents (Elt F)),
    binary main_v177 main_v178 main_v179 (mulf : (⟨S16384x7x7x1, .f32⟩ : BufTy).Contents (Elt F) → (⟨S16384x7x7x1, .f32⟩ : BufTy).Contents (Elt F) → (⟨S16384x7x7x1, .f32⟩ : BufTy).Contents (Elt F)),
    nullary main_cst_27 (constant S_ .f32 0x3F800000#32),
    unary main_cst_27 main_v180 (broadcastInDim S16384x7x7x1 ![] bcast_S_S16384x7x7x1 : (⟨S_, .f32⟩ : BufTy).Contents (Elt F) → (⟨S16384x7x7x1, .f32⟩ : BufTy).Contents (Elt F)),
    binary main_v180 main_v131 main_v181 (subf : (⟨S16384x7x7x1, .f32⟩ : BufTy).Contents (Elt F) → (⟨S16384x7x7x1, .f32⟩ : BufTy).Contents (Elt F) → (⟨S16384x7x7x1, .f32⟩ : BufTy).Contents (Elt F)),
    unary main_arg1 main_v182 ((extractStridedSlice S16384x7x7x1 ![0, 0, 0, 20] · slices_S16384x7x7x30_S16384x7x7x1_0_0_0_20) : (⟨S16384x7x7x30, .f32⟩ : BufTy).Contents (Elt F) → (⟨S16384x7x7x1, .f32⟩ : BufTy).Contents (Elt F)),
    binary main_v181 main_v182 main_v183 (mulf : (⟨S16384x7x7x1, .f32⟩ : BufTy).Contents (Elt F) → (⟨S16384x7x7x1, .f32⟩ : BufTy).Contents (Elt F) → (⟨S16384x7x7x1, .f32⟩ : BufTy).Contents (Elt F)),
    binary main_v179 main_v183 main_v184 (subf : (⟨S16384x7x7x1, .f32⟩ : BufTy).Contents (Elt F) → (⟨S16384x7x7x1, .f32⟩ : BufTy).Contents (Elt F) → (⟨S16384x7x7x1, .f32⟩ : BufTy).Contents (Elt F)),
    binary main_v184 main_v184 main_v185 (mulf : (⟨S16384x7x7x1, .f32⟩ : BufTy).Contents (Elt F) → (⟨S16384x7x7x1, .f32⟩ : BufTy).Contents (Elt F) → (⟨S16384x7x7x1, .f32⟩ : BufTy).Contents (Elt F)),
    nullary main_cst_28 (constant S_ .f32 0x00000000#32),
    binary main_v185 main_cst_28 main_v186 ((fun x v => Host.reduceAdd x v reducesTo_S16384x7x7x1_S_d0_1_2_3 h_S_) : (⟨S16384x7x7x1, .f32⟩ : BufTy).Contents (Elt F) → (⟨S_, .f32⟩ : BufTy).Contents (Elt F) → (⟨S_, .f32⟩ : BufTy).Contents (Elt F)),
    nullary main_cst_29 (constant S_ .f32 0x3F800000#32),
    unary main_cst_29 main_v187 (broadcastInDim S16384x7x7x1 ![] bcast_S_S16384x7x7x1 : (⟨S_, .f32⟩ : BufTy).Contents (Elt F) → (⟨S16384x7x7x1, .f32⟩ : BufTy).Contents (Elt F)),
    binary main_v187 main_v131 main_v188 (subf : (⟨S16384x7x7x1, .f32⟩ : BufTy).Contents (Elt F) → (⟨S16384x7x7x1, .f32⟩ : BufTy).Contents (Elt F) → (⟨S16384x7x7x1, .f32⟩ : BufTy).Contents (Elt F)),
    unary main_v0 main_v189 ((extractStridedSlice S16384x7x7x1 ![0, 0, 0, 25] · slices_S16384x7x7x30_S16384x7x7x1_0_0_0_25) : (⟨S16384x7x7x30, .f32⟩ : BufTy).Contents (Elt F) → (⟨S16384x7x7x1, .f32⟩ : BufTy).Contents (Elt F)),
    binary main_v188 main_v189 main_v190 (mulf : (⟨S16384x7x7x1, .f32⟩ : BufTy).Contents (Elt F) → (⟨S16384x7x7x1, .f32⟩ : BufTy).Contents (Elt F) → (⟨S16384x7x7x1, .f32⟩ : BufTy).Contents (Elt F)),
    nullary main_cst_30 (constant S_ .f32 0x3F800000#32),
    unary main_cst_30 main_v191 (broadcastInDim S16384x7x7x1 ![] bcast_S_S16384x7x7x1 : (⟨S_, .f32⟩ : BufTy).Contents (Elt F) → (⟨S16384x7x7x1, .f32⟩ : BufTy).Contents (Elt F)),
    binary main_v191 main_v131 main_v192 (subf : (⟨S16384x7x7x1, .f32⟩ : BufTy).Contents (Elt F) → (⟨S16384x7x7x1, .f32⟩ : BufTy).Contents (Elt F) → (⟨S16384x7x7x1, .f32⟩ : BufTy).Contents (Elt F)),
    unary main_arg1 main_v193 ((extractStridedSlice S16384x7x7x1 ![0, 0, 0, 20] · slices_S16384x7x7x30_S16384x7x7x1_0_0_0_20) : (⟨S16384x7x7x30, .f32⟩ : BufTy).Contents (Elt F) → (⟨S16384x7x7x1, .f32⟩ : BufTy).Contents (Elt F)),
    binary main_v192 main_v193 main_v194 (mulf : (⟨S16384x7x7x1, .f32⟩ : BufTy).Contents (Elt F) → (⟨S16384x7x7x1, .f32⟩ : BufTy).Contents (Elt F) → (⟨S16384x7x7x1, .f32⟩ : BufTy).Contents (Elt F)),
    binary main_v190 main_v194 main_v195 (subf : (⟨S16384x7x7x1, .f32⟩ : BufTy).Contents (Elt F) → (⟨S16384x7x7x1, .f32⟩ : BufTy).Contents (Elt F) → (⟨S16384x7x7x1, .f32⟩ : BufTy).Contents (Elt F)),
    binary main_v195 main_v195 main_v196 (mulf : (⟨S16384x7x7x1, .f32⟩ : BufTy).Contents (Elt F) → (⟨S16384x7x7x1, .f32⟩ : BufTy).Contents (Elt F) → (⟨S16384x7x7x1, .f32⟩ : BufTy).Contents (Elt F)),
    nullary main_cst_31 (constant S_ .f32 0x00000000#32),
    binary main_v196 main_cst_31 main_v197 ((fun x v => Host.reduceAdd x v reducesTo_S16384x7x7x1_S_d0_1_2_3 h_S_) : (⟨S16384x7x7x1, .f32⟩ : BufTy).Contents (Elt F) → (⟨S_, .f32⟩ : BufTy).Contents (Elt F) → (⟨S_, .f32⟩ : BufTy).Contents (Elt F)),
    binary main_v186 main_v197 main_v198 (addf : (⟨S_, .f32⟩ : BufTy).Contents (Elt F) → (⟨S_, .f32⟩ : BufTy).Contents (Elt F) → (⟨S_, .f32⟩ : BufTy).Contents (Elt F)),
    unary main_v0 main_v199 ((extractStridedSlice S16384x7x7x20 ![0, 0, 0, 0] · slices_S16384x7x7x30_S16384x7x7x20_0_0_0_0) : (⟨S16384x7x7x30, .f32⟩ : BufTy).Contents (Elt F) → (⟨S16384x7x7x20, .f32⟩ : BufTy).Contents (Elt F)),
    unary main_v131 main_v200 (broadcastInDim S16384x7x7x20 ![0, 1, 2, 3] bcast_S16384x7x7x1_S16384x7x7x20_0_1_2_3 : (⟨S16384x7x7x1, .f32⟩ : BufTy).Contents (Elt F) → (⟨S16384x7x7x20, .f32⟩ : BufTy).Contents (Elt F)),
    binary main_v200 main_v199 main_v201 (mulf : (⟨S16384x7x7x20, .f32⟩ : BufTy).Contents (Elt F) → (⟨S16384x7x7x20, .f32⟩ : BufTy).Contents (Elt F) → (⟨S16384x7x7x20, .f32⟩ : BufTy).Contents (Elt F)),
    unary main_arg1 main_v202 ((extractStridedSlice S16384x7x7x20 ![0, 0, 0, 0] · slices_S16384x7x7x30_S16384x7x7x20_0_0_0_0) : (⟨S16384x7x7x30, .f32⟩ : BufTy).Contents (Elt F) → (⟨S16384x7x7x20, .f32⟩ : BufTy).Contents (Elt F)),
    unary main_v131 main_v203 (broadcastInDim S16384x7x7x20 ![0, 1, 2, 3] bcast_S16384x7x7x1_S16384x7x7x20_0_1_2_3 : (⟨S16384x7x7x1, .f32⟩ : BufTy).Contents (Elt F) → (⟨S16384x7x7x20, .f32⟩ : BufTy).Contents (Elt F)),
    binary main_v203 main_v202 main_v204 (mulf : (⟨S16384x7x7x20, .f32⟩ : BufTy).Contents (Elt F) → (⟨S16384x7x7x20, .f32⟩ : BufTy).Contents (Elt F) → (⟨S16384x7x7x20, .f32⟩ : BufTy).Contents (Elt F)),
    binary main_v201 main_v204 main_v205 (subf : (⟨S16384x7x7x20, .f32⟩ : BufTy).Contents (Elt F) → (⟨S16384x7x7x20, .f32⟩ : BufTy).Contents (Elt F) → (⟨S16384x7x7x20, .f32⟩ : BufTy).Contents (Elt F)),
    binary main_v205 main_v205 main_v206 (mulf : (⟨S16384x7x7x20, .f32⟩ : BufTy).Contents (Elt F) → (⟨S16384x7x7x20, .f32⟩ : BufTy).Contents (Elt F) → (⟨S16384x7x7x20, .f32⟩ : BufTy).Contents (Elt F)) ]

set_option maxRecDepth 8192 in
theorem ops7_sub : (ops7 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., binary_bufs_sub .., nullary_bufs_sub .., binary_bufs_sub .., binary_bufs_sub .., unary_bufs_sub .., unary_bufs_sub .., binary_bufs_sub .., unary_bufs_sub .., unary_bufs_sub .., binary_bufs_sub .., binary_bufs_sub .., binary_bufs_sub ..⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem keep7_v162 (V : Valuation τ sig (Elt F)) : after ops7 V (Proc.devRef .tc main_v162) = V (Proc.devRef .tc main_v162) := by
  simp only [ops7]
  after_results_simp

theorem keep7_arg0 (V : Valuation τ sig (Elt F)) : after ops7 V (Proc.devRef .tc main_arg0) = V (Proc.devRef .tc main_arg0) := by
  simp only [ops7]
  after_results_simp

theorem keep7_arg1 (V : Valuation τ sig (Elt F)) : after ops7 V (Proc.devRef .tc main_arg1) = V (Proc.devRef .tc main_arg1) := by
  simp only [ops7]
  after_results_simp

set_option maxHeartbeats 2000000 in
theorem k7_v175 (V : Valuation τ sig (Elt F)) (P T : FVec F S16384x7x7x30 .f32)
    (hP : V (Proc.devRef .tc main_v0) = P) (hT : V (Proc.devRef .tc main_arg1) = T)
    (h130 : V (Proc.devRef .tc main_v130) = bestV P T) (h131 : V (Proc.devRef .tc main_v131) = existsV T) :
    after ops7 V (Proc.devRef .tc main_v175)
      = Host.reduceAdd (objSqV P T) (constant S_ .f32 0x00000000#32) reducesTo_S16384x7x7x1_S_d0_1_2_3 h_S_ := by
  simp only [ops7]
  after_results_simp
  simp only [hP, hT, h130, h131]
  rfl

set_option maxHeartbeats 2000000 in
theorem k7_v198 (V : Valuation τ sig (Elt F)) (P T : FVec F S16384x7x7x30 .f32)
    (hP : V (Proc.devRef .tc main_v0) = P) (hT : V (Proc.devRef .tc main_arg1) = T)
    (h130 : V (Proc.devRef .tc main_v130) = bestV P T) (h131 : V (Proc.devRef .tc main_v131) = existsV T) :
    after ops7 V (Proc.devRef .tc main_v198)
      = addf (Host.reduceAdd (noObjSqA P T) (constant S_ .f32 0x00000000#32) reducesTo_S16384x7x7x1_S_d0_1_2_3 h_S_)
        (Host.reduceAdd (noObjSqB P T) (constant S_ .f32 0x00000000#32) reducesTo_S16384x7x7x1_S_d0_1_2_3 h_S_) := by
  simp only [ops7]
  after_results_simp
  simp only [hP, hT, h130, h131]
  rfl

set_option maxHeartbeats 2000000 in
theorem k7_v206 (V : Valuation τ sig (Elt F)) (P T : FVec F S16384x7x7x30 .f32)
    (hP : V (Proc.devRef .tc main_v0) = P) (hT : V (Proc.devRef .tc main_arg1) = T)
    (h130 : V (Proc.devRef .tc main_v130) = bestV P T) (h131 : V (Proc.devRef .tc main_v131) = existsV T) :
    after ops7 V (Proc.devRef .tc main_v206)
      = clsSqV P T := by
  simp only [ops7]
  after_results_simp
  simp only [hP, hT, h130, h131]
  rfl

/-! ### Chunk 8: the class sum and the weighted total -/

set_option maxRecDepth 8192 in
set_option maxHeartbeats 4000000 in
/-- Operations 248 to 256 of @main, in order (a called function's operations stand in its call's place). -/
abbrev ops8 : List (HloOp τ sig (Elt F)) :=
  [
    nullary main_cst_32 (constant S_ .f32 0x00000000#32),
    binary main_v206 main_cst_32 main_v207 ((fun x v => Host.reduceAdd x v reducesTo_S16384x7x7x20_S_d0_1_2_3 h_S_) : (⟨S16384x7x7x20, .f32⟩ : BufTy).Contents (Elt F) → (⟨S_, .f32⟩ : BufTy).Contents (Elt F) → (⟨S_, .f32⟩ : BufTy).Contents (Elt F)),
    nullary main_cst_33 (constant S_ .f32 0x40A00000#32),
    binary main_cst_33 main_v162 main_v208 (mulf : (⟨S_, .f32⟩ : BufTy).Contents (Elt F) → (⟨S_, .f32⟩ : BufTy).Contents (Elt F) → (⟨S_, .f32⟩ : BufTy).Contents (Elt F)),
    binary main_v208 main_v175 main_v209 (addf : (⟨S_, .f32⟩ : BufTy).Contents (Elt F) → (⟨S_, .f32⟩ : BufTy).Contents (Elt F) → (⟨S_, .f32⟩ : BufTy).Contents (Elt F)),
    nullary main_cst_34 (constant S_ .f32 0x3F000000#32),
    binary main_cst_34 main_v198 main_v210 (mulf : (⟨S_, .f32⟩ : BufTy).Contents (Elt F) → (⟨S_, .f32⟩ : BufTy).Contents (Elt F) → (⟨S_, .f32⟩ : BufTy).Contents (Elt F)),
    binary main_v209 main_v210 main_v211 (addf : (⟨S_, .f32⟩ : BufTy).Contents (Elt F) → (⟨S_, .f32⟩ : BufTy).Contents (Elt F) → (⟨S_, .f32⟩ : BufTy).Contents (Elt F)),
    binary main_v211 main_v207 main_v212 (addf : (⟨S_, .f32⟩ : BufTy).Contents (Elt F) → (⟨S_, .f32⟩ : BufTy).Contents (Elt F) → (⟨S_, .f32⟩ : BufTy).Contents (Elt F)) ]

set_option maxRecDepth 8192 in
theorem ops8_sub : (ops8 : List (HloOp τ sig (Elt F))).Forall fun op => op.bufs ⊆ tcRefs τ sig :=
  ⟨nullary_bufs_sub .., binary_bufs_sub .., nullary_bufs_sub .., binary_bufs_sub .., binary_bufs_sub .., nullary_bufs_sub .., binary_bufs_sub .., binary_bufs_sub .., binary_bufs_sub ..⟩

set_option maxRecDepth 8192 in
theorem ops8_fresh : (ops8 : List (HloOp τ sig (Elt F))).Forall fun op => op.fresh = ∅ :=
  ⟨rfl, rfl, rfl, rfl, rfl, rfl, rfl, rfl, rfl⟩

theorem keep8_arg0 (V : Valuation τ sig (Elt F)) : after ops8 V (Proc.devRef .tc main_arg0) = V (Proc.devRef .tc main_arg0) := by
  simp only [ops8]
  after_results_simp

theorem keep8_arg1 (V : Valuation τ sig (Elt F)) : after ops8 V (Proc.devRef .tc main_arg1) = V (Proc.devRef .tc main_arg1) := by
  simp only [ops8]
  after_results_simp

set_option maxHeartbeats 2000000 in
/-- The weighted total of the five sums. -/
theorem k8_v212 (V : Valuation τ sig (Elt F)) (P T : FVec F S16384x7x7x30 .f32)
    (h162 : V (Proc.devRef .tc main_v162) = Host.reduceAdd (boxSqV P T) (constant S_ .f32 0x00000000#32) reducesTo_S16384x7x7x4_S_d0_1_2_3 h_S_)
    (h175 : V (Proc.devRef .tc main_v175) = Host.reduceAdd (objSqV P T) (constant S_ .f32 0x00000000#32) reducesTo_S16384x7x7x1_S_d0_1_2_3 h_S_)
    (h198 : V (Proc.devRef .tc main_v198) = addf (Host.reduceAdd (noObjSqA P T) (constant S_ .f32 0x00000000#32) reducesTo_S16384x7x7x1_S_d0_1_2_3 h_S_)
        (Host.reduceAdd (noObjSqB P T) (constant S_ .f32 0x00000000#32) reducesTo_S16384x7x7x1_S_d0_1_2_3 h_S_))
    (h206 : V (Proc.devRef .tc main_v206) = clsSqV P T) :
    after ops8 V (Proc.devRef .tc main_v212) = total P T := by
  simp only [ops8]
  after_results_simp
  simp only [h162, h175, h198, h206]
  rfl

/-! ## The chunks joined

`val k` is the device's contents after the first `k` chunks from contents `V0`; `P0 V0` and `T0 V0` are the
reshaped predictions and the targets in `V0`. Each lemma below reads one buffer of `val k` as a stage function of
those two, from the chunk's own lemma and the lemmas of `val (k-1)`. -/

section Joined

variable (V0 : Valuation τ sig (Elt F))

/-- The predictions of `V0`, reshaped. -/
def P0 : FVec F S16384x7x7x30 .f32 := reshaped (V0 (Proc.devRef .tc main_arg0))
/-- The targets of `V0`. -/
def T0 : FVec F S16384x7x7x30 .f32 := V0 (Proc.devRef .tc main_arg1)

def val1 : Valuation τ sig (Elt F) := after ops0 V0
def val2 : Valuation τ sig (Elt F) := after ops1 (val1 V0)
def val3 : Valuation τ sig (Elt F) := after ops2 (val2 V0)
def val4 : Valuation τ sig (Elt F) := after ops3 (val3 V0)
def val5 : Valuation τ sig (Elt F) := after ops4 (val4 V0)
def val6 : Valuation τ sig (Elt F) := after ops5 (val5 V0)
def val7 : Valuation τ sig (Elt F) := after ops6 (val6 V0)
def val8 : Valuation τ sig (Elt F) := after ops7 (val7 V0)
def val9 : Valuation τ sig (Elt F) := after ops8 (val8 V0)

/-! ### After chunk 0 -/
theorem val1_arg0 : val1 V0 (Proc.devRef .tc main_arg0) = V0 (Proc.devRef .tc main_arg0) := keep0_arg0 V0
theorem val1_arg1 : val1 V0 (Proc.devRef .tc main_arg1) = V0 (Proc.devRef .tc main_arg1) := keep0_arg1 V0
theorem val1_v0 : val1 V0 (Proc.devRef .tc main_v0) = P0 V0 :=
  k0_v0 V0 (P0 V0) (T0 V0) rfl rfl
theorem val1_v7 : val1 V0 (Proc.devRef .tc main_v7) = lo (c0 (box21 (P0 V0))) (c2 (box21 (P0 V0))) :=
  k0_v7 V0 (P0 V0) (T0 V0) rfl rfl
theorem val1_v12 : val1 V0 (Proc.devRef .tc main_v12) = lo (c1 (box21 (P0 V0))) (c3 (box21 (P0 V0))) :=
  k0_v12 V0 (P0 V0) (T0 V0) rfl rfl
theorem val1_v17 : val1 V0 (Proc.devRef .tc main_v17) = hi (c0 (box21 (P0 V0))) (c2 (box21 (P0 V0))) :=
  k0_v17 V0 (P0 V0) (T0 V0) rfl rfl
theorem val1_v22 : val1 V0 (Proc.devRef .tc main_v22) = hi (c1 (box21 (P0 V0))) (c3 (box21 (P0 V0))) :=
  k0_v22 V0 (P0 V0) (T0 V0) rfl rfl
theorem val1_v27 : val1 V0 (Proc.devRef .tc main_v27) = lo (c0 (box21 (T0 V0))) (c2 (box21 (T0 V0))) :=
  k0_v27 V0 (P0 V0) (T0 V0) rfl rfl
theorem val1_v32 : val1 V0 (Proc.devRef .tc main_v32) = lo (c1 (box21 (T0 V0))) (c3 (box21 (T0 V0))) :=
  k0_v32 V0 (P0 V0) (T0 V0) rfl rfl
theorem val1_v37 : val1 V0 (Proc.devRef .tc main_v37) = hi (c0 (box21 (T0 V0))) (c2 (box21 (T0 V0))) :=
  k0_v37 V0 (P0 V0) (T0 V0) rfl rfl
theorem val1_v42 : val1 V0 (Proc.devRef .tc main_v42) = hi (c1 (box21 (T0 V0))) (c3 (box21 (T0 V0))) :=
  k0_v42 V0 (P0 V0) (T0 V0) rfl rfl
theorem val1_v48 : val1 V0 (Proc.devRef .tc main_v48) = clip0 (subf (minimumf (hi (c0 (box21 (P0 V0))) (c2 (box21 (P0 V0)))) (hi (c0 (box21 (T0 V0))) (c2 (box21 (T0 V0))))) (maximumf (lo (c0 (box21 (P0 V0))) (c2 (box21 (P0 V0)))) (lo (c0 (box21 (T0 V0))) (c2 (box21 (T0 V0)))))) :=
  k0_v48 V0 (P0 V0) (T0 V0) rfl rfl
theorem val1_v49 : val1 V0 (Proc.devRef .tc main_v49) = subf (minimumf (hi (c1 (box21 (P0 V0))) (c3 (box21 (P0 V0)))) (hi (c1 (box21 (T0 V0))) (c3 (box21 (T0 V0))))) (maximumf (lo (c1 (box21 (P0 V0))) (c3 (box21 (P0 V0)))) (lo (c1 (box21 (T0 V0))) (c3 (box21 (T0 V0))))) :=
  k0_v49 V0 (P0 V0) (T0 V0) rfl rfl
theorem val1_cst_8 : val1 V0 (Proc.devRef .tc main_cst_8) = constant S_ .f32 0x00000000#32 :=
  k0_cst_8 V0

/-! ### After chunk 1: the first overlap ratio -/
theorem val2_arg0 : val2 V0 (Proc.devRef .tc main_arg0) = V0 (Proc.devRef .tc main_arg0) := (keep1_arg0 _).trans (val1_arg0 V0)
theorem val2_arg1 : val2 V0 (Proc.devRef .tc main_arg1) = V0 (Proc.devRef .tc main_arg1) := (keep1_arg1 _).trans (val1_arg1 V0)
theorem val2_v0 : val2 V0 (Proc.devRef .tc main_v0) = P0 V0 := (keep1_v0 _).trans (val1_v0 V0)
theorem val2_v64 : val2 V0 (Proc.devRef .tc main_v64) = iou1V (P0 V0) (T0 V0) :=
  k1_v64 (val1 V0) (box21 (P0 V0)) (box21 (T0 V0)) (val1_v7 V0) (val1_v12 V0) (val1_v17 V0) (val1_v22 V0)
    (val1_v27 V0) (val1_v32 V0) (val1_v37 V0) (val1_v42 V0) (val1_v48 V0) (val1_v49 V0) (val1_cst_8 V0)

/-! ### After chunk 2: the corners of the second box and of the target box -/
theorem val3_arg0 : val3 V0 (Proc.devRef .tc main_arg0) = V0 (Proc.devRef .tc main_arg0) := (keep2_arg0 _).trans (val2_arg0 V0)
theorem val3_arg1 : val3 V0 (Proc.devRef .tc main_arg1) = V0 (Proc.devRef .tc main_arg1) := (keep2_arg1 _).trans (val2_arg1 V0)
theorem val3_v0 : val3 V0 (Proc.devRef .tc main_v0) = P0 V0 := (keep2_v0 _).trans (val2_v0 V0)
theorem val3_v64 : val3 V0 (Proc.devRef .tc main_v64) = iou1V (P0 V0) (T0 V0) := (keep2_v64 _).trans (val2_v64 V0)
theorem val3_v66 : val3 V0 (Proc.devRef .tc main_v66) = box21 (T0 V0) :=
  k2_v66 (val2 V0) (P0 V0) (T0 V0) (val2_v0 V0) (val2_arg1 V0)
theorem val3_v71 : val3 V0 (Proc.devRef .tc main_v71) = lo (c0 (box26 (P0 V0))) (c2 (box26 (P0 V0))) :=
  k2_v71 (val2 V0) (P0 V0) (T0 V0) (val2_v0 V0) (val2_arg1 V0)
theorem val3_v76 : val3 V0 (Proc.devRef .tc main_v76) = lo (c1 (box26 (P0 V0))) (c3 (box26 (P0 V0))) :=
  k2_v76 (val2 V0) (P0 V0) (T0 V0) (val2_v0 V0) (val2_arg1 V0)
theorem val3_v81 : val3 V0 (Proc.devRef .tc main_v81) = hi (c0 (box26 (P0 V0))) (c2 (box26 (P0 V0))) :=
  k2_v81 (val2 V0) (P0 V0) (T0 V0) (val2_v0 V0) (val2_arg1 V0)
theorem val3_v86 : val3 V0 (Proc.devRef .tc main_v86) = hi (c1 (box26 (P0 V0))) (c3 (box26 (P0 V0))) :=
  k2_v86 (val2 V0) (P0 V0) (T0 V0) (val2_v0 V0) (val2_arg1 V0)
theorem val3_v91 : val3 V0 (Proc.devRef .tc main_v91) = lo (c0 (box21 (T0 V0))) (c2 (box21 (T0 V0))) :=
  k2_v91 (val2 V0) (P0 V0) (T0 V0) (val2_v0 V0) (val2_arg1 V0)
theorem val3_v96 : val3 V0 (Proc.devRef .tc main_v96) = lo (c1 (box21 (T0 V0))) (c3 (box21 (T0 V0))) :=
  k2_v96 (val2 V0) (P0 V0) (T0 V0) (val2_v0 V0) (val2_arg1 V0)
theorem val3_v101 : val3 V0 (Proc.devRef .tc main_v101) = hi (c0 (box21 (T0 V0))) (c2 (box21 (T0 V0))) :=
  k2_v101 (val2 V0) (P0 V0) (T0 V0) (val2_v0 V0) (val2_arg1 V0)

/-! ### After chunk 3: the second overlap ratio -/
theorem val4_arg0 : val4 V0 (Proc.devRef .tc main_arg0) = V0 (Proc.devRef .tc main_arg0) := (keep3_arg0 _).trans (val3_arg0 V0)
theorem val4_arg1 : val4 V0 (Proc.devRef .tc main_arg1) = V0 (Proc.devRef .tc main_arg1) := (keep3_arg1 _).trans (val3_arg1 V0)
theorem val4_v0 : val4 V0 (Proc.devRef .tc main_v0) = P0 V0 := (keep3_v0 _).trans (val3_v0 V0)
theorem val4_v64 : val4 V0 (Proc.devRef .tc main_v64) = iou1V (P0 V0) (T0 V0) := (keep3_v64 _).trans (val3_v64 V0)
theorem val4_v128 : val4 V0 (Proc.devRef .tc main_v128) = iou2V (P0 V0) (T0 V0) :=
  k3_v128 (val3 V0) (box26 (P0 V0)) (box21 (T0 V0)) (val3_v66 V0) (val3_v71 V0) (val3_v76 V0) (val3_v81 V0) (val3_v86 V0)
    (val3_v91 V0) (val3_v96 V0) (val3_v101 V0)

/-! ### After chunk 4: the better box, the object indicator, the masked boxes -/
theorem val5_arg0 : val5 V0 (Proc.devRef .tc main_arg0) = V0 (Proc.devRef .tc main_arg0) := (keep4_arg0 _).trans (val4_arg0 V0)
theorem val5_arg1 : val5 V0 (Proc.devRef .tc main_arg1) = V0 (Proc.devRef .tc main_arg1) := (keep4_arg1 _).trans (val4_arg1 V0)
theorem val5_v0 : val5 V0 (Proc.devRef .tc main_v0) = P0 V0 := (keep4_v0 _).trans (val4_v0 V0)
theorem val5_v130 : val5 V0 (Proc.devRef .tc main_v130) = bestV (P0 V0) (T0 V0) :=
  k4_v130 (val4 V0) (P0 V0) (T0 V0) (val4_v0 V0) (val4_arg1 V0) (val4_v64 V0) (val4_v128 V0)
theorem val5_v131 : val5 V0 (Proc.devRef .tc main_v131) = existsV (T0 V0) :=
  k4_v131 (val4 V0) (P0 V0) (T0 V0) (val4_v0 V0) (val4_arg1 V0) (val4_v64 V0) (val4_v128 V0)
theorem val5_v142 : val5 V0 (Proc.devRef .tc main_v142) = boxPredV (P0 V0) (T0 V0) :=
  k4_v142 (val4 V0) (P0 V0) (T0 V0) (val4_v0 V0) (val4_arg1 V0) (val4_v64 V0) (val4_v128 V0)
theorem val5_v145 : val5 V0 (Proc.devRef .tc main_v145) = boxTgtV (T0 V0) :=
  k4_v145 (val4 V0) (P0 V0) (T0 V0) (val4_v0 V0) (val4_arg1 V0) (val4_v64 V0) (val4_v128 V0)

/-! ### After chunk 5: the predicted box with rooted extents -/
theorem val6_arg0 : val6 V0 (Proc.devRef .tc main_arg0) = V0 (Proc.devRef .tc main_arg0) := (keep5_arg0 _).trans (val5_arg0 V0)
theorem val6_arg1 : val6 V0 (Proc.devRef .tc main_arg1) = V0 (Proc.devRef .tc main_arg1) := (keep5_arg1 _).trans (val5_arg1 V0)
theorem val6_v0 : val6 V0 (Proc.devRef .tc main_v0) = P0 V0 := (keep5_v0 _).trans (val5_v0 V0)
theorem val6_v130 : val6 V0 (Proc.devRef .tc main_v130) = bestV (P0 V0) (T0 V0) := (keep5_v130 _).trans (val5_v130 V0)
theorem val6_v131 : val6 V0 (Proc.devRef .tc main_v131) = existsV (T0 V0) := (keep5_v131 _).trans (val5_v131 V0)
theorem val6_v145 : val6 V0 (Proc.devRef .tc main_v145) = boxTgtV (T0 V0) := (keep5_v145 _).trans (val5_v145 V0)
theorem val6_v155 : val6 V0 (Proc.devRef .tc main_v155) = join2 (lo2 (boxPredV (P0 V0) (T0 V0))) (mulf (Host.sign (hi2 (boxPredV (P0 V0) (T0 V0)))) (Host.sqrt (Host.absf (addf (hi2 (boxPredV (P0 V0) (T0 V0))) (broadcastInDim S16384x7x7x2 ![] bcast_S_S16384x7x7x2 (constant S_ .f32 0x358637BD#32)))))) :=
  k5_v155 (val5 V0) _ (val5_v142 V0)

/-! ### After chunk 6: the box sum -/
theorem val7_arg0 : val7 V0 (Proc.devRef .tc main_arg0) = V0 (Proc.devRef .tc main_arg0) := (keep6_arg0 _).trans (val6_arg0 V0)
theorem val7_arg1 : val7 V0 (Proc.devRef .tc main_arg1) = V0 (Proc.devRef .tc main_arg1) := (keep6_arg1 _).trans (val6_arg1 V0)
theorem val7_v0 : val7 V0 (Proc.devRef .tc main_v0) = P0 V0 := (keep6_v0 _).trans (val6_v0 V0)
theorem val7_v130 : val7 V0 (Proc.devRef .tc main_v130) = bestV (P0 V0) (T0 V0) := (keep6_v130 _).trans (val6_v130 V0)
theorem val7_v131 : val7 V0 (Proc.devRef .tc main_v131) = existsV (T0 V0) := (keep6_v131 _).trans (val6_v131 V0)
theorem val7_v162 : val7 V0 (Proc.devRef .tc main_v162) = Host.reduceAdd (boxSqV (P0 V0) (T0 V0)) (constant S_ .f32 0x00000000#32) reducesTo_S16384x7x7x4_S_d0_1_2_3 h_S_ :=
  k6_v162 (val6 V0) _ _ (val6_v145 V0) (val6_v155 V0)

/-! ### After chunk 7: the object sum, the no-object sums, the squared class differences -/
theorem val8_arg0 : val8 V0 (Proc.devRef .tc main_arg0) = V0 (Proc.devRef .tc main_arg0) := (keep7_arg0 _).trans (val7_arg0 V0)
theorem val8_arg1 : val8 V0 (Proc.devRef .tc main_arg1) = V0 (Proc.devRef .tc main_arg1) := (keep7_arg1 _).trans (val7_arg1 V0)
theorem val8_v162 : val8 V0 (Proc.devRef .tc main_v162) = Host.reduceAdd (boxSqV (P0 V0) (T0 V0)) (constant S_ .f32 0x00000000#32) reducesTo_S16384x7x7x4_S_d0_1_2_3 h_S_ :=
  (keep7_v162 _).trans (val7_v162 V0)
theorem val8_v175 : val8 V0 (Proc.devRef .tc main_v175) = Host.reduceAdd (objSqV (P0 V0) (T0 V0)) (constant S_ .f32 0x00000000#32) reducesTo_S16384x7x7x1_S_d0_1_2_3 h_S_ :=
  k7_v175 (val7 V0) (P0 V0) (T0 V0) (val7_v0 V0) (val7_arg1 V0) (val7_v130 V0) (val7_v131 V0)
theorem val8_v198 : val8 V0 (Proc.devRef .tc main_v198)
    = addf (Host.reduceAdd (noObjSqA (P0 V0) (T0 V0)) (constant S_ .f32 0x00000000#32) reducesTo_S16384x7x7x1_S_d0_1_2_3 h_S_)
        (Host.reduceAdd (noObjSqB (P0 V0) (T0 V0)) (constant S_ .f32 0x00000000#32) reducesTo_S16384x7x7x1_S_d0_1_2_3 h_S_) :=
  k7_v198 (val7 V0) (P0 V0) (T0 V0) (val7_v0 V0) (val7_arg1 V0) (val7_v130 V0) (val7_v131 V0)
theorem val8_v206 : val8 V0 (Proc.devRef .tc main_v206) = clsSqV (P0 V0) (T0 V0) :=
  k7_v206 (val7 V0) (P0 V0) (T0 V0) (val7_v0 V0) (val7_arg1 V0) (val7_v130 V0) (val7_v131 V0)

/-! ### After chunk 8: the total -/
theorem val9_arg0 : val9 V0 (Proc.devRef .tc main_arg0) = V0 (Proc.devRef .tc main_arg0) := (keep8_arg0 _).trans (val8_arg0 V0)
theorem val9_arg1 : val9 V0 (Proc.devRef .tc main_arg1) = V0 (Proc.devRef .tc main_arg1) := (keep8_arg1 _).trans (val8_arg1 V0)
theorem val9_v212 : val9 V0 (Proc.devRef .tc main_v212) = total (P0 V0) (T0 V0) :=
  k8_v212 (val8 V0) (P0 V0) (T0 V0) (val8_v162 V0) (val8_v175 V0) (val8_v198 V0) (val8_v206 V0)

end Joined

/-! ## The run -/

/-- @main's windows as lists of operations. -/
abbrev part0 : List (HloOp τ sig (Elt F)) := ops0
abbrev part1 : List (HloOp τ sig (Elt F)) := ops1 ++ ops2
abbrev part2 : List (HloOp τ sig (Elt F)) := ops3 ++ (ops4 ++ ops5)
abbrev part3 : List (HloOp τ sig (Elt F)) := ops6 ++ ops7
abbrev part4 : List (HloOp τ sig (Elt F)) := ops8

/-- @main's 257 operations, in order. -/
abbrev opsAll : List (HloOp τ sig (Elt F)) := part0 ++ (part1 ++ (part2 ++ (part3 ++ part4)))

set_option maxRecDepth 8192 in
set_option maxHeartbeats 4000000 in
theorem main_part0_eq (c : Dev nD) : main_part0 (F := F) c = seq part0 := rfl
set_option maxRecDepth 8192 in
set_option maxHeartbeats 4000000 in
theorem main_part1_eq (c : Dev nD) : main_part1 (F := F) c = seq part1 := rfl
set_option maxRecDepth 8192 in
set_option maxHeartbeats 4000000 in
theorem main_part2_eq (c : Dev nD) : main_part2 (F := F) c = seq part2 := rfl
set_option maxRecDepth 8192 in
set_option maxHeartbeats 4000000 in
theorem main_part3_eq (c : Dev nD) : main_part3 (F := F) c = seq part3 := rfl
set_option maxRecDepth 8192 in
set_option maxHeartbeats 4000000 in
theorem main_part4_eq (c : Dev nD) : main_part4 (F := F) c = seq part4 := rfl

/-- @main is the line of its operations. -/
theorem main_eq (c : Dev nD) : main (F := F) c = seq opsAll := by
  have h : main (F := F) c
      = (main_part0 c >>= fun _ => main_part1 c >>= fun _ => main_part2 c >>= fun _ => main_part3 c >>= fun _ => main_part4 c) := rfl
  rw [h, main_part0_eq, main_part1_eq, main_part2_eq, main_part3_eq, main_part4_eq]
  simp only [opsAll, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsAll_sub : (opsAll : List (HloOp τ sig (Elt F))).Forall fun op => op.bufs ⊆ tcRefs τ sig :=
  forall_app ops0_sub (forall_app (forall_app ops1_sub ops2_sub) (forall_app (forall_app ops3_sub (forall_app ops4_sub ops5_sub))
    (forall_app (forall_app ops6_sub ops7_sub) ops8_sub)))

/-- Every operation determines its results. -/
theorem opsAll_fresh : (opsAll : List (HloOp τ sig (Elt F))).Forall fun op => op.fresh = ∅ :=
  forall_app ops0_fresh (forall_app (forall_app ops1_fresh ops2_fresh) (forall_app (forall_app ops3_fresh (forall_app ops4_fresh ops5_fresh))
    (forall_app (forall_app ops6_fresh ops7_fresh) ops8_fresh)))

/-- The contents after all the operations are the contents after the nine chunks. -/
theorem after_opsAll (V0 : Valuation τ sig (Elt F)) : after opsAll V0 = val9 V0 := by
  simp only [opsAll, part0, part1, part2, part3, part4, after_app]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v212) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v212).trans ((congrFun (after_opsAll (launchContents m c)) _).trans (val9_v212 (launchContents m c))),
       (h c main_arg0).trans ((congrFun (after_opsAll (launchContents m c)) _).trans (val9_arg0 (launchContents m c))),
       (h c main_arg1).trans ((congrFun (after_opsAll (launchContents m c)) _).trans (val9_arg1 (launchContents m c)))⟩)
    (run_seq scopedRefs_eq scopedSems_eq defs main (fun _ => opsAll) main_eq (fun _ => opsAll_sub) m ρ
      (fun _ => List.forall_iff_forall_mem.mp opsAll_fresh))

end Cert.ReferenceIdeal.RefRun

end
-- ==== Proof.LibERealSums.lean ====
/-
  Finite sums of extended reals. Multiplication by a FINITE nonnegative constant distributes over a sum of any
  extended reals (no sign condition on the terms: the only failures of distributivity on the extended reals have an
  infinite factor), so a weighted total of several sums taken block by block is the weighted total of the whole sums;
  and a sum over 16384 rows is the sum over 256 blocks of 64 rows.
-/
import Mathlib.Data.EReal.Operations
import Mathlib.Algebra.BigOperators.Fin
import Mathlib.Algebra.BigOperators.Ring.Finset

namespace ERealSums

open Finset

/-- A finite nonnegative constant times a finite sum is the sum of the products. -/
theorem mul_sum_of_finite {ι : Type*} (s : Finset ι) (c : EReal) (hc : 0 ≤ c) (hc' : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top hc hc', ih]

/-- The weighted total of four families of sums, taken term by term or after summing: the two weights finite and
    nonnegative. -/
theorem weighted_sum {ι : Type*} (s : Finset ι) (w v : EReal) (hw : 0 ≤ w) (hw' : w ≠ ⊤) (hv : 0 ≤ v) (hv' : v ≠ ⊤)
    (B O A A' C : ι → EReal) :
    ∑ i ∈ s, (w * B i + O i + v * (A i + A' i) + C i)
      = w * ∑ i ∈ s, B i + ∑ i ∈ s, O i + v * (∑ i ∈ s, A i + ∑ i ∈ s, A' i) + ∑ i ∈ s, C i := by
  rw [Finset.sum_add_distrib, Finset.sum_add_distrib, Finset.sum_add_distrib, ← mul_sum_of_finite s w hw hw',
    ← mul_sum_of_finite s v hv hv', Finset.sum_add_distrib]

/-- A sum over 16384 rows, block by block: 256 blocks of 64 rows. -/
theorem sum_blocks {M : Type*} [AddCommMonoid M] (f : Fin 16384 → M) :
    ∑ r, f r = ∑ t : Fin 256, ∑ n : Fin 64, f ⟨64 * t.val + n.val, by have := t.isLt; have := n.isLt; omega⟩ := by
  have e := Equiv.sum_comp (finProdFinEquiv (m := 256) (n := 64)) (fun r : Fin (256 * 64) => f r)
  rw [show (∑ r, f r) = ∑ r : Fin (256 * 64), f r from rfl, ← e, Fintype.sum_prod_type]
  refine Finset.sum_congr rfl fun t _ => Finset.sum_congr rfl fun n _ => congrArg f (Fin.ext ?_)
  show n.val + 64 * t.val = 64 * t.val + n.val
  omega

end ERealSums
-- ==== Proof.Bridge.lean ====
/-
  The two programs' results are one number. The kernel's: zero plus, over the 256 grid points, five times the
  block's box sum, its object sum, half its two no-object sums and its class sum, each over the block's 64 × 7 × 7
  cells. The reference's: five times (zero plus the box sum over all 16384 × 7 × 7 cells) plus the like. Row n of
  block t is row 64 t + n of the arrays, 16384 rows are 256 blocks of 64, zero is the extended real 0, and the two
  weights are finite and nonnegative, so they distribute over the sums of the blocks' totals.
-/
import proofs.«428076_j53652731461925_3_alg».proof.Proof.KernelValue
import proofs.«428076_j53652731461925_3_alg».proof.Proof.RefCells
import proofs.«428076_j53652731461925_3_alg».proof.Proof.RefRun
import proofs.«428076_j53652731461925_3_alg».proof.Proof.LibERealSums
import proofs.«428076_j53652731461925_3_alg».proof.Proof.Consts

noncomputable section

open Idealize.ShloMosaic Idealize.ShloMosaic.TcCoe Idealize.SL.Sem Idealize.ShloMosaic.ValueIdx

namespace Cert.Bridge

open Cert.KernelIdeal Cert.KernelIdeal.Gen Cert.KernelIdeal.Cells Cert.KernelIdeal.RunValue Cert.CellLoss

variable (m : (ℓ : Loc nD τ sig) → Buf (Elt Ideal) ℓ)

/-- The predictions as the region finds them: the host's reshape of the first argument. -/
theorem V_main_v0 (c : Dev nD) :
    (V m c main_v0 : FVec Ideal S16384x7x7x30 .f32)
      = shapeCast S16384x7x7x30 (m ((c : Thread nD τ).loc main_arg0)) shapeCasts_S16384x1470_S16384x7x7x30 := by
  show StableHlo.after hostOps0 (fun b => m (c, b)) (Proc.devRef .tc main_v0) = _
  after_results
  rfl

/-- Each input window's block index at point `t`: block `t` along the rows, block 0 on the other axes. -/
theorem idx_facts0 : ∀ t : Fin cfg0.N,
    win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx_facts1 : ∀ t : Fin cfg0.N,
    win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- Row `n` of block `t`, as a row of the whole array. -/
abbrev row (t : Fin cfg0.N) (n : Fin 64) : Fin 16384 :=
  ⟨64 * t.val + n.val, by have := lt_of_lt_of_eq t.isLt N_0; have := n.isLt; omega⟩

/-- The predictions' block at point `t` reads the reshaped predictions at rows 64 t … 64 t + 63. -/
theorem iblk0_apply (c : Dev nD) (t : Fin cfg0.N) (n : Fin 64) (a b : Fin 7) (k : Fin 30) :
    (iblk m c 0 t : Vec Ideal S64x7x7x30 .f32) (ix4 n a b k)
      = (V m c main_v0 : FVec Ideal S16384x7x7x30 .f32) (ix4 (row t n) a b k) := by
  unfold iblk
  rw [View.read_apply]
  show V m c main_v0 _ = V m c main_v0 _
  congr 1
  funext d
  apply Fin.ext
  match d with
  | ⟨0, _⟩ => show win0_0.index t 0 * 64 + 1 * n.val = 64 * t.val + n.val; rw [(idx_facts0 t).1]; omega
  | ⟨1, _⟩ => show win0_0.index t 1 * 7 + 1 * a.val = a.val; rw [(idx_facts0 t).2.1]; omega
  | ⟨2, _⟩ => show win0_0.index t 2 * 7 + 1 * b.val = b.val; rw [(idx_facts0 t).2.2.1]; omega
  | ⟨3, _⟩ => show win0_0.index t 3 * 30 + 1 * k.val = k.val; rw [(idx_facts0 t).2.2.2]; omega

/-- The targets' block likewise. -/
theorem iblk1_apply (c : Dev nD) (t : Fin cfg0.N) (n : Fin 64) (a b : Fin 7) (k : Fin 30) :
    (iblk m c 1 t : Vec Ideal S64x7x7x30 .f32) (ix4 n a b k)
      = (V m c main_arg1 : FVec Ideal S16384x7x7x30 .f32) (ix4 (row t n) a b k) := by
  unfold iblk
  rw [View.read_apply]
  show V m c main_arg1 _ = V m c main_arg1 _
  congr 1
  funext d
  apply Fin.ext
  match d with
  | ⟨0, _⟩ => show win0_1.index t 0 * 64 + 1 * n.val = 64 * t.val + n.val; rw [(idx_facts1 t).1]; omega
  | ⟨1, _⟩ => show win0_1.index t 1 * 7 + 1 * a.val = a.val; rw [(idx_facts1 t).2.1]; omega
  | ⟨2, _⟩ => show win0_1.index t 2 * 7 + 1 * b.val = b.val; rw [(idx_facts1 t).2.2.1]; omega
  | ⟨3, _⟩ => show win0_1.index t 3 * 30 + 1 * k.val = k.val; rw [(idx_facts1 t).2.2.2]; omega

/-! ## A grid point's total over the whole arrays' cells -/

section Totals

open Cert.ReferenceIdeal.Cells (chan)

variable (P T : FVec Ideal S16384x7x7x30 .f32)

/-- Row `n` of block `t`. -/
abbrev rowOf (t : Fin 256) (n : Fin 64) : Fin 16384 := ⟨64 * t.val + n.val, by have := t.isLt; have := n.isLt; omega⟩

/-- The five sums over the cells of block `t` of the whole arrays. -/
def boxB (t : Fin 256) : E := ∑ n : Fin 64, ∑ a : Fin 7, ∑ b : Fin 7, boxCell (chan P (rowOf t n) a b) (chan T (rowOf t n) a b)
def objB (t : Fin 256) : E := ∑ n : Fin 64, ∑ a : Fin 7, ∑ b : Fin 7, objCell (chan P (rowOf t n) a b) (chan T (rowOf t n) a b)
def noObjBA (t : Fin 256) : E := ∑ n : Fin 64, ∑ a : Fin 7, ∑ b : Fin 7, noObjCellA (chan P (rowOf t n) a b) (chan T (rowOf t n) a b)
def noObjBB (t : Fin 256) : E := ∑ n : Fin 64, ∑ a : Fin 7, ∑ b : Fin 7, noObjCellB (chan P (rowOf t n) a b) (chan T (rowOf t n) a b)
def clsB (t : Fin 256) : E :=
  ∑ n : Fin 64, ∑ a : Fin 7, ∑ b : Fin 7, ∑ k : Fin 20, clsCell (chan P (rowOf t n) a b) (chan T (rowOf t n) a b) k

end Totals

/-- Grid point `t`'s weighted total, over the cells of the reshaped predictions and the targets. -/
theorem pointTotal_eq (c : Dev nD) (t : Fin 256) (h : t.val < cfg0.N) :
    pointTotal m c t.val h
      = five * boxB (V m c main_v0) (V m c main_arg1) t + objB (V m c main_v0) (V m c main_arg1) t
        + half * (noObjBA (V m c main_v0) (V m c main_arg1) t + noObjBB (V m c main_v0) (V m c main_arg1) t)
        + clsB (V m c main_v0) (V m c main_arg1) t := by
  have e0 : ∀ (n : Fin 64) (a b : Fin 7),
      Cells.chan (iblk m c 0 ⟨t.val, h⟩) n a b = Cert.ReferenceIdeal.Cells.chan (V m c main_v0) (rowOf t n) a b :=
    fun n a b => funext fun k => iblk0_apply m c ⟨t.val, h⟩ n a b k
  have e1 : ∀ (n : Fin 64) (a b : Fin 7),
      Cells.chan (iblk m c 1 ⟨t.val, h⟩) n a b = Cert.ReferenceIdeal.Cells.chan (V m c main_arg1) (rowOf t n) a b :=
    fun n a b => funext fun k => iblk1_apply m c ⟨t.val, h⟩ n a b k
  unfold pointTotal blockTotal boxB objB noObjBA noObjBB clsB
  simp only [e0, e1]

/-- Zero is the extended real 0; the two weights are finite and nonnegative. -/
theorem zero_eq : (zero : EReal) = 0 := Ideal.ofBits_zero_f32
theorem five_nonneg : (0 : EReal) ≤ five := by
  show (0 : EReal) ≤ Ideal.ofBits .f32 0x40A00000#32
  rw [Cert.Consts.ofBits_five]; exact EReal.coe_nonneg.mpr (by norm_num)
theorem five_ne_top : (five : EReal) ≠ ⊤ := by
  show Ideal.ofBits .f32 0x40A00000#32 ≠ ⊤
  rw [Cert.Consts.ofBits_five]; exact EReal.coe_ne_top _
theorem half_nonneg : (0 : EReal) ≤ half := by
  show (0 : EReal) ≤ Ideal.ofBits .f32 0x3F000000#32
  rw [Cert.Consts.ofBits_half]; exact EReal.coe_nonneg.mpr (by norm_num)
theorem half_ne_top : (half : EReal) ≠ ⊤ := by
  show Ideal.ofBits .f32 0x3F000000#32 ≠ ⊤
  rw [Cert.Consts.ofBits_half]; exact EReal.coe_ne_top _

/-- The kernel's result is the reference's total of the reshaped predictions and the targets. -/
theorem result_eq_total (c : Dev nD) (j : S_.Idx) :
    @Eq EReal (result m c j)
      (Cert.ReferenceIdeal.Stages.total (F := Ideal) (V m c main_v0 : FVec Ideal S16384x7x7x30 .f32) (V m c main_arg1 : FVec Ideal S16384x7x7x30 .f32) j) := by
  rw [result_apply, Cert.ReferenceIdeal.Cells.total_apply]
  simp only [zero_eq, zero_add]
  rw [ERealSums.sum_blocks, ERealSums.sum_blocks, ERealSums.sum_blocks, ERealSums.sum_blocks, ERealSums.sum_blocks]
  have hw := ERealSums.weighted_sum (Finset.univ : Finset (Fin 256)) five half five_nonneg five_ne_top half_nonneg half_ne_top
    (boxB (V m c main_v0) (V m c main_arg1)) (objB (V m c main_v0) (V m c main_arg1))
    (noObjBA (V m c main_v0) (V m c main_arg1)) (noObjBB (V m c main_v0) (V m c main_arg1)) (clsB (V m c main_v0) (V m c main_arg1))
  refine Eq.trans (Finset.sum_congr rfl fun t _ => pointTotal_eq m c t _) (hw.trans ?_)
  rfl

/-- So @main's result is the reference's total of the reshaped first argument and the second argument. -/
theorem result_eq (c : Dev nD) :
    (result m c : FVec Ideal S_ .f32)
      = Cert.ReferenceIdeal.Stages.total (F := Ideal)
          (Cert.ReferenceIdeal.Stages.reshaped (F := Ideal) (m ((c : Thread nD τ).loc main_arg0)))
          (m ((c : Thread nD τ).loc main_arg1)) := by
  funext j
  refine (result_eq_total m c j).trans ?_
  rw [V_main_v0, V_main_arg1]
  rfl

end Cert.Bridge

end
-- ==== Proof.lean ====
/-
  The proof of `Cert.Claim`: the kernel, its idealization and the reference all run to completion with their
  arguments unchanged; the idealization's one rewrite (a float's sign read off its sign bit) is the sign-bit rule's
  statement; and at the ideal instance the two programs return the same number. The kernel accumulates, over 256
  blocks of 64 rows, five times the block's sum of squared box differences, its sum of squared object-confidence
  differences, half its two sums of squared no-object differences and its sum of squared class differences; the
  reference takes each of the five sums over all 16384 rows at once and weights them afterwards. Cell by cell the
  summands are the same function of a cell's channels, sums of extended reals rearrange freely, and the two weights,
  being finite and nonnegative, distribute over them.
-/
import proofs.«428076_j53652731461925_3_alg».proof.Defs
import proofs.«428076_j53652731461925_3_alg».proof.Proof.Gen.Kernel
import proofs.«428076_j53652731461925_3_alg».proof.Proof.Gen.Kernel.Skeleton
import proofs.«428076_j53652731461925_3_alg».proof.Proof.Gen.Kernel.Launch
import proofs.«428076_j53652731461925_3_alg».proof.Proof.Gen.Kernel.Points
import proofs.«428076_j53652731461925_3_alg».proof.Proof.Gen.Kernel.Frame
import proofs.«428076_j53652731461925_3_alg».proof.Proof.Gen.KernelIdeal
import proofs.«428076_j53652731461925_3_alg».proof.Proof.Gen.KernelIdeal.Skeleton
import proofs.«428076_j53652731461925_3_alg».proof.Proof.Gen.KernelIdeal.Launch
import proofs.«428076_j53652731461925_3_alg».proof.Proof.Gen.KernelIdeal.Points
import proofs.«428076_j53652731461925_3_alg».proof.Proof.Gen.KernelIdeal.Frame
import proofs.«428076_j53652731461925_3_alg».proof.Proof.Gen.ReferenceIdeal
import proofs.«428076_j53652731461925_3_alg».proof.Proof.Gen.Pre_finite_inputs
import proofs.«428076_j53652731461925_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The one rewrite: one with a value's sign bit is minus one below zero and one otherwise. -/
theorem preserves : Cert.preserves_Kernel_KernelIdeal := IdealRules.sign_bit.statement Cert.KernelIdeal.S64x7x7x2 .f32

/-- Both programs end at the weighted total of the cell losses of arguments that agree. -/
theorem algebraic : Cert.algebraic_KernelIdeal_ReferenceIdeal := by
  intro m ρ m' ρ' _ hagree
  refine ⟨fun c => Cert.KernelIdeal.RunValue.result m c, Cert.KernelIdeal.RunValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  show Cert.ReferenceIdeal.RefRun.result m' c = _
  unfold Cert.ReferenceIdeal.RefRun.result
  rw [(hagree c).1, (hagree c).2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
